-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048x2048 : Shape := ⟨2, ![2048, 2048]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S2048 .f32) (main_arg5 : FVec F S2048x2048 .f32) (main_arg6 : FVec F S2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048x2048 .f32 := Host.absf main_arg5
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  main_v33

def fn {F : FTy → Type} [FloatOps F] (main_arg0 : FVec F S4096x2048 .f32) (main_arg1 : FVec F S2048x2048 .f32) (main_arg2 : FVec F S2048 .f32) (main_arg3 : FVec F S2048x2048 .f32) (main_arg4 : FVec F S2048 .f32) (main_arg5 : FVec F S2048x2048 .f32) (main_arg6 : FVec F S2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_v13 main_v16
-- ==== Kernel.lean ====
abbrev S4096x2048 : Shape := ⟨2, ![4096, 2048]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S512x512 : Shape := ⟨2, ![512, 512]⟩

abbrev nBuf : Space → Nat
  | .hbm => 18
  | .vmem => 27
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S2048, .f32⟩
  | .hbm, ⟨3, _⟩ => ⟨S2048x2048, .f32⟩
  | .hbm, ⟨4, _⟩ => ⟨S2048, .f32⟩
  | .hbm, ⟨5, _⟩ => ⟨S2048x2048, .f32⟩
  | .hbm, ⟨6, _⟩ => ⟨S2048, .f32⟩
  | .hbm, ⟨7, _⟩ => ⟨S4096x2048, .bf16⟩
  | .hbm, ⟨8, _⟩ => ⟨S2048x2048, .bf16⟩
  | .hbm, ⟨9, _⟩ => ⟨S2048x2048, .bf16⟩
  | .hbm, ⟨10, _⟩ => ⟨S2048x2048, .bf16⟩
  | .hbm, ⟨11, _⟩ => ⟨S1x2048, .f32⟩
  | .hbm, ⟨12, _⟩ => ⟨S4096x2048, .bf16⟩
  | .hbm, ⟨13, _⟩ => ⟨S1x2048, .f32⟩
  | .hbm, ⟨14, _⟩ => ⟨S4096x2048, .bf16⟩
  | .hbm, ⟨15, _⟩ => ⟨S1x2048, .f32⟩
  | .hbm, ⟨16, _⟩ => ⟨S4096x2048, .bf16⟩
  | .hbm, ⟨17, _⟩ => ⟨S4096x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S1x2048, .f32⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S2048x2048, .bf16⟩
  | .local _ .vmem, ⟨9, _⟩ => ⟨S1x2048, .f32⟩
  | .local _ .vmem, ⟨10, _⟩ => ⟨S512x2048, .bf16⟩
  | .local _ .vmem, ⟨11, _⟩ => ⟨S512x2048, .bf16⟩
  | .local _ .vmem, ⟨12, _⟩ => ⟨S512x2048, .bf16⟩
  | .local _ .vmem, ⟨13, _⟩ => ⟨S512x2048, .bf16⟩
  | .local _ .vmem, ⟨14, _⟩ => ⟨S2048x2048, .bf16⟩
  | .local _ .vmem, ⟨15, _⟩ => ⟨S1x2048, .f32⟩
  | .local _ .vmem, ⟨16, _⟩ => ⟨S512x2048, .bf16⟩
  | .local _ .vmem, ⟨17, _⟩ => ⟨S512x2048, .bf16⟩
  | .local _ .vmem, ⟨18, _⟩ => ⟨S512x2048, .bf16⟩
  | .local _ .vmem, ⟨19, _⟩ => ⟨S512x2048, .bf16⟩
  | .local _ .vmem, ⟨20, _⟩ => ⟨S512x2048, .bf16⟩
  | .local _ .vmem, ⟨21, _⟩ => ⟨S512x2048, .bf16⟩
  | .local _ .vmem, ⟨22, _⟩ => ⟨S512x2048, .bf16⟩
  | .local _ .vmem, ⟨23, _⟩ => ⟨S512x2048, .bf16⟩
  | .local _ .vmem, ⟨24, _⟩ => ⟨S512x2048, .f32⟩
  | .local _ .vmem, ⟨25, _⟩ => ⟨S512x2048, .f32⟩
  | .local _ .vmem, ⟨26, _⟩ => ⟨S512x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg3_1 : Ref sig .tc := ⟨.vmem, 25, rfl⟩
abbrev cc3_scratch0 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem3_1 : DmaSem sig := 25

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x2048 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2048x2048 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x2048 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x2048 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨2, ![8, 8], ![false, false]⟩

def k3_cond2 (i : grid3.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_12 : BitVec 32 := 0#32
  let v21 : BitVec 1 := Scalar.cmpi .ne v20 c0_i32_12
  v21

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S512x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S512x2048 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S512x2048 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 2 → Memref sig .tc .vmem S512x2048 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

class Facts₀ : Prop where
  bitsLt_bf16_f32 : FTy.bits .bf16 < FTy.bits .f32
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  packedbf16_S512x2048_S512x2048_0_0 : (Rect.unit (s := S512x2048) ![0, 0] S512x2048.size inb_S512x2048_S512x2048_0_0).PackedRows (EltTy.packing .bf16)
  dot_S512x2048_S2048x2048_S512x2048_1_1_0_0_n_n_wf : DotDims.WF S512x2048 S2048x2048 S512x2048 [1] [1] [0] [0] [] []
  dot_S512x2048_S512x2048_S512x512_1_1_0_0_n_n_wf : DotDims.WF S512x2048 S512x2048 S512x512 [1] [1] [0] [0] [] []
  dot_S512x512_S512x2048_S512x2048_1_0_0_1_n_n_wf : DotDims.WF S512x512 S512x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x2048.size a
  hwx0_0 : ∀ i : grid0.Coords, EltTy.bits .bf16 = 32 ∨ (Rect.block (s := S4096x2048) S512x2048.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S4096x2048.size a
  hwx0_3 : ∀ i : grid0.Coords, EltTy.bits .bf16 = 32 ∨ (Rect.block (s := S4096x2048) S512x2048.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S4096x2048.size a
  hwx1_0 : ∀ i : grid1.Coords, EltTy.bits .bf16 = 32 ∨ (Rect.block (s := S4096x2048) S512x2048.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x2048.size a ≤ S2048x2048.size a
  hwx1_1 : ∀ i : grid1.Coords, EltTy.bits .bf16 = 32 ∨ (Rect.block (s := S2048x2048) S2048x2048.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x2048.size a
  hwx1_2 : ∀ i : grid1.Coords, EltTy.bits .f32 = 32 ∨ (Rect.block (s := S1x2048) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x2048.size a ≤ S4096x2048.size a
  hwx1_3 : ∀ i : grid1.Coords, EltTy.bits .bf16 = 32 ∨ (Rect.block (s := S4096x2048) S512x2048.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x2048.size a ≤ S4096x2048.size a
  hwx2_0 : ∀ i : grid2.Coords, EltTy.bits .bf16 = 32 ∨ (Rect.block (s := S4096x2048) S512x2048.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S2048x2048.size a ≤ S2048x2048.size a
  hwx2_1 : ∀ i : grid2.Coords, EltTy.bits .bf16 = 32 ∨ (Rect.block (s := S2048x2048) S2048x2048.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x2048.size a ≤ S1x2048.size a
  hwx2_2 : ∀ i : grid2.Coords, EltTy.bits .f32 = 32 ∨ (Rect.block (s := S1x2048) S1x2048.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x2048.size a ≤ S4096x2048.size a
  hwx2_3 : ∀ i : grid2.Coords, EltTy.bits .bf16 = 32 ∨ (Rect.block (s := S4096x2048) S512x2048.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x2048.size a ≤ S4096x2048.size a
  hwx3_0 : ∀ i : grid3.Coords, EltTy.bits .bf16 = 32 ∨ (Rect.block (s := S4096x2048) S512x2048.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S512x2048.size a ≤ S4096x2048.size a
  hwx3_1 : ∀ i : grid3.Coords, EltTy.bits .bf16 = 32 ∨ (Rect.block (s := S4096x2048) S512x2048.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S512x2048.size a ≤ S4096x2048.size a
  hwx3_2 : ∀ i : grid3.Coords, EltTy.bits .bf16 = 32 ∨ (Rect.block (s := S4096x2048) S512x2048.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S512x2048.size a ≤ S4096x2048.size a
  hwx3_3 : ∀ i : grid3.Coords, EltTy.bits .f32 = 32 ∨ (Rect.block (s := S4096x2048) S512x2048.size (cc3_transform_3 i) (hinb3_3 i)).WholeWords (EltTy.packing .f32)

variable [Facts₀]

def dot_S512x2048_S2048x2048_S512x2048_1_1_0_0_n_n : DotDims S512x2048 S2048x2048 S512x2048 where
  lhsContracting := [1]
  rhsContracting := [1]
  lhsNonContracting := [0]
  rhsNonContracting := [0]
  lhsBatch := []
  rhsBatch := []
  wf := dot_S512x2048_S2048x2048_S512x2048_1_1_0_0_n_n_wf
def dot_S512x2048_S512x2048_S512x512_1_1_0_0_n_n : DotDims S512x2048 S512x2048 S512x512 where
  lhsContracting := [1]
  rhsContracting := [1]
  lhsNonContracting := [0]
  rhsNonContracting := [0]
  lhsBatch := []
  rhsBatch := []
  wf := dot_S512x2048_S512x2048_S512x512_1_1_0_0_n_n_wf
def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S2048x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S512x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v0) S512x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S2048x2048.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v8) S1x2048.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v9) S512x2048.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v5) S512x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v7) S512x2048.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v9) S512x2048.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v10) S512x2048.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

class Facts : Prop extends Facts₀ where

variable [Facts]
-- ==== ReferenceIdeal.lean ====
abbrev S4096x2048 : Shape := ⟨2, ![4096, 2048]⟩
abbrev S2048x2048 : Shape := ⟨2, ![2048, 2048]⟩
abbrev S2048 : Shape := ⟨1, ![2048]⟩
abbrev S1x2048 : Shape := ⟨2, ![1, 2048]⟩
abbrev S2048x4096 : Shape := ⟨2, ![2048, 4096]⟩
abbrev S4096x4096 : Shape := ⟨2, ![4096, 4096]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S2048, .f32⟩
  | .hbm, ⟨3, _⟩ => ⟨S2048x2048, .f32⟩
  | .hbm, ⟨4, _⟩ => ⟨S2048, .f32⟩
  | .hbm, ⟨5, _⟩ => ⟨S2048x2048, .f32⟩
  | .hbm, ⟨6, _⟩ => ⟨S2048, .f32⟩
  | .hbm, ⟨7, _⟩ => ⟨S2048x2048, .f32⟩
  | .hbm, ⟨8, _⟩ => ⟨S4096x2048, .f32⟩
  | .hbm, ⟨9, _⟩ => ⟨S1x2048, .f32⟩
  | .hbm, ⟨10, _⟩ => ⟨S4096x2048, .f32⟩
  | .hbm, ⟨11, _⟩ => ⟨S4096x2048, .f32⟩
  | .hbm, ⟨12, _⟩ => ⟨S2048x2048, .f32⟩
  | .hbm, ⟨13, _⟩ => ⟨S4096x2048, .f32⟩
  | .hbm, ⟨14, _⟩ => ⟨S1x2048, .f32⟩
  | .hbm, ⟨15, _⟩ => ⟨S4096x2048, .f32⟩
  | .hbm, ⟨16, _⟩ => ⟨S4096x2048, .f32⟩
  | .hbm, ⟨17, _⟩ => ⟨S2048x2048, .f32⟩
  | .hbm, ⟨18, _⟩ => ⟨S4096x2048, .f32⟩
  | .hbm, ⟨19, _⟩ => ⟨S1x2048, .f32⟩
  | .hbm, ⟨20, _⟩ => ⟨S4096x2048, .f32⟩
  | .hbm, ⟨21, _⟩ => ⟨S4096x2048, .f32⟩
  | .hbm, ⟨22, _⟩ => ⟨S2048x4096, .f32⟩
  | .hbm, ⟨23, _⟩ => ⟨S4096x4096, .f32⟩
  | .hbm, ⟨24, _⟩ => ⟨S_, .f32⟩
  | .hbm, ⟨25, _⟩ => ⟨S4096x4096, .f32⟩
  | .hbm, ⟨26, _⟩ => ⟨S4096x4096, .f32⟩
  | .hbm, ⟨27, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]

class Facts₀ : Prop where
  transposes_S2048x2048_S2048x2048_1_0 : S2048x2048.Transposes [1, 0] S2048x2048
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  transposes_S4096x2048_S2048x4096_1_0 : S4096x2048.Transposes [1, 0] S2048x4096
  bcast_S_S4096x4096 : S_.BroadcastsInDim S4096x4096 (![] : Fin 0 → Fin S4096x4096.rank)
  dot_S4096x2048_S2048x2048_S4096x2048_1_0_0_1_n_n_wf : DotDims.WF S4096x2048 S2048x2048 S4096x2048 [1] [0] [0] [1] [] []
  dot_S4096x2048_S2048x4096_S4096x4096_1_0_0_1_n_n_wf : DotDims.WF S4096x2048 S2048x4096 S4096x4096 [1] [0] [0] [1] [] []
  dot_S4096x4096_S4096x2048_S4096x2048_1_0_0_1_n_n_wf : DotDims.WF S4096x4096 S4096x2048 S4096x2048 [1] [0] [0] [1] [] []

variable [Facts₀]

def dot_S4096x2048_S2048x2048_S4096x2048_1_0_0_1_n_n : DotDims S4096x2048 S2048x2048 S4096x2048 where
  lhsContracting := [1]
  rhsContracting := [0]
  lhsNonContracting := [0]
  rhsNonContracting := [1]
  lhsBatch := []
  rhsBatch := []
  wf := dot_S4096x2048_S2048x2048_S4096x2048_1_0_0_1_n_n_wf
def dot_S4096x2048_S2048x4096_S4096x4096_1_0_0_1_n_n : DotDims S4096x2048 S2048x4096 S4096x4096 where
  lhsContracting := [1]
  rhsContracting := [0]
  lhsNonContracting := [0]
  rhsNonContracting := [1]
  lhsBatch := []
  rhsBatch := []
  wf := dot_S4096x2048_S2048x4096_S4096x4096_1_0_0_1_n_n_wf
def dot_S4096x4096_S4096x2048_S4096x2048_1_0_0_1_n_n : DotDims S4096x4096 S4096x2048 S4096x2048 where
  lhsContracting := [1]
  rhsContracting := [0]
  lhsNonContracting := [0]
  rhsNonContracting := [1]
  lhsBatch := []
  rhsBatch := []
  wf := dot_S4096x4096_S4096x2048_S4096x2048_1_0_0_1_n_n_wf

class Facts : Prop extends Facts₀ where

variable [Facts]
-- ==== Proof.K.Lin0.lean ====
/-
  Region 0 (the projection of the rows of x by the first weight) as one item of the program's run, at a PARAMETER V:
  the contents of the TensorCore's buffers when the region is entered. At grid point t the body reads its three
  input blocks whole (512 rows of x, the whole weight, the bias row), stores one value over the whole output block,
  and touches nothing else; so what it leaves in the output window's buffer is one function 'out0_3' of the three
  input blocks, the inputs stay as they were, and the region's invariant is the plain one (the scoped rest and the
  generator register, untouched). The proof data 'dat0 V c' say exactly that, and 'body_obligation0' is the body's
  triple at every point. Generic in the float family.
-/
import proofs.«111568_j50783693308389_1_alg».proof.Proof.Gen.Kernel.Launch
import proofs.«111568_j50783693308389_1_alg».proof.Proof.Gen.Kernel.Skeleton
import proofs.«111568_j50783693308389_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (where it is not
    fetched its block index has not moved), for any proof data whose array is V's and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer read or written whole -/

abbrev r0_x : Rect S512x2048 := Rect.unit (s := S512x2048) ![0, 0] S512x2048.size inb_S512x2048_S512x2048_0_0
abbrev r0_w : Rect S2048x2048 := Rect.unit (s := S2048x2048) ![0, 0] S2048x2048.size inb_S2048x2048_S2048x2048_0_0
abbrev r0_b : Rect S1x2048 := Rect.unit (s := S1x2048) ![0, 0] S1x2048.size inb_S1x2048_S1x2048_0_0

/-- The output window's staging buffer after the body, from the three input blocks: its one store. -/
def out0_3 (x0 : Vec F S512x2048 .bf16) (x1 : Vec F S2048x2048 .bf16) (x2 : Vec F S1x2048 .f32) : Vec F S512x2048 .bf16 :=
  View.canon [⟨r0_x, k0_pay1 (View.ld x0 r0_x) (View.ld x1 r0_w) (View.ld x2 r0_b)⟩]

/-- That store covers the buffer. -/
theorem cover0_3 (p0 : Vec F S512x2048 .bf16) (y : S512x2048.Idx) :
    ∃ pc ∈ ([⟨r0_x, p0⟩] : List (View.Piece (Elt F) S512x2048 .bf16)), y ∈ pc.1.set :=
  View.cover_of_tiled [⟨r0_x, p0⟩] S512x2048.size (by rfl) y

/-! ## The body's triple -/

set_option maxHeartbeats 1000000 in
/-- On whole staging memrefs, the inputs' at contents x0 x1 x2 and the output's at anything, the body runs to the
    continuation holding the inputs' as they were and the output's at out0_3 of them. -/
theorem sound_kernel0 (c : Dev nD) (E : Set ℕ) (i : grid0.Coords) (arg1 : Memref sig .tc .vmem S512x2048 .bf16) (harg1 : arg1.IsWhole)
    (arg2 : Memref sig .tc .vmem S2048x2048 .bf16) (harg2 : arg2.IsWhole) (arg3 : Memref sig .tc .vmem S1x2048 .f32) (harg3 : arg3.IsWhole)
    (arg4 : Memref sig .tc .vmem S512x2048 .bf16) (harg4 : arg4.IsWhole)
    (x0 : Vec F S512x2048 .bf16) (x1 : Vec F S2048x2048 .bf16) (x2 : Vec F S1x2048 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The region's proof data -/

/-- The arrays as the region finds them; after the body at point t each input's buffer at its block and the output's
    at out0_3 of the input blocks; the plain invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.K.Lin1.lean ====
/-
  Region 1 (the projection of the rows of x by the second weight) as one item of the program's run, at a PARAMETER V:
  the contents of the TensorCore's buffers when the region is entered. At grid point t the body reads its three
  input blocks whole (512 rows of x, the whole weight, the bias row), stores one value over the whole output block,
  and touches nothing else; so what it leaves in the output window's buffer is one function 'out1_3' of the three
  input blocks, the inputs stay as they were, and the region's invariant is the plain one (the scoped rest and the
  generator register, untouched). The proof data 'dat1 V c' say exactly that, and 'body_obligation1' is the body's
  triple at every point. Generic in the float family.
-/
import proofs.«111568_j50783693308389_1_alg».proof.Proof.Gen.Kernel.Launch
import proofs.«111568_j50783693308389_1_alg».proof.Proof.Gen.Kernel.Skeleton
import proofs.«111568_j50783693308389_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (where it is not
    fetched its block index has not moved), for any proof data whose array is V's and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer read or written whole -/

abbrev r1_x : Rect S512x2048 := Rect.unit (s := S512x2048) ![0, 0] S512x2048.size inb_S512x2048_S512x2048_0_0
abbrev r1_w : Rect S2048x2048 := Rect.unit (s := S2048x2048) ![0, 0] S2048x2048.size inb_S2048x2048_S2048x2048_0_0
abbrev r1_b : Rect S1x2048 := Rect.unit (s := S1x2048) ![0, 0] S1x2048.size inb_S1x2048_S1x2048_0_0

/-- The output window's staging buffer after the body, from the three input blocks: its one store. -/
def out1_3 (x0 : Vec F S512x2048 .bf16) (x1 : Vec F S2048x2048 .bf16) (x2 : Vec F S1x2048 .f32) : Vec F S512x2048 .bf16 :=
  View.canon [⟨r1_x, k1_pay1 (View.ld x0 r1_x) (View.ld x1 r1_w) (View.ld x2 r1_b)⟩]

/-- That store covers the buffer. -/
theorem cover1_3 (p0 : Vec F S512x2048 .bf16) (y : S512x2048.Idx) :
    ∃ pc ∈ ([⟨r1_x, p0⟩] : List (View.Piece (Elt F) S512x2048 .bf16)), y ∈ pc.1.set :=
  View.cover_of_tiled [⟨r1_x, p0⟩] S512x2048.size (by rfl) y

/-! ## The body's triple -/

set_option maxHeartbeats 1000000 in
/-- On whole staging memrefs, the inputs' at contents x0 x1 x2 and the output's at anything, the body runs to the
    continuation holding the inputs' as they were and the output's at out1_3 of them. -/
theorem sound_kernel1 (c : Dev nD) (E : Set ℕ) (i : grid1.Coords) (arg1 : Memref sig .tc .vmem S512x2048 .bf16) (harg1 : arg1.IsWhole)
    (arg2 : Memref sig .tc .vmem S2048x2048 .bf16) (harg2 : arg2.IsWhole) (arg3 : Memref sig .tc .vmem S1x2048 .f32) (harg3 : arg3.IsWhole)
    (arg4 : Memref sig .tc .vmem S512x2048 .bf16) (harg4 : arg4.IsWhole)
    (x0 : Vec F S512x2048 .bf16) (x1 : Vec F S2048x2048 .bf16) (x2 : Vec F S1x2048 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__linear_kernel i arg1 harg1 arg2 harg2 arg3 harg3 arg4 harg4) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The region's proof data -/

/-- The arrays as the region finds them; after the body at point t each input's buffer at its block and the output's
    at out1_3 of the input blocks; the plain invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.K.Lin2.lean ====
/-
  Region 2 (the projection of the rows of x by the third weight) as one item of the program's run, at a PARAMETER V:
  the contents of the TensorCore's buffers when the region is entered. At grid point t the body reads its three
  input blocks whole (512 rows of x, the whole weight, the bias row), stores one value over the whole output block,
  and touches nothing else; so what it leaves in the output window's buffer is one function 'out2_3' of the three
  input blocks, the inputs stay as they were, and the region's invariant is the plain one (the scoped rest and the
  generator register, untouched). The proof data 'dat2 V c' say exactly that, and 'body_obligation2' is the body's
  triple at every point. Generic in the float family.
-/
import proofs.«111568_j50783693308389_1_alg».proof.Proof.Gen.Kernel.Launch
import proofs.«111568_j50783693308389_1_alg».proof.Proof.Gen.Kernel.Skeleton
import proofs.«111568_j50783693308389_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not (where it is not
    fetched its block index has not moved), for any proof data whose array is V's and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer read or written whole -/

abbrev r2_x : Rect S512x2048 := Rect.unit (s := S512x2048) ![0, 0] S512x2048.size inb_S512x2048_S512x2048_0_0
abbrev r2_w : Rect S2048x2048 := Rect.unit (s := S2048x2048) ![0, 0] S2048x2048.size inb_S2048x2048_S2048x2048_0_0
abbrev r2_b : Rect S1x2048 := Rect.unit (s := S1x2048) ![0, 0] S1x2048.size inb_S1x2048_S1x2048_0_0

/-- The output window's staging buffer after the body, from the three input blocks: its one store. -/
def out2_3 (x0 : Vec F S512x2048 .bf16) (x1 : Vec F S2048x2048 .bf16) (x2 : Vec F S1x2048 .f32) : Vec F S512x2048 .bf16 :=
  View.canon [⟨r2_x, k2_pay1 (View.ld x0 r2_x) (View.ld x1 r2_w) (View.ld x2 r2_b)⟩]

/-- That store covers the buffer. -/
theorem cover2_3 (p0 : Vec F S512x2048 .bf16) (y : S512x2048.Idx) :
    ∃ pc ∈ ([⟨r2_x, p0⟩] : List (View.Piece (Elt F) S512x2048 .bf16)), y ∈ pc.1.set :=
  View.cover_of_tiled [⟨r2_x, p0⟩] S512x2048.size (by rfl) y

/-! ## The body's triple -/

set_option maxHeartbeats 1000000 in
/-- On whole staging memrefs, the inputs' at contents x0 x1 x2 and the output's at anything, the body runs to the
    continuation holding the inputs' as they were and the output's at out2_3 of them. -/
theorem sound_kernel2 (c : Dev nD) (E : Set ℕ) (i : grid2.Coords) (arg1 : Memref sig .tc .vmem S512x2048 .bf16) (harg1 : arg1.IsWhole)
    (arg2 : Memref sig .tc .vmem S2048x2048 .bf16) (harg2 : arg2.IsWhole) (arg3 : Memref sig .tc .vmem S1x2048 .f32) (harg3 : arg3.IsWhole)
    (arg4 : Memref sig .tc .vmem S512x2048 .bf16) (harg4 : arg4.IsWhole)
    (x0 : Vec F S512x2048 .bf16) (x1 : Vec F S2048x2048 .bf16) (x2 : Vec F S1x2048 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__linear_kernel i arg1 harg1 arg2 harg2 arg3 harg3 arg4 harg4) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The region's proof data -/

/-- The arrays as the region finds them; after the body at point t each input's buffer at its block and the output's
    at out2_3 of the input blocks; the plain invariant; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.K.AttnRuns.lean ====
/- What the runs of the attention region's frame half share, at a parameter `V` (the TensorCore's buffer contents when
   the region is entered): each window's block at a point, the input windows' buffers at their blocks, the body's two
   branch conditions in closed form over the 8 x 8 grid, where the output window is idle, the staging and scratch
   memrefs, and the region invariant with the scratch as a memref owned at some contents. -/
import proofs.«111568_j50783693308389_1_alg».proof.Proof.Gen.Kernel.Launch
import proofs.«111568_j50783693308389_1_alg».proof.Proof.Gen.Kernel.Skeleton
import proofs.«111568_j50783693308389_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for ANY proof
    data whose array is `V`'s (`hA`) and whose body leaves the block in place (`hafter`): unfetched, the block index
    has not moved; the window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for ANY proof
    data whose array is `V`'s (`hA`) and whose body leaves the block in place (`hafter`): unfetched, the block index
    has not moved; the window is uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for ANY proof
    data whose array is `V`'s (`hA`) and whose body leaves the block in place (`hafter`): unfetched, the block index
    has not moved; the window is uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's branch conditions -/

/-- The condition of the body's first conditional (the scratch is reset), from the grid coordinates. -/
abbrev cond3_0 (i : grid3.Coords) : Prop := (Scalar.cmpi .ne (Scalar.extui (Scalar.cmpi .eq (BitVec.ofNat 32 (i 1).val) 0#32)) 0#32) = 1#1
/-- It holds at the points ≡ 0 (mod 8): the first value of grid coordinate 1. -/
theorem hcond3_0 : ∀ t : Fin cfg3.N, cond3_0 (grid3.coords t) ↔ t.val % 8 = 0 :=
  (by decide +kernel : ∀ t : Fin grid3.N, cond3_0 (grid3.coords t) ↔ t.val % 8 = 0)

/-- The condition of the body's second conditional (the scratch is written to the output). -/
abbrev cond3_1 (i : grid3.Coords) : Prop := k3_cond2 i = 1#1
/-- It holds at the points ≡ 7 (mod 8): the last value of grid coordinate 1. -/
theorem hcond3_1 : ∀ t : Fin cfg3.N, cond3_1 (grid3.coords t) ↔ t.val % 8 = 7 :=
  (by decide +kernel : ∀ t : Fin grid3.N, cond3_1 (grid3.coords t) ↔ t.val % 8 = 7)

/-! ## Where the windows are idle -/

/-- Window 0 is never idle (an input). -/
theorem liveAt3_0 : ∀ t : Fin cfg3.N, cfg3.idle 0 (grid3.coords t) = false := by decide +kernel
/-- Window 1 is never idle (an input). -/
theorem liveAt3_1 : ∀ t : Fin cfg3.N, cfg3.idle 1 (grid3.coords t) = false := by decide +kernel
/-- Window 2 is never idle (an input). -/
theorem liveAt3_2 : ∀ t : Fin cfg3.N, cfg3.idle 2 (grid3.coords t) = false := by decide +kernel
/-- At the points of case A output 3 is idle: the case stores nothing into it. -/
theorem idleAt3_3_A : ∀ t : Fin cfg3.N, cond3_0 (grid3.coords t) → ¬cond3_1 (grid3.coords t) → cfg3.idle 3 (grid3.coords t) = true := by decide +kernel
/-- At the points of case A the pipeline does not write output 3's block back. -/
theorem noFlush3_3_A : ∀ t : Fin cfg3.N, cond3_0 (grid3.coords t) → ¬cond3_1 (grid3.coords t) → (cfg3.win 3).flush t = false := by decide +kernel
/-- At the points of case B output 3 is idle: the case stores nothing into it. -/
theorem idleAt3_3_B : ∀ t : Fin cfg3.N, ¬cond3_0 (grid3.coords t) → ¬cond3_1 (grid3.coords t) → cfg3.idle 3 (grid3.coords t) = true := by decide +kernel
/-- At the points of case B the pipeline does not write output 3's block back. -/
theorem noFlush3_3_B : ∀ t : Fin cfg3.N, ¬cond3_0 (grid3.coords t) → ¬cond3_1 (grid3.coords t) → (cfg3.win 3).flush t = false := by decide +kernel
/-- At the points of case C output 3 is live: the case stores into it. -/
theorem liveAt3_3_C : ∀ t : Fin cfg3.N, ¬cond3_0 (grid3.coords t) → cond3_1 (grid3.coords t) → cfg3.idle 3 (grid3.coords t) = false := by decide +kernel

/-! ## The kernel body on any staging memrefs -/

/-- One staging buffer of output window 3, through which its contents are stated (the choice does not matter). -/
abbrev VO3_3 : View sig .tc .vmem S512x2048 .f32 := (Memref.whole cc3_stg3_0 : Memref sig .tc .vmem S512x2048 .f32).view
/-- Each window's current staging memref at point `t`, spelled as the pipeline passes it, and its wholeness. -/
abbrev ms3_0 (t : Fin cfg3.N) : Memref sig .tc .vmem S512x2048 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S512x2048 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S512x2048 .bf16 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S512x2048 .f32 := win3_3.stage (cfg3.slots t 3)
abbrev hs3_3 (t : Fin cfg3.N) : (ms3_3 t).IsWhole := hstage3_3 ((cfg3.slots t 3).cast nbuf3_3)
/-- The scratch operand: a whole scoped buffer of the kernel's own, passed beside the windows. -/
abbrev scM3_0 : Memref sig .tc .vmem S512x2048 .f32 := Memref.whole cc3_scratch0
/-- The scratch the kernel carries between points, as a view: what it holds is stated through it. -/
abbrev VS3_0 : View sig .tc .vmem S512x2048 .f32 := scM3_0.view

/-- The region's invariant with the scratch operand as a memref owned at some contents: the other regions' staging
    buffers each whole at some contents, the scratch, and the generator register at some state. -/
theorem PhiA3_eq (c : Dev nD) :
    (Pipeline.ΦA spec3 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ d, owns (c : Thread nD τ) scM3_0 fullShare d)) ∗ (∃ r, prngReg c r)) := by
  unfold Pipeline.ΦA; rw [scopedRest3_eq]; simp only [scM3_0, owns_whole]; try rfl

end Cert.Kernel.Fr

end
-- ==== Proof.K.AttnRunA.lean ====
/- The whole-body run of the attention kernel in case A of its frame half: the body's triple over the skeleton, the
   pieces each buffer ends with as the witness. One module per case, the run modules a chain. -/
import proofs.«111568_j50783693308389_1_alg».proof.Proof.K.AttnRuns

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

set_option maxHeartbeats 1000000 in
/-- What the body's stores leave in each buffer, as pieces (last first) IN CASE A (the first conditional taken, the second
    not: the points ≡ 0 mod 8), WITH the proof that on whole memrefs — the three inputs' at their blocks, the output's
    (idle here) at contents `xi3` handed back untouched, the scratch at anything — the body runs to the continuation
    holding the inputs' as they were, the output's as it was, and the scratch with its pieces written. -/
noncomputable def kernelRun3_A (c : Dev nD) (i : grid3.Coords) (arg2 : Memref sig .tc .vmem S512x2048 .bf16) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S512x2048 .f32) (harg5 : arg5.IsWhole) (arg6 : Memref sig .tc .vmem S512x2048 .f32) (harg6 : arg6.IsWhole) (hc0 : cond3_0 i) (hc1 : ¬cond3_1 i)
    (x0 : Vec F S512x2048 .bf16) (x1 : Vec F S512x2048 .bf16) (x2 : Vec F S512x2048 .bf16) :
    Σ' (L3 : List (View.Piece (Elt F) S512x2048 .f32)), { LS0 : List (View.Piece (Elt F) S512x2048 .f32) //
      ∀ (xi3 : Vec F S512x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc3__attn_kernel i arg2 harg2 arg3 harg3 arg4 harg4 arg5 harg5 arg6 harg6) K } := by
  refine ⟨[], ?_, fun xi3 E K => ?run⟩
  case run =>
    simp only [cc3__attn_kernel_eq_skeleton]; unfold cc3__attn_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Fr

end
-- ==== Proof.K.AttnRunB.lean ====
/- The whole-body run of the attention kernel in case B of its frame half: the body's triple over the skeleton, the
   pieces each buffer ends with as the witness. One module per case, the run modules a chain. -/
import proofs.«111568_j50783693308389_1_alg».proof.Proof.K.AttnRunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

set_option maxHeartbeats 1000000 in
/-- What the body's stores leave in each buffer, as pieces (last first) IN CASE B (neither conditional taken: the points
    ≡ 1, …, 6 mod 8), WITH the proof that on whole memrefs — the three inputs' at their blocks, the output's (idle
    here) at contents `xi3` handed back untouched, the scratch at the contents `xs0` the point before left — the body
    runs to the continuation holding the inputs' as they were, the output's as it was, and the scratch with its
    pieces written. -/
noncomputable def kernelRun3_B (c : Dev nD) (i : grid3.Coords) (arg2 : Memref sig .tc .vmem S512x2048 .bf16) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S512x2048 .f32) (harg5 : arg5.IsWhole) (arg6 : Memref sig .tc .vmem S512x2048 .f32) (harg6 : arg6.IsWhole) (hc0 : ¬cond3_0 i) (hc1 : ¬cond3_1 i)
    (x0 : Vec F S512x2048 .bf16) (x1 : Vec F S512x2048 .bf16) (x2 : Vec F S512x2048 .bf16) (xs0 : Vec F S512x2048 .f32) :
    Σ' (L3 : List (View.Piece (Elt F) S512x2048 .f32)), { LS0 : List (View.Piece (Elt F) S512x2048 .f32) //
      ∀ (xi3 : Vec F S512x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc3__attn_kernel i arg2 harg2 arg3 harg3 arg4 harg4 arg5 harg5 arg6 harg6) K } := by
  refine ⟨[], ?_, fun xi3 E K => ?run⟩
  case run =>
    simp only [cc3__attn_kernel_eq_skeleton]; unfold cc3__attn_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Fr

end
-- ==== Proof.K.AttnRunC.lean ====
/- The whole-body run of the attention kernel in case C of its frame half: the body's triple over the skeleton, the
   pieces each buffer ends with as the witness. One module per case, the run modules a chain. -/
import proofs.«111568_j50783693308389_1_alg».proof.Proof.K.AttnRunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

set_option maxHeartbeats 1000000 in
/-- What the body's stores leave in each buffer, as pieces (last first) IN CASE C (the first conditional not taken, the
    second taken: the points ≡ 7 mod 8), WITH the proof that on whole memrefs — the three inputs' at their blocks,
    the output's at anything, the scratch at the contents `xs0` the point before left — the body runs to the
    continuation holding the inputs' as they were, and the output's and the scratch each with its pieces written. -/
noncomputable def kernelRun3_C (c : Dev nD) (i : grid3.Coords) (arg2 : Memref sig .tc .vmem S512x2048 .bf16) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S512x2048 .f32) (harg5 : arg5.IsWhole) (arg6 : Memref sig .tc .vmem S512x2048 .f32) (harg6 : arg6.IsWhole) (hc0 : ¬cond3_0 i) (hc1 : cond3_1 i)
    (x0 : Vec F S512x2048 .bf16) (x1 : Vec F S512x2048 .bf16) (x2 : Vec F S512x2048 .bf16) (xs0 : Vec F S512x2048 .f32) :
    Σ' (L3 : List (View.Piece (Elt F) S512x2048 .f32)), { LS0 : List (View.Piece (Elt F) S512x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc3__attn_kernel i arg2 harg2 arg3 harg3 arg4 harg4 arg5 harg5 arg6 harg6) K } := by
  refine ⟨?_, ?_, fun E K => ?run⟩
  case run =>
    simp only [cc3__attn_kernel_eq_skeleton]; unfold cc3__attn_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Fr

end
-- ==== Proof.K.Attn.lean ====
/- The frame half of the attention region, its last module, at a parameter `V`: what the output window and the carried
   scratch hold per case (covers) and point by point (`outsAt3`), the proof data (`dat3`), the body obligation, and the
   invariant's two ends (`hin3`, `hout3`). -/
import proofs.«111568_j50783693308389_1_alg».proof.Proof.K.AttnRunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-- Case A stores nothing into output 3 (the window is idle at its points and not written back there): no pieces — a
    placeholder (junk read back) that nothing consults, since at these points the window is neither written back nor
    read at the next point. -/
def out3_A_3 (c : Dev nD) (i : grid3.Coords) (arg2 : Memref sig .tc .vmem S512x2048 .bf16) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S512x2048 .f32) (harg5 : arg5.IsWhole) (arg6 : Memref sig .tc .vmem S512x2048 .f32) (harg6 : arg6.IsWhole) (hc0 : cond3_0 i) (hc1 : ¬cond3_1 i)
    (x0 : Vec F S512x2048 .bf16) (x1 : Vec F S512x2048 .bf16) (x2 : Vec F S512x2048 .bf16) : Vec F S512x2048 .f32 :=
  VO3_3.read (Elt F) (VO3_3.writes (Elt F) VO3_3.junk (kernelRun3_A c i arg2 harg2 arg3 harg3 arg4 harg4 arg5 harg5 arg6 harg6 hc0 hc1 x0 x1 x2).1)

/-- Case A's pieces for the scratch, which the kernel carries between points, cover it: whole-block pieces tiling it. -/
theorem scover3_A_0 (c : Dev nD) (i : grid3.Coords) (arg2 : Memref sig .tc .vmem S512x2048 .bf16) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S512x2048 .f32) (harg5 : arg5.IsWhole) (arg6 : Memref sig .tc .vmem S512x2048 .f32) (harg6 : arg6.IsWhole) (hc0 : cond3_0 i) (hc1 : ¬cond3_1 i)
    (x0 : Vec F S512x2048 .bf16) (x1 : Vec F S512x2048 .bf16) (x2 : Vec F S512x2048 .bf16) (y : S512x2048.Idx) :
    ∃ pc ∈ (kernelRun3_A c i arg2 harg2 arg3 harg3 arg4 harg4 arg5 harg5 arg6 harg6 hc0 hc1 x0 x1 x2).2.1, y ∈ pc.1.set :=
  View.cover_of_tiledL (kernelRun3_A c i arg2 harg2 arg3 harg3 arg4 harg4 arg5 harg5 arg6 harg6 hc0 hc1 x0 x1 x2).2.1 S512x2048.size (by sl_kernel_rfl) y

/-- What case A leaves in the scratch: its pieces read back over junk. -/
def sout3_A_0 (c : Dev nD) (i : grid3.Coords) (arg2 : Memref sig .tc .vmem S512x2048 .bf16) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S512x2048 .f32) (harg5 : arg5.IsWhole) (arg6 : Memref sig .tc .vmem S512x2048 .f32) (harg6 : arg6.IsWhole) (hc0 : cond3_0 i) (hc1 : ¬cond3_1 i)
    (x0 : Vec F S512x2048 .bf16) (x1 : Vec F S512x2048 .bf16) (x2 : Vec F S512x2048 .bf16) : Vec F S512x2048 .f32 :=
  VS3_0.read (Elt F) (VS3_0.writes (Elt F) VS3_0.junk (kernelRun3_A c i arg2 harg2 arg3 harg3 arg4 harg4 arg5 harg5 arg6 harg6 hc0 hc1 x0 x1 x2).2.1)

/-- Case B stores nothing into output 3 (the window is idle at its points and not written back there): no pieces — a
    placeholder (junk read back) that nothing consults, since at these points the window is neither written back nor
    read at the next point. -/
def out3_B_3 (c : Dev nD) (i : grid3.Coords) (arg2 : Memref sig .tc .vmem S512x2048 .bf16) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S512x2048 .f32) (harg5 : arg5.IsWhole) (arg6 : Memref sig .tc .vmem S512x2048 .f32) (harg6 : arg6.IsWhole) (hc0 : ¬cond3_0 i) (hc1 : ¬cond3_1 i)
    (x0 : Vec F S512x2048 .bf16) (x1 : Vec F S512x2048 .bf16) (x2 : Vec F S512x2048 .bf16) (xs0 : Vec F S512x2048 .f32) : Vec F S512x2048 .f32 :=
  VO3_3.read (Elt F) (VO3_3.writes (Elt F) VO3_3.junk (kernelRun3_B c i arg2 harg2 arg3 harg3 arg4 harg4 arg5 harg5 arg6 harg6 hc0 hc1 x0 x1 x2 xs0).1)

/-- Case B's pieces for the scratch, which the kernel carries between points, cover it: whole-block pieces tiling it. -/
theorem scover3_B_0 (c : Dev nD) (i : grid3.Coords) (arg2 : Memref sig .tc .vmem S512x2048 .bf16) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S512x2048 .f32) (harg5 : arg5.IsWhole) (arg6 : Memref sig .tc .vmem S512x2048 .f32) (harg6 : arg6.IsWhole) (hc0 : ¬cond3_0 i) (hc1 : ¬cond3_1 i)
    (x0 : Vec F S512x2048 .bf16) (x1 : Vec F S512x2048 .bf16) (x2 : Vec F S512x2048 .bf16) (xs0 : Vec F S512x2048 .f32) (y : S512x2048.Idx) :
    ∃ pc ∈ (kernelRun3_B c i arg2 harg2 arg3 harg3 arg4 harg4 arg5 harg5 arg6 harg6 hc0 hc1 x0 x1 x2 xs0).2.1, y ∈ pc.1.set :=
  View.cover_of_tiledL (kernelRun3_B c i arg2 harg2 arg3 harg3 arg4 harg4 arg5 harg5 arg6 harg6 hc0 hc1 x0 x1 x2 xs0).2.1 S512x2048.size (by sl_kernel_rfl) y

/-- What case B leaves in the scratch: its pieces read back over junk. -/
def sout3_B_0 (c : Dev nD) (i : grid3.Coords) (arg2 : Memref sig .tc .vmem S512x2048 .bf16) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S512x2048 .f32) (harg5 : arg5.IsWhole) (arg6 : Memref sig .tc .vmem S512x2048 .f32) (harg6 : arg6.IsWhole) (hc0 : ¬cond3_0 i) (hc1 : ¬cond3_1 i)
    (x0 : Vec F S512x2048 .bf16) (x1 : Vec F S512x2048 .bf16) (x2 : Vec F S512x2048 .bf16) (xs0 : Vec F S512x2048 .f32) : Vec F S512x2048 .f32 :=
  VS3_0.read (Elt F) (VS3_0.writes (Elt F) VS3_0.junk (kernelRun3_B c i arg2 harg2 arg3 harg3 arg4 harg4 arg5 harg5 arg6 harg6 hc0 hc1 x0 x1 x2 xs0).2.1)

/-- Case C's pieces for output 3 tile its block (one store of the whole block), so they cover it. -/
theorem cover3_C_3 (c : Dev nD) (i : grid3.Coords) (arg2 : Memref sig .tc .vmem S512x2048 .bf16) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S512x2048 .f32) (harg5 : arg5.IsWhole) (arg6 : Memref sig .tc .vmem S512x2048 .f32) (harg6 : arg6.IsWhole) (hc0 : ¬cond3_0 i) (hc1 : cond3_1 i)
    (x0 : Vec F S512x2048 .bf16) (x1 : Vec F S512x2048 .bf16) (x2 : Vec F S512x2048 .bf16) (xs0 : Vec F S512x2048 .f32) (y : S512x2048.Idx) :
    ∃ pc ∈ (kernelRun3_C c i arg2 harg2 arg3 harg3 arg4 harg4 arg5 harg5 arg6 harg6 hc0 hc1 x0 x1 x2 xs0).1, y ∈ pc.1.set :=
  View.cover_of_tiledL (kernelRun3_C c i arg2 harg2 arg3 harg3 arg4 harg4 arg5 harg5 arg6 harg6 hc0 hc1 x0 x1 x2 xs0).1 S512x2048.size (by sl_kernel_rfl) y

/-- What case C leaves in output 3's staging buffer: its pieces read back over junk. -/
def out3_C_3 (c : Dev nD) (i : grid3.Coords) (arg2 : Memref sig .tc .vmem S512x2048 .bf16) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S512x2048 .f32) (harg5 : arg5.IsWhole) (arg6 : Memref sig .tc .vmem S512x2048 .f32) (harg6 : arg6.IsWhole) (hc0 : ¬cond3_0 i) (hc1 : cond3_1 i)
    (x0 : Vec F S512x2048 .bf16) (x1 : Vec F S512x2048 .bf16) (x2 : Vec F S512x2048 .bf16) (xs0 : Vec F S512x2048 .f32) : Vec F S512x2048 .f32 :=
  VO3_3.read (Elt F) (VO3_3.writes (Elt F) VO3_3.junk (kernelRun3_C c i arg2 harg2 arg3 harg3 arg4 harg4 arg5 harg5 arg6 harg6 hc0 hc1 x0 x1 x2 xs0).1)

/-- Case C's pieces for the scratch, which the kernel carries between points, cover it: whole-block pieces tiling it. -/
theorem scover3_C_0 (c : Dev nD) (i : grid3.Coords) (arg2 : Memref sig .tc .vmem S512x2048 .bf16) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S512x2048 .f32) (harg5 : arg5.IsWhole) (arg6 : Memref sig .tc .vmem S512x2048 .f32) (harg6 : arg6.IsWhole) (hc0 : ¬cond3_0 i) (hc1 : cond3_1 i)
    (x0 : Vec F S512x2048 .bf16) (x1 : Vec F S512x2048 .bf16) (x2 : Vec F S512x2048 .bf16) (xs0 : Vec F S512x2048 .f32) (y : S512x2048.Idx) :
    ∃ pc ∈ (kernelRun3_C c i arg2 harg2 arg3 harg3 arg4 harg4 arg5 harg5 arg6 harg6 hc0 hc1 x0 x1 x2 xs0).2.1, y ∈ pc.1.set :=
  View.cover_of_tiledL (kernelRun3_C c i arg2 harg2 arg3 harg3 arg4 harg4 arg5 harg5 arg6 harg6 hc0 hc1 x0 x1 x2 xs0).2.1 S512x2048.size (by sl_kernel_rfl) y

/-- What case C leaves in the scratch: its pieces read back over junk. -/
def sout3_C_0 (c : Dev nD) (i : grid3.Coords) (arg2 : Memref sig .tc .vmem S512x2048 .bf16) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S512x2048 .f32) (harg5 : arg5.IsWhole) (arg6 : Memref sig .tc .vmem S512x2048 .f32) (harg6 : arg6.IsWhole) (hc0 : ¬cond3_0 i) (hc1 : cond3_1 i)
    (x0 : Vec F S512x2048 .bf16) (x1 : Vec F S512x2048 .bf16) (x2 : Vec F S512x2048 .bf16) (xs0 : Vec F S512x2048 .f32) : Vec F S512x2048 .f32 :=
  VS3_0.read (Elt F) (VS3_0.writes (Elt F) VS3_0.junk (kernelRun3_C c i arg2 harg2 arg3 harg3 arg4 harg4 arg5 harg5 arg6 harg6 hc0 hc1 x0 x1 x2 xs0).2.1)

/-! ## What the output and the scratch hold after each point -/

/-- THE ACCUMULATION. What output window 3's staging buffer and the scratch the kernel carries between points hold after the
    body at position `n` (a pair: the output, then the scratch): the case the closed forms select at `n`, run at the
    point's memrefs and input blocks, the scratch it reads at what this leaves at `n - 1`. An assignment of the
    conditions no point meets is no case. -/
def outsAt3 (c : Dev nD) : (n : ℕ) → n < cfg3.N → Vec F S512x2048 .f32 × Vec F S512x2048 .f32
  | 0, hn => (out3_A_3 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩), sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩))
  | n + 1, hn =>
    if h0 : (n + 1) % 8 = 0 then
      if h1 : (n + 1) % 8 = 7 then
        False.elim (by have hN : n + 1 < 64 := lt_of_lt_of_eq hn (show cfg3.N = 64 from N_3); omega)
      else
        (out3_A_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩), sout3_A_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩))
    else
      if h1 : (n + 1) % 8 = 7 then
        (out3_C_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2, sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2)
      else
        (out3_B_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2, sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2)

/-- `outsAt3` at a point of case A: that case's contents. -/
theorem outsAt3_A (c : Dev nD) (t : Fin cfg3.N) (h0 : t.val % 8 = 0) (h1 : ¬t.val % 8 = 7) :
    outsAt3 V c t.val t.isLt = (out3_A_3 c (grid3.coords t) (ms3_0 t) (hs3_0 t) (ms3_1 t) (hs3_1 t) (ms3_2 t) (hs3_2 t) (ms3_3 t) (hs3_3 t) scM3_0 (Memref.isWhole_whole _) ((hcond3_0 t).mpr h0) (fun h => h1 ((hcond3_1 t).mp h)) (iblk3 V c 0 t) (iblk3 V c 1 t) (iblk3 V c 2 t), sout3_A_0 c (grid3.coords t) (ms3_0 t) (hs3_0 t) (ms3_1 t) (hs3_1 t) (ms3_2 t) (hs3_2 t) (ms3_3 t) (hs3_3 t) scM3_0 (Memref.isWhole_whole _) ((hcond3_0 t).mpr h0) (fun h => h1 ((hcond3_1 t).mp h)) (iblk3 V c 0 t) (iblk3 V c 1 t) (iblk3 V c 2 t)) := by
  obtain ⟨n, hn⟩ := t
  cases n with
  | zero => exact rfl
  | succ n => exact (dif_pos h0).trans ((dif_neg h1).trans rfl)

/-- `outsAt3` at a point of case B: that case's contents, over what the point before left. -/
theorem outsAt3_B (c : Dev nD) (t : Fin cfg3.N) (h0 : ¬t.val % 8 = 0) (h1 : ¬t.val % 8 = 7) :
    outsAt3 V c t.val t.isLt = (out3_B_3 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2, sout3_B_0 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt3` at a point of case C: that case's contents, over what the point before left. -/
theorem outsAt3_C (c : Dev nD) (t : Fin cfg3.N) (h0 : ¬t.val % 8 = 0) (h1 : t.val % 8 = 7) :
    outsAt3 V c t.val t.isLt = (out3_C_3 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2, sout3_C_0 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with the scratch the kernel CARRIES between points: before the first point the
    launch's (every scoped buffer that is no staging buffer of this region at anything, the generator register at some
    state); afterwards the same with the scratch at what the point before left in it (`outsAt3`'s second component). -/
def PhiS3 (c : Dev nD) : (n : ℕ) → n ≤ cfg3.N → sProp 𝕄
  | 0, _ => Pipeline.ΦA spec3 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ owns (c : Thread nD τ) scM3_0 fullShare ((outsAt3 V c n hn).2)) ∗ (∃ r, prngReg c r))

theorem PhiS3_zero (c : Dev nD) (n : ℕ) (h : n ≤ cfg3.N) (hz : n = 0) : PhiS3 V c n h = Pipeline.ΦA spec3 c := by
  subst hz; rfl

/-- After point `n` (before point `n + 1`): the carried scratch at that point's contents. -/
theorem PhiS3_succ (c : Dev nD) (n : ℕ) (hn : n < cfg3.N) :
    PhiS3 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ owns (c : Thread nD τ) scM3_0 fullShare ((outsAt3 V c n hn).2)) ∗ (∃ r, prngReg c r)) := rfl

/-- Before a point that is not the first: the carried scratch at what the point before left. -/
theorem PhiS3_pos (c : Dev nD) (n : ℕ) (h : n ≤ cfg3.N) (hz : n ≠ 0) :
    PhiS3 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ owns (c : Thread nD τ) scM3_0 fullShare ((outsAt3 V c (n - 1) (by omega)).2)) ∗ (∃ r, prngReg c r)) := by
  cases n with
  | zero => exact absurd rfl hz
  | succ n => rfl

/-! ## The pipeline's proof data -/

/-- The proof data of the region's pipeline on core `c`: the arrays as the region finds them (`V`); after the body at
    point `t` each input's buffer at its block and the output's at `outsAt3`'s first component; the invariant `PhiS3`;
    nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS3 V c t.val (Nat.le_of_lt_succ t.isLt)
  q _ := fullShare
  owed _ := 0

/-- The proof data's arrays are the region-entry contents. -/
theorem A_eq3 (c : Dev nD) (w : Fin cfg3.W) : (dat3 V c).A w = V c (Pipeline.arrRef spec3 w) := by
  dsimp only [dat3]

/-- The invariant at a point's start (the proof data at `t.castSucc`), restated at `t.val`. -/
theorem PhiS3_castSucc (c : Dev nD) (t : Fin cfg3.N) :
    (dat3 V c).Φ t.castSucc = PhiS3 V c t.val (Nat.le_of_lt t.isLt) := by
  dsimp only [dat3]; simp only [Fin.coe_castSucc]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t` (the windows one by one), -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in
/-- The body at any point: the inputs' memrefs hold their blocks; the closed forms say which case the point is in; so that
    case's run applies; the invariant hands the body the carried scratch at what the point before left (at anything at
    the first point) and the generator register at some state, and takes the scratch back at this point's contents
    (the pieces cover it); the other scoped buffers pass through untouched; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  have hN : t.val < 64 := lt_of_lt_of_eq t.isLt (show cfg3.N = 64 from N_3)
  by_cases h0 : t.val % 8 = 0
  · by_cases h1 : t.val % 8 = 7
    · exfalso; omega
    · rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [Dat.leavesExact_idle (dat3 V c) 3 t (idleAt3_3_A t ((hcond3_0 t).mpr h0) (fun h => h1 ((hcond3_1 t).mp h))) (noFlush3_3_A t ((hcond3_0 t).mpr h0) (fun h => h1 ((hcond3_1 t).mp h)))]
      rw [outsAt3_A V c t h0 h1]
      unfold sout3_A_0; (try dsimp only)
      by_cases hz : t.val = 0
      · rw [PhiS3_castSucc V c t, PhiS3_zero V c _ _ hz, PhiA3_eq]
        iintro ⟨⟨⟨HR0, HR1, HR2, HR3, HR4, HR5, HR6, HR7, HR8, HR9, HR10, HR11, HR12, HR13, HR14, HR15, HR16, HR17, HS0⟩, Hg⟩, Ho, ⟨%d0, H0⟩, ⟨%d1, H1⟩, ⟨%d2, H2⟩, ⟨%d3, H3⟩⟩
        iapply ((kernelRun3_A c (grid3.coords t) _ _ _ _ _ _ _ _ _ _ ((hcond3_0 t).mpr h0) (fun h => h1 ((hcond3_1 t).mp h)) (iblk3 V c 0 t) (iblk3 V c 1 t) (iblk3 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HR0 HR1 HR2 HR3 HR4 HR5 HR6 HR7 HR8 HR9 HR10 HR11 HR12 HR13 HR14 HR15 HR16 HR17 HS0 Hg]
        · isplitl [HR0 HR1 HR2 HR3 HR4 HR5 HR6 HR7 HR8 HR9 HR10 HR11 HR12 HR13 HR14 HR15 HR16 HR17 HS0]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HR9]; · iexact HR9
            isplitl [HR10]; · iexact HR10
            isplitl [HR11]; · iexact HR11
            isplitl [HR12]; · iexact HR12
            isplitl [HR13]; · iexact HR13
            isplitl [HR14]; · iexact HR14
            isplitl [HR15]; · iexact HR15
            isplitl [HR16]; · iexact HR16
            isplitl [HR17]; · iexact HR17
            unfold owns; iexists _; isplitr
            swap; · iexact HS0
            ipureintro; exact View.read_writes_of_cover _ _ _ _ _ (scover3_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS3_castSucc V c t, PhiS3_pos V c _ _ hz]
        iintro ⟨⟨⟨HR0, HR1, HR2, HR3, HR4, HR5, HR6, HR7, HR8, HR9, HR10, HR11, HR12, HR13, HR14, HR15, HR16, HR17, HS0⟩, Hg⟩, Ho, ⟨%d0, H0⟩, ⟨%d1, H1⟩, ⟨%d2, H2⟩, ⟨%d3, H3⟩⟩
        iapply ((kernelRun3_A c (grid3.coords t) _ _ _ _ _ _ _ _ _ _ ((hcond3_0 t).mpr h0) (fun h => h1 ((hcond3_1 t).mp h)) (iblk3 V c 0 t) (iblk3 V c 1 t) (iblk3 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HR0 HR1 HR2 HR3 HR4 HR5 HR6 HR7 HR8 HR9 HR10 HR11 HR12 HR13 HR14 HR15 HR16 HR17 HS0 Hg]
        · isplitl [HR0 HR1 HR2 HR3 HR4 HR5 HR6 HR7 HR8 HR9 HR10 HR11 HR12 HR13 HR14 HR15 HR16 HR17 HS0]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HR9]; · iexact HR9
            isplitl [HR10]; · iexact HR10
            isplitl [HR11]; · iexact HR11
            isplitl [HR12]; · iexact HR12
            isplitl [HR13]; · iexact HR13
            isplitl [HR14]; · iexact HR14
            isplitl [HR15]; · iexact HR15
            isplitl [HR16]; · iexact HR16
            isplitl [HR17]; · iexact HR17
            unfold owns; iexists _; isplitr
            swap; · iexact HS0
            ipureintro; exact View.read_writes_of_cover _ _ _ _ _ (scover3_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · by_cases h1 : t.val % 8 = 7
    · rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [show (dat3 V c).leavesExact 3 t = owns (c : Thread nD τ) (ms3_3 t) fullShare ((dat3 V c).after 3 t) from by
        unfold Dat.leavesExact; rw [liveAt3_3_C t (fun h => h0 ((hcond3_0 t).mp h)) ((hcond3_1 t).mpr h1)], after3_3]
      rw [outsAt3_C V c t h0 h1]
      unfold out3_C_3 sout3_C_0; (try dsimp only)
      by_cases hz : t.val = 0
      · exfalso; omega
      · rw [PhiS3_castSucc V c t, PhiS3_pos V c _ _ hz]
        iintro ⟨⟨⟨HR0, HR1, HR2, HR3, HR4, HR5, HR6, HR7, HR8, HR9, HR10, HR11, HR12, HR13, HR14, HR15, HR16, HR17, HS0⟩, Hg⟩, Ho, ⟨%d0, H0⟩, ⟨%d1, H1⟩, ⟨%d2, H2⟩, ⟨%d3, H3⟩⟩
        iapply ((kernelRun3_C c (grid3.coords t) _ _ _ _ _ _ _ _ _ _ (fun h => h0 ((hcond3_0 t).mp h)) ((hcond3_1 t).mpr h1) (iblk3 V c 0 t) (iblk3 V c 1 t) (iblk3 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HR0 HR1 HR2 HR3 HR4 HR5 HR6 HR7 HR8 HR9 HR10 HR11 HR12 HR13 HR14 HR15 HR16 HR17 HS0 Hg]
        · isplitl [HR0 HR1 HR2 HR3 HR4 HR5 HR6 HR7 HR8 HR9 HR10 HR11 HR12 HR13 HR14 HR15 HR16 HR17 HS0]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HR9]; · iexact HR9
            isplitl [HR10]; · iexact HR10
            isplitl [HR11]; · iexact HR11
            isplitl [HR12]; · iexact HR12
            isplitl [HR13]; · iexact HR13
            isplitl [HR14]; · iexact HR14
            isplitl [HR15]; · iexact HR15
            isplitl [HR16]; · iexact HR16
            isplitl [HR17]; · iexact HR17
            unfold owns; iexists _; isplitr
            swap; · iexact HS0
            ipureintro; exact View.read_writes_of_cover _ _ _ _ _ (scover3_C_0 c _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover3_C_3 c _ _ _ _ _ _ _ _ _ _ _ _ _ _ _ _ _)
    · rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [Dat.leavesExact_idle (dat3 V c) 3 t (idleAt3_3_B t (fun h => h0 ((hcond3_0 t).mp h)) (fun h => h1 ((hcond3_1 t).mp h))) (noFlush3_3_B t (fun h => h0 ((hcond3_0 t).mp h)) (fun h => h1 ((hcond3_1 t).mp h)))]
      rw [outsAt3_B V c t h0 h1]
      unfold sout3_B_0; (try dsimp only)
      by_cases hz : t.val = 0
      · exfalso; omega
      · rw [PhiS3_castSucc V c t, PhiS3_pos V c _ _ hz]
        iintro ⟨⟨⟨HR0, HR1, HR2, HR3, HR4, HR5, HR6, HR7, HR8, HR9, HR10, HR11, HR12, HR13, HR14, HR15, HR16, HR17, HS0⟩, Hg⟩, Ho, ⟨%d0, H0⟩, ⟨%d1, H1⟩, ⟨%d2, H2⟩, ⟨%d3, H3⟩⟩
        iapply ((kernelRun3_B c (grid3.coords t) _ _ _ _ _ _ _ _ _ _ (fun h => h0 ((hcond3_0 t).mp h)) (fun h => h1 ((hcond3_1 t).mp h)) (iblk3 V c 0 t) (iblk3 V c 1 t) (iblk3 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HR0 HR1 HR2 HR3 HR4 HR5 HR6 HR7 HR8 HR9 HR10 HR11 HR12 HR13 HR14 HR15 HR16 HR17 HS0 Hg]
        · isplitl [HR0 HR1 HR2 HR3 HR4 HR5 HR6 HR7 HR8 HR9 HR10 HR11 HR12 HR13 HR14 HR15 HR16 HR17 HS0]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HR9]; · iexact HR9
            isplitl [HR10]; · iexact HR10
            isplitl [HR11]; · iexact HR11
            isplitl [HR12]; · iexact HR12
            isplitl [HR13]; · iexact HR13
            isplitl [HR14]; · iexact HR14
            isplitl [HR15]; · iexact HR15
            isplitl [HR16]; · iexact HR16
            isplitl [HR17]; · iexact HR17
            unfold owns; iexists _; isplitr
            swap; · iexact HS0
            ipureintro; exact View.read_writes_of_cover _ _ _ _ _ (scover3_B_0 c _ _ _ _ _ _ _ _ _ _ _ _ _ _ _ _ _)
          iexact Hg
        isplitl [Ho]; · iexact Ho
        isplitl [H0]; · iexact H0
        isplitl [H1]; · iexact H1
        isplitl [H2]; · iexact H2
        iexists _; iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives the launch's back: the carried scratch's named contents are forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨HR0, HR1, HR2, HR3, HR4, HR5, HR6, HR7, HR8, HR9, HR10, HR11, HR12, HR13, HR14, HR15, HR16, HR17, HS0⟩, Hg⟩
  isplitl [HR0 HR1 HR2 HR3 HR4 HR5 HR6 HR7 HR8 HR9 HR10 HR11 HR12 HR13 HR14 HR15 HR16 HR17 HS0]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    isplitl [HR10]; · iexact HR10
    isplitl [HR11]; · iexact HR11
    isplitl [HR12]; · iexact HR12
    isplitl [HR13]; · iexact HR13
    isplitl [HR14]; · iexact HR14
    isplitl [HR15]; · iexact HR15
    isplitl [HR16]; · iexact HR16
    isplitl [HR17]; · iexact HR17
    iexists _; iexact HS0
  iexact Hg

/-- The same after the last point. -/
theorem hout3 (c : Dev nD) : (dat3 V c).Φ (Fin.last cfg3.N) ⊢ Pipeline.ΦA spec3 c :=
  Phi_out3 V c _ (by rw [Fin.val_last]; have : cfg3.N = 64 := N_3; omega)

end Cert.Kernel.Fr

end
-- ==== Proof.K.Run.lean ====
/-
  The whole run of the program: its seven items in order (a stretch of host operations, the first projection, one
  host operation, the second projection, one host operation, the third projection, the attention region), the
  contents of every unscoped buffer between two items written as a fold from the launch memory (a host stretch applies
  its operations; a region leaves its window arrays at what its write-backs make of them and every other buffer as it
  found it), each region entered from the fold's contents before it and left at the contents after it. The result:
  every weakly fair execution terminates without a fault, and at the end every unscoped buffer holds the last fold
  'W7'. No item writes an argument array, so each argument ends as launched; the result array ends at what the
  attention region's write-backs leave. Generic in the float family.
-/
import proofs.«111568_j50783693308389_1_alg».proof.Proof.K.Lin0
import proofs.«111568_j50783693308389_1_alg».proof.Proof.K.Lin1
import proofs.«111568_j50783693308389_1_alg».proof.Proof.K.Lin2
import proofs.«111568_j50783693308389_1_alg».proof.Proof.K.Attn
import proofs.«111568_j50783693308389_1_alg».proof.Proof.Gen.Kernel.Regions

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents between two items: a fold through the program -/

/-- Core c's buffers at launch. -/
abbrev W0 : Dev nD → Valuation τ sig (Elt F) := fun c b => (s₀ m ρ).mem ((c : Dev nD), b)
/-- After the first host stretch (the first projection's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At region 0's exit: its arrays at what the pipeline leaves (the inputs as entered, the output's write-backs folded),
    every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the second projection's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- At region 1's exit: its arrays at what the pipeline leaves (the inputs as entered, the output's write-backs folded),
    every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third host stretch (the third projection's entry). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b

/-- At region 2's exit: its arrays at what the pipeline leaves (the inputs as entered, the output's write-backs folded),
    every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- At region 3's exit: its arrays at what the pipeline leaves (the inputs as entered, the output's write-backs folded),
    every other buffer as entered. -/
def W7 (c : Dev nD) : Valuation τ sig (Elt F) :=
  Pipeline.withArrays spec3 c (W6 m ρ c) fun w => (dat3 (V6 m ρ) c).arrAt w cfg3.N
theorem W7_arr (c : Dev nD) (w : Fin cfg3.W) :
    W7 m ρ c (Proc.devRef .tc (Pipeline.arrRef spec3 w)) = (dat3 (V6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
abbrev V7 : (c : Dev nD) → (b : Ref sig .tc) → Buf (Elt F) ((c : Thread nD τ).loc b) := fun c b => W7 m ρ c b
theorem hF3 (c : Dev nD) (w : Fin cfg3.W) : (dat3 (V6 m ρ) c).arrAt w cfg3.N = V7 m ρ c (Pipeline.arrRef spec3 w) :=
  (W7_arr m ρ c w).symm
theorem hrest3 (c : Dev nD) : ∀ b, b ∉ Finset.univ.image (Pipeline.arrRef spec3) → V7 m ρ c b = V6 m ρ c b :=
  fun b hb => W7_of_ne m ρ c b fun w e => hb (Finset.mem_image.mpr ⟨w, Finset.mem_univ _, e⟩)

/-! ## A buffer no item writes ends as launched -/

/-- A reference that no host stretch writes and that is no region's window array holds its launch contents at the end. -/
theorem W7_keep (c : Dev nD) (b : Ref sig .tc) (h0 : b ∉ hostOps0_W) (h1 : b ∉ hostOps1_W) (h2 : b ∉ hostOps2_W)
    (a0 : ∀ w, Pipeline.arrRef spec0 w ≠ b) (a1 : ∀ w, Pipeline.arrRef spec1 w ≠ b) (a2 : ∀ w, Pipeline.arrRef spec2 w ≠ b)
    (a3 : ∀ w, Pipeline.arrRef spec3 w ≠ b) : W7 m ρ c (Proc.devRef .tc b) = m ((c : Thread nD τ).loc b) :=
  calc W7 m ρ c (Proc.devRef .tc b)
    _ = W6 m ρ c (Proc.devRef .tc b) := W7_of_ne m ρ c b a3
    _ = W5 m ρ c (Proc.devRef .tc b) := W6_of_ne m ρ c b a2
    _ = W4 m ρ c (Proc.devRef .tc b) := StableHlo.after_of_writes_sub hostOps2 _ hostOps2_writes h2
    _ = W3 m ρ c (Proc.devRef .tc b) := W4_of_ne m ρ c b a1
    _ = W2 m ρ c (Proc.devRef .tc b) := StableHlo.after_of_writes_sub hostOps1 _ hostOps1_writes h1
    _ = W1 m ρ c (Proc.devRef .tc b) := W2_of_ne m ρ c b a0
    _ = W0 m ρ c (Proc.devRef .tc b) := StableHlo.after_of_writes_sub hostOps0 _ hostOps0_writes h0
    _ = m ((c : Thread nD τ).loc b) := rfl

theorem W7_main_arg0 (c : Dev nD) : W7 m ρ c (Proc.devRef .tc main_arg0) = m ((c : Thread nD τ).loc main_arg0) :=
  W7_keep m ρ c main_arg0 (by decide) (by decide) (by decide) (by decide) (by decide) (by decide) (by decide)
theorem W7_main_arg1 (c : Dev nD) : W7 m ρ c (Proc.devRef .tc main_arg1) = m ((c : Thread nD τ).loc main_arg1) :=
  W7_keep m ρ c main_arg1 (by decide) (by decide) (by decide) (by decide) (by decide) (by decide) (by decide)
theorem W7_main_arg2 (c : Dev nD) : W7 m ρ c (Proc.devRef .tc main_arg2) = m ((c : Thread nD τ).loc main_arg2) :=
  W7_keep m ρ c main_arg2 (by decide) (by decide) (by decide) (by decide) (by decide) (by decide) (by decide)
theorem W7_main_arg3 (c : Dev nD) : W7 m ρ c (Proc.devRef .tc main_arg3) = m ((c : Thread nD τ).loc main_arg3) :=
  W7_keep m ρ c main_arg3 (by decide) (by decide) (by decide) (by decide) (by decide) (by decide) (by decide)
theorem W7_main_arg4 (c : Dev nD) : W7 m ρ c (Proc.devRef .tc main_arg4) = m ((c : Thread nD τ).loc main_arg4) :=
  W7_keep m ρ c main_arg4 (by decide) (by decide) (by decide) (by decide) (by decide) (by decide) (by decide)
theorem W7_main_arg5 (c : Dev nD) : W7 m ρ c (Proc.devRef .tc main_arg5) = m ((c : Thread nD τ).loc main_arg5) :=
  W7_keep m ρ c main_arg5 (by decide) (by decide) (by decide) (by decide) (by decide) (by decide) (by decide)
theorem W7_main_arg6 (c : Dev nD) : W7 m ρ c (Proc.devRef .tc main_arg6) = m ((c : Thread nD τ).loc main_arg6) :=
  W7_keep m ρ c main_arg6 (by decide) (by decide) (by decide) (by decide) (by decide) (by decide) (by decide)

/-- The result array ends at what the attention region's write-backs leave in its output window's array. -/
theorem W7_main_v10 (c : Dev nD) : W7 m ρ c (Proc.devRef .tc main_v10) = (dat3 (V6 m ρ) c).arrAt 3 cfg3.N :=
  W7_arr m ρ c 3

/-! ## The proof data family and the thread state -/

/-- No pipeline has a prefetched table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V6 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)
/-- A host stretch as an item over the unscoped references from the contents W, R riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register at some state. -/
abbrev Tₙ (c : Dev nD) : sProp 𝕄 := iprop(StableHlo.held (c : Thread nD τ) (Pipeline.ucRefs τ sig) (W7 m ρ c) ∗ ∃ r, prngReg c r)

/-! ## The regions as items -/

set_option backward.isDefEq.respectTransparency.types false in
/-- Region 0 over the thread state: entered from every unscoped buffer at W1, left at W2. Its arrays are split out of
    the unscoped buffers and put back at the exit contents; the generator register goes into the plain invariant and
    comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at W3, left at W4. Its arrays are split out of
    the unscoped buffers and put back at the exit contents; the generator register goes into the plain invariant and
    comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at W5, left at W6. Its arrays are split out of
    the unscoped buffers and put back at the exit contents; the generator register goes into the plain invariant and
    comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at W6, left at W7. Its arrays are split out of
    the unscoped buffers and put back at the exit contents; the generator register goes into the plain invariant and
    comes out; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V6 m ρ) c).loose
  hwaits := Pipeline.hwaits_of_owed_zero _ _ _ _ L lv 3 fun _ _ => rfl
  pre c := iprop(StableHlo.held (c : Thread nD τ) (Pipeline.ucRefs τ sig) (W6 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V6 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec3 c from by
      unfold Pipeline.ΦA
      iintro ⟨Hp, -, Hr⟩
      isplitl [Hr]; · iexact Hr
      iexact Hp).trans ?_
    exact hin3 (V6 m ρ) c
  hout c := by
    rw [Pipeline.ownSems0_none]
    refine (show (pdats m ρ 3 c).Φ (Fin.last _) ⊢ Pipeline.ΦA spec3 c from hout3 (V6 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V6 m ρ c) (V7 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as items, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .region (reg3 m ρ) ]

theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and every final state holds every unscoped buffer at the last fold W7. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c),
     (h c _ (mem_uc main_arg6 (by decide))).trans (W7_main_arg6 m ρ c)⟩) (run_all m ρ)

/-- The run with the result array named: it ends at what the attention region's write-backs leave. -/
theorem run_out : θ_run defs (onTc (τ := τ) (main (F := F))) ⟨m, fun _ => 0, ρ⟩ (fun r => ∀ c : Dev nD,
      r.2.mem ((c.tc : Thread nD τ).loc main_v10) = (dat3 (V6 m ρ) c).arrAt 3 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_v10 (by decide))).trans (W7_main_v10 m ρ c),
     (h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c),
     (h c _ (mem_uc main_arg6 (by decide))).trans (W7_main_arg6 m ρ c)⟩) (run_all m ρ)

end Cert.Kernel.Fr

end
-- ==== Proof.KI.Lin0.lean ====
/-
  Region 0 (the projection of the rows of x by the first weight) as one item of the program's run, at a PARAMETER V:
  the contents of the TensorCore's buffers when the region is entered. At grid point t the body reads its three
  input blocks whole (512 rows of x, the whole weight, the bias row), stores one value over the whole output block,
  and touches nothing else; so what it leaves in the output window's buffer is one function 'out0_3' of the three
  input blocks, the inputs stay as they were, and the region's invariant is the plain one (the scoped rest and the
  generator register, untouched). The proof data 'dat0 V c' say exactly that, and 'body_obligation0' is the body's
  triple at every point. Generic in the float family.
-/
import proofs.«111568_j50783693308389_1_alg».proof.Proof.Gen.KernelIdeal.Launch
import proofs.«111568_j50783693308389_1_alg».proof.Proof.Gen.KernelIdeal.Skeleton
import proofs.«111568_j50783693308389_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (where it is not
    fetched its block index has not moved), for any proof data whose array is V's and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer read or written whole -/

abbrev r0_x : Rect S512x2048 := Rect.unit (s := S512x2048) ![0, 0] S512x2048.size inb_S512x2048_S512x2048_0_0
abbrev r0_w : Rect S2048x2048 := Rect.unit (s := S2048x2048) ![0, 0] S2048x2048.size inb_S2048x2048_S2048x2048_0_0
abbrev r0_b : Rect S1x2048 := Rect.unit (s := S1x2048) ![0, 0] S1x2048.size inb_S1x2048_S1x2048_0_0

/-- The output window's staging buffer after the body, from the three input blocks: its one store. -/
def out0_3 (x0 : Vec F S512x2048 .bf16) (x1 : Vec F S2048x2048 .bf16) (x2 : Vec F S1x2048 .f32) : Vec F S512x2048 .bf16 :=
  View.canon [⟨r0_x, k0_pay1 (View.ld x0 r0_x) (View.ld x1 r0_w) (View.ld x2 r0_b)⟩]

/-- That store covers the buffer. -/
theorem cover0_3 (p0 : Vec F S512x2048 .bf16) (y : S512x2048.Idx) :
    ∃ pc ∈ ([⟨r0_x, p0⟩] : List (View.Piece (Elt F) S512x2048 .bf16)), y ∈ pc.1.set :=
  View.cover_of_tiled [⟨r0_x, p0⟩] S512x2048.size (by rfl) y

/-! ## The body's triple -/

set_option maxHeartbeats 1000000 in
/-- On whole staging memrefs, the inputs' at contents x0 x1 x2 and the output's at anything, the body runs to the
    continuation holding the inputs' as they were and the output's at out0_3 of them. -/
theorem sound_kernel0 (c : Dev nD) (E : Set ℕ) (i : grid0.Coords) (arg1 : Memref sig .tc .vmem S512x2048 .bf16) (harg1 : arg1.IsWhole)
    (arg2 : Memref sig .tc .vmem S2048x2048 .bf16) (harg2 : arg2.IsWhole) (arg3 : Memref sig .tc .vmem S1x2048 .f32) (harg3 : arg3.IsWhole)
    (arg4 : Memref sig .tc .vmem S512x2048 .bf16) (harg4 : arg4.IsWhole)
    (x0 : Vec F S512x2048 .bf16) (x1 : Vec F S2048x2048 .bf16) (x2 : Vec F S1x2048 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The region's proof data -/

/-- The arrays as the region finds them; after the body at point t each input's buffer at its block and the output's
    at out0_3 of the input blocks; the plain invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.Lin1.lean ====
/-
  Region 1 (the projection of the rows of x by the second weight) as one item of the program's run, at a PARAMETER V:
  the contents of the TensorCore's buffers when the region is entered. At grid point t the body reads its three
  input blocks whole (512 rows of x, the whole weight, the bias row), stores one value over the whole output block,
  and touches nothing else; so what it leaves in the output window's buffer is one function 'out1_3' of the three
  input blocks, the inputs stay as they were, and the region's invariant is the plain one (the scoped rest and the
  generator register, untouched). The proof data 'dat1 V c' say exactly that, and 'body_obligation1' is the body's
  triple at every point. Generic in the float family.
-/
import proofs.«111568_j50783693308389_1_alg».proof.Proof.Gen.KernelIdeal.Launch
import proofs.«111568_j50783693308389_1_alg».proof.Proof.Gen.KernelIdeal.Skeleton
import proofs.«111568_j50783693308389_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (where it is not
    fetched its block index has not moved), for any proof data whose array is V's and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer read or written whole -/

abbrev r1_x : Rect S512x2048 := Rect.unit (s := S512x2048) ![0, 0] S512x2048.size inb_S512x2048_S512x2048_0_0
abbrev r1_w : Rect S2048x2048 := Rect.unit (s := S2048x2048) ![0, 0] S2048x2048.size inb_S2048x2048_S2048x2048_0_0
abbrev r1_b : Rect S1x2048 := Rect.unit (s := S1x2048) ![0, 0] S1x2048.size inb_S1x2048_S1x2048_0_0

/-- The output window's staging buffer after the body, from the three input blocks: its one store. -/
def out1_3 (x0 : Vec F S512x2048 .bf16) (x1 : Vec F S2048x2048 .bf16) (x2 : Vec F S1x2048 .f32) : Vec F S512x2048 .bf16 :=
  View.canon [⟨r1_x, k1_pay1 (View.ld x0 r1_x) (View.ld x1 r1_w) (View.ld x2 r1_b)⟩]

/-- That store covers the buffer. -/
theorem cover1_3 (p0 : Vec F S512x2048 .bf16) (y : S512x2048.Idx) :
    ∃ pc ∈ ([⟨r1_x, p0⟩] : List (View.Piece (Elt F) S512x2048 .bf16)), y ∈ pc.1.set :=
  View.cover_of_tiled [⟨r1_x, p0⟩] S512x2048.size (by rfl) y

/-! ## The body's triple -/

set_option maxHeartbeats 1000000 in
/-- On whole staging memrefs, the inputs' at contents x0 x1 x2 and the output's at anything, the body runs to the
    continuation holding the inputs' as they were and the output's at out1_3 of them. -/
theorem sound_kernel1 (c : Dev nD) (E : Set ℕ) (i : grid1.Coords) (arg1 : Memref sig .tc .vmem S512x2048 .bf16) (harg1 : arg1.IsWhole)
    (arg2 : Memref sig .tc .vmem S2048x2048 .bf16) (harg2 : arg2.IsWhole) (arg3 : Memref sig .tc .vmem S1x2048 .f32) (harg3 : arg3.IsWhole)
    (arg4 : Memref sig .tc .vmem S512x2048 .bf16) (harg4 : arg4.IsWhole)
    (x0 : Vec F S512x2048 .bf16) (x1 : Vec F S2048x2048 .bf16) (x2 : Vec F S1x2048 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__linear_kernel i arg1 harg1 arg2 harg2 arg3 harg3 arg4 harg4) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The region's proof data -/

/-- The arrays as the region finds them; after the body at point t each input's buffer at its block and the output's
    at out1_3 of the input blocks; the plain invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KI.Lin2.lean ====
/-
  Region 2 (the projection of the rows of x by the third weight) as one item of the program's run, at a PARAMETER V:
  the contents of the TensorCore's buffers when the region is entered. At grid point t the body reads its three
  input blocks whole (512 rows of x, the whole weight, the bias row), stores one value over the whole output block,
  and touches nothing else; so what it leaves in the output window's buffer is one function 'out2_3' of the three
  input blocks, the inputs stay as they were, and the region's invariant is the plain one (the scoped rest and the
  generator register, untouched). The proof data 'dat2 V c' say exactly that, and 'body_obligation2' is the body's
  triple at every point. Generic in the float family.
-/
import proofs.«111568_j50783693308389_1_alg».proof.Proof.Gen.KernelIdeal.Launch
import proofs.«111568_j50783693308389_1_alg».proof.Proof.Gen.KernelIdeal.Skeleton
import proofs.«111568_j50783693308389_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not (where it is not
    fetched its block index has not moved), for any proof data whose array is V's and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer read or written whole -/

abbrev r2_x : Rect S512x2048 := Rect.unit (s := S512x2048) ![0, 0] S512x2048.size inb_S512x2048_S512x2048_0_0
abbrev r2_w : Rect S2048x2048 := Rect.unit (s := S2048x2048) ![0, 0] S2048x2048.size inb_S2048x2048_S2048x2048_0_0
abbrev r2_b : Rect S1x2048 := Rect.unit (s := S1x2048) ![0, 0] S1x2048.size inb_S1x2048_S1x2048_0_0

/-- The output window's staging buffer after the body, from the three input blocks: its one store. -/
def out2_3 (x0 : Vec F S512x2048 .bf16) (x1 : Vec F S2048x2048 .bf16) (x2 : Vec F S1x2048 .f32) : Vec F S512x2048 .bf16 :=
  View.canon [⟨r2_x, k2_pay1 (View.ld x0 r2_x) (View.ld x1 r2_w) (View.ld x2 r2_b)⟩]

/-- That store covers the buffer. -/
theorem cover2_3 (p0 : Vec F S512x2048 .bf16) (y : S512x2048.Idx) :
    ∃ pc ∈ ([⟨r2_x, p0⟩] : List (View.Piece (Elt F) S512x2048 .bf16)), y ∈ pc.1.set :=
  View.cover_of_tiled [⟨r2_x, p0⟩] S512x2048.size (by rfl) y

/-! ## The body's triple -/

set_option maxHeartbeats 1000000 in
/-- On whole staging memrefs, the inputs' at contents x0 x1 x2 and the output's at anything, the body runs to the
    continuation holding the inputs' as they were and the output's at out2_3 of them. -/
theorem sound_kernel2 (c : Dev nD) (E : Set ℕ) (i : grid2.Coords) (arg1 : Memref sig .tc .vmem S512x2048 .bf16) (harg1 : arg1.IsWhole)
    (arg2 : Memref sig .tc .vmem S2048x2048 .bf16) (harg2 : arg2.IsWhole) (arg3 : Memref sig .tc .vmem S1x2048 .f32) (harg3 : arg3.IsWhole)
    (arg4 : Memref sig .tc .vmem S512x2048 .bf16) (harg4 : arg4.IsWhole)
    (x0 : Vec F S512x2048 .bf16) (x1 : Vec F S2048x2048 .bf16) (x2 : Vec F S1x2048 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__linear_kernel i arg1 harg1 arg2 harg2 arg3 harg3 arg4 harg4) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The region's proof data -/

/-- The arrays as the region finds them; after the body at point t each input's buffer at its block and the output's
    at out2_3 of the input blocks; the plain invariant; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.KI.AttnRuns.lean ====
/- What the runs of the attention region's frame half share, at a parameter `V` (the TensorCore's buffer contents when
   the region is entered): each window's block at a point, the input windows' buffers at their blocks, the body's two
   branch conditions in closed form over the 8 x 8 grid, where the output window is idle, the staging and scratch
   memrefs, and the region invariant with the scratch as a memref owned at some contents. -/
import proofs.«111568_j50783693308389_1_alg».proof.Proof.Gen.KernelIdeal.Launch
import proofs.«111568_j50783693308389_1_alg».proof.Proof.Gen.KernelIdeal.Skeleton
import proofs.«111568_j50783693308389_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for ANY proof
    data whose array is `V`'s (`hA`) and whose body leaves the block in place (`hafter`): unfetched, the block index
    has not moved; the window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for ANY proof
    data whose array is `V`'s (`hA`) and whose body leaves the block in place (`hafter`): unfetched, the block index
    has not moved; the window is uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for ANY proof
    data whose array is `V`'s (`hA`) and whose body leaves the block in place (`hafter`): unfetched, the block index
    has not moved; the window is uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's branch conditions -/

/-- The condition of the body's first conditional (the scratch is reset), from the grid coordinates. -/
abbrev cond3_0 (i : grid3.Coords) : Prop := (Scalar.cmpi .ne (Scalar.extui (Scalar.cmpi .eq (BitVec.ofNat 32 (i 1).val) 0#32)) 0#32) = 1#1
/-- It holds at the points ≡ 0 (mod 8): the first value of grid coordinate 1. -/
theorem hcond3_0 : ∀ t : Fin cfg3.N, cond3_0 (grid3.coords t) ↔ t.val % 8 = 0 :=
  (by decide +kernel : ∀ t : Fin grid3.N, cond3_0 (grid3.coords t) ↔ t.val % 8 = 0)

/-- The condition of the body's second conditional (the scratch is written to the output). -/
abbrev cond3_1 (i : grid3.Coords) : Prop := k3_cond2 i = 1#1
/-- It holds at the points ≡ 7 (mod 8): the last value of grid coordinate 1. -/
theorem hcond3_1 : ∀ t : Fin cfg3.N, cond3_1 (grid3.coords t) ↔ t.val % 8 = 7 :=
  (by decide +kernel : ∀ t : Fin grid3.N, cond3_1 (grid3.coords t) ↔ t.val % 8 = 7)

/-! ## Where the windows are idle -/

/-- Window 0 is never idle (an input). -/
theorem liveAt3_0 : ∀ t : Fin cfg3.N, cfg3.idle 0 (grid3.coords t) = false := by decide +kernel
/-- Window 1 is never idle (an input). -/
theorem liveAt3_1 : ∀ t : Fin cfg3.N, cfg3.idle 1 (grid3.coords t) = false := by decide +kernel
/-- Window 2 is never idle (an input). -/
theorem liveAt3_2 : ∀ t : Fin cfg3.N, cfg3.idle 2 (grid3.coords t) = false := by decide +kernel
/-- At the points of case A output 3 is idle: the case stores nothing into it. -/
theorem idleAt3_3_A : ∀ t : Fin cfg3.N, cond3_0 (grid3.coords t) → ¬cond3_1 (grid3.coords t) → cfg3.idle 3 (grid3.coords t) = true := by decide +kernel
/-- At the points of case A the pipeline does not write output 3's block back. -/
theorem noFlush3_3_A : ∀ t : Fin cfg3.N, cond3_0 (grid3.coords t) → ¬cond3_1 (grid3.coords t) → (cfg3.win 3).flush t = false := by decide +kernel
/-- At the points of case B output 3 is idle: the case stores nothing into it. -/
theorem idleAt3_3_B : ∀ t : Fin cfg3.N, ¬cond3_0 (grid3.coords t) → ¬cond3_1 (grid3.coords t) → cfg3.idle 3 (grid3.coords t) = true := by decide +kernel
/-- At the points of case B the pipeline does not write output 3's block back. -/
theorem noFlush3_3_B : ∀ t : Fin cfg3.N, ¬cond3_0 (grid3.coords t) → ¬cond3_1 (grid3.coords t) → (cfg3.win 3).flush t = false := by decide +kernel
/-- At the points of case C output 3 is live: the case stores into it. -/
theorem liveAt3_3_C : ∀ t : Fin cfg3.N, ¬cond3_0 (grid3.coords t) → cond3_1 (grid3.coords t) → cfg3.idle 3 (grid3.coords t) = false := by decide +kernel

/-! ## The kernel body on any staging memrefs -/

/-- One staging buffer of output window 3, through which its contents are stated (the choice does not matter). -/
abbrev VO3_3 : View sig .tc .vmem S512x2048 .f32 := (Memref.whole cc3_stg3_0 : Memref sig .tc .vmem S512x2048 .f32).view
/-- Each window's current staging memref at point `t`, spelled as the pipeline passes it, and its wholeness. -/
abbrev ms3_0 (t : Fin cfg3.N) : Memref sig .tc .vmem S512x2048 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S512x2048 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S512x2048 .bf16 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S512x2048 .f32 := win3_3.stage (cfg3.slots t 3)
abbrev hs3_3 (t : Fin cfg3.N) : (ms3_3 t).IsWhole := hstage3_3 ((cfg3.slots t 3).cast nbuf3_3)
/-- The scratch operand: a whole scoped buffer of the kernel's own, passed beside the windows. -/
abbrev scM3_0 : Memref sig .tc .vmem S512x2048 .f32 := Memref.whole cc3_scratch0
/-- The scratch the kernel carries between points, as a view: what it holds is stated through it. -/
abbrev VS3_0 : View sig .tc .vmem S512x2048 .f32 := scM3_0.view

/-- The region's invariant with the scratch operand as a memref owned at some contents: the other regions' staging
    buffers each whole at some contents, the scratch, and the generator register at some state. -/
theorem PhiA3_eq (c : Dev nD) :
    (Pipeline.ΦA spec3 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ d, owns (c : Thread nD τ) scM3_0 fullShare d)) ∗ (∃ r, prngReg c r)) := by
  unfold Pipeline.ΦA; rw [scopedRest3_eq]; simp only [scM3_0, owns_whole]; try rfl

end Cert.KernelIdeal.Fr

end
-- ==== Proof.KI.AttnRunA.lean ====
/- The whole-body run of the attention kernel in case A of its frame half: the body's triple over the skeleton, the
   pieces each buffer ends with as the witness. One module per case, the run modules a chain. -/
import proofs.«111568_j50783693308389_1_alg».proof.Proof.KI.AttnRuns

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

set_option maxHeartbeats 1000000 in
/-- What the body's stores leave in each buffer, as pieces (last first) IN CASE A (the first conditional taken, the second
    not: the points ≡ 0 mod 8), WITH the proof that on whole memrefs — the three inputs' at their blocks, the output's
    (idle here) at contents `xi3` handed back untouched, the scratch at anything — the body runs to the continuation
    holding the inputs' as they were, the output's as it was, and the scratch with its pieces written. -/
noncomputable def kernelRun3_A (c : Dev nD) (i : grid3.Coords) (arg2 : Memref sig .tc .vmem S512x2048 .bf16) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S512x2048 .f32) (harg5 : arg5.IsWhole) (arg6 : Memref sig .tc .vmem S512x2048 .f32) (harg6 : arg6.IsWhole) (hc0 : cond3_0 i) (hc1 : ¬cond3_1 i)
    (x0 : Vec F S512x2048 .bf16) (x1 : Vec F S512x2048 .bf16) (x2 : Vec F S512x2048 .bf16) :
    Σ' (L3 : List (View.Piece (Elt F) S512x2048 .f32)), { LS0 : List (View.Piece (Elt F) S512x2048 .f32) //
      ∀ (xi3 : Vec F S512x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc3__attn_kernel i arg2 harg2 arg3 harg3 arg4 harg4 arg5 harg5 arg6 harg6) K } := by
  refine ⟨[], ?_, fun xi3 E K => ?run⟩
  case run =>
    simp only [cc3__attn_kernel_eq_skeleton]; unfold cc3__attn_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Fr

end
-- ==== Proof.KI.AttnRunB.lean ====
/- The whole-body run of the attention kernel in case B of its frame half: the body's triple over the skeleton, the
   pieces each buffer ends with as the witness. One module per case, the run modules a chain. -/
import proofs.«111568_j50783693308389_1_alg».proof.Proof.KI.AttnRunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

set_option maxHeartbeats 1000000 in
/-- What the body's stores leave in each buffer, as pieces (last first) IN CASE B (neither conditional taken: the points
    ≡ 1, …, 6 mod 8), WITH the proof that on whole memrefs — the three inputs' at their blocks, the output's (idle
    here) at contents `xi3` handed back untouched, the scratch at the contents `xs0` the point before left — the body
    runs to the continuation holding the inputs' as they were, the output's as it was, and the scratch with its
    pieces written. -/
noncomputable def kernelRun3_B (c : Dev nD) (i : grid3.Coords) (arg2 : Memref sig .tc .vmem S512x2048 .bf16) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S512x2048 .f32) (harg5 : arg5.IsWhole) (arg6 : Memref sig .tc .vmem S512x2048 .f32) (harg6 : arg6.IsWhole) (hc0 : ¬cond3_0 i) (hc1 : ¬cond3_1 i)
    (x0 : Vec F S512x2048 .bf16) (x1 : Vec F S512x2048 .bf16) (x2 : Vec F S512x2048 .bf16) (xs0 : Vec F S512x2048 .f32) :
    Σ' (L3 : List (View.Piece (Elt F) S512x2048 .f32)), { LS0 : List (View.Piece (Elt F) S512x2048 .f32) //
      ∀ (xi3 : Vec F S512x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc3__attn_kernel i arg2 harg2 arg3 harg3 arg4 harg4 arg5 harg5 arg6 harg6) K } := by
  refine ⟨[], ?_, fun xi3 E K => ?run⟩
  case run =>
    simp only [cc3__attn_kernel_eq_skeleton]; unfold cc3__attn_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Fr

end
-- ==== Proof.KI.AttnRunC.lean ====
/- The whole-body run of the attention kernel in case C of its frame half: the body's triple over the skeleton, the
   pieces each buffer ends with as the witness. One module per case, the run modules a chain. -/
import proofs.«111568_j50783693308389_1_alg».proof.Proof.KI.AttnRunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

set_option maxHeartbeats 1000000 in
/-- What the body's stores leave in each buffer, as pieces (last first) IN CASE C (the first conditional not taken, the
    second taken: the points ≡ 7 mod 8), WITH the proof that on whole memrefs — the three inputs' at their blocks,
    the output's at anything, the scratch at the contents `xs0` the point before left — the body runs to the
    continuation holding the inputs' as they were, and the output's and the scratch each with its pieces written. -/
noncomputable def kernelRun3_C (c : Dev nD) (i : grid3.Coords) (arg2 : Memref sig .tc .vmem S512x2048 .bf16) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S512x2048 .f32) (harg5 : arg5.IsWhole) (arg6 : Memref sig .tc .vmem S512x2048 .f32) (harg6 : arg6.IsWhole) (hc0 : ¬cond3_0 i) (hc1 : cond3_1 i)
    (x0 : Vec F S512x2048 .bf16) (x1 : Vec F S512x2048 .bf16) (x2 : Vec F S512x2048 .bf16) (xs0 : Vec F S512x2048 .f32) :
    Σ' (L3 : List (View.Piece (Elt F) S512x2048 .f32)), { LS0 : List (View.Piece (Elt F) S512x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc3__attn_kernel i arg2 harg2 arg3 harg3 arg4 harg4 arg5 harg5 arg6 harg6) K } := by
  refine ⟨?_, ?_, fun E K => ?run⟩
  case run =>
    simp only [cc3__attn_kernel_eq_skeleton]; unfold cc3__attn_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Fr

end
-- ==== Proof.KI.Attn.lean ====
/- The frame half of the attention region, its last module, at a parameter `V`: what the output window and the carried
   scratch hold per case (covers) and point by point (`outsAt3`), the proof data (`dat3`), the body obligation, and the
   invariant's two ends (`hin3`, `hout3`). -/
import proofs.«111568_j50783693308389_1_alg».proof.Proof.KI.AttnRunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-- Case A stores nothing into output 3 (the window is idle at its points and not written back there): no pieces — a
    placeholder (junk read back) that nothing consults, since at these points the window is neither written back nor
    read at the next point. -/
def out3_A_3 (c : Dev nD) (i : grid3.Coords) (arg2 : Memref sig .tc .vmem S512x2048 .bf16) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S512x2048 .f32) (harg5 : arg5.IsWhole) (arg6 : Memref sig .tc .vmem S512x2048 .f32) (harg6 : arg6.IsWhole) (hc0 : cond3_0 i) (hc1 : ¬cond3_1 i)
    (x0 : Vec F S512x2048 .bf16) (x1 : Vec F S512x2048 .bf16) (x2 : Vec F S512x2048 .bf16) : Vec F S512x2048 .f32 :=
  VO3_3.read (Elt F) (VO3_3.writes (Elt F) VO3_3.junk (kernelRun3_A c i arg2 harg2 arg3 harg3 arg4 harg4 arg5 harg5 arg6 harg6 hc0 hc1 x0 x1 x2).1)

/-- Case A's pieces for the scratch, which the kernel carries between points, cover it: whole-block pieces tiling it. -/
theorem scover3_A_0 (c : Dev nD) (i : grid3.Coords) (arg2 : Memref sig .tc .vmem S512x2048 .bf16) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S512x2048 .f32) (harg5 : arg5.IsWhole) (arg6 : Memref sig .tc .vmem S512x2048 .f32) (harg6 : arg6.IsWhole) (hc0 : cond3_0 i) (hc1 : ¬cond3_1 i)
    (x0 : Vec F S512x2048 .bf16) (x1 : Vec F S512x2048 .bf16) (x2 : Vec F S512x2048 .bf16) (y : S512x2048.Idx) :
    ∃ pc ∈ (kernelRun3_A c i arg2 harg2 arg3 harg3 arg4 harg4 arg5 harg5 arg6 harg6 hc0 hc1 x0 x1 x2).2.1, y ∈ pc.1.set :=
  View.cover_of_tiledL (kernelRun3_A c i arg2 harg2 arg3 harg3 arg4 harg4 arg5 harg5 arg6 harg6 hc0 hc1 x0 x1 x2).2.1 S512x2048.size (by sl_kernel_rfl) y

/-- What case A leaves in the scratch: its pieces read back over junk. -/
def sout3_A_0 (c : Dev nD) (i : grid3.Coords) (arg2 : Memref sig .tc .vmem S512x2048 .bf16) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S512x2048 .f32) (harg5 : arg5.IsWhole) (arg6 : Memref sig .tc .vmem S512x2048 .f32) (harg6 : arg6.IsWhole) (hc0 : cond3_0 i) (hc1 : ¬cond3_1 i)
    (x0 : Vec F S512x2048 .bf16) (x1 : Vec F S512x2048 .bf16) (x2 : Vec F S512x2048 .bf16) : Vec F S512x2048 .f32 :=
  VS3_0.read (Elt F) (VS3_0.writes (Elt F) VS3_0.junk (kernelRun3_A c i arg2 harg2 arg3 harg3 arg4 harg4 arg5 harg5 arg6 harg6 hc0 hc1 x0 x1 x2).2.1)

/-- Case B stores nothing into output 3 (the window is idle at its points and not written back there): no pieces — a
    placeholder (junk read back) that nothing consults, since at these points the window is neither written back nor
    read at the next point. -/
def out3_B_3 (c : Dev nD) (i : grid3.Coords) (arg2 : Memref sig .tc .vmem S512x2048 .bf16) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S512x2048 .f32) (harg5 : arg5.IsWhole) (arg6 : Memref sig .tc .vmem S512x2048 .f32) (harg6 : arg6.IsWhole) (hc0 : ¬cond3_0 i) (hc1 : ¬cond3_1 i)
    (x0 : Vec F S512x2048 .bf16) (x1 : Vec F S512x2048 .bf16) (x2 : Vec F S512x2048 .bf16) (xs0 : Vec F S512x2048 .f32) : Vec F S512x2048 .f32 :=
  VO3_3.read (Elt F) (VO3_3.writes (Elt F) VO3_3.junk (kernelRun3_B c i arg2 harg2 arg3 harg3 arg4 harg4 arg5 harg5 arg6 harg6 hc0 hc1 x0 x1 x2 xs0).1)

/-- Case B's pieces for the scratch, which the kernel carries between points, cover it: whole-block pieces tiling it. -/
theorem scover3_B_0 (c : Dev nD) (i : grid3.Coords) (arg2 : Memref sig .tc .vmem S512x2048 .bf16) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S512x2048 .f32) (harg5 : arg5.IsWhole) (arg6 : Memref sig .tc .vmem S512x2048 .f32) (harg6 : arg6.IsWhole) (hc0 : ¬cond3_0 i) (hc1 : ¬cond3_1 i)
    (x0 : Vec F S512x2048 .bf16) (x1 : Vec F S512x2048 .bf16) (x2 : Vec F S512x2048 .bf16) (xs0 : Vec F S512x2048 .f32) (y : S512x2048.Idx) :
    ∃ pc ∈ (kernelRun3_B c i arg2 harg2 arg3 harg3 arg4 harg4 arg5 harg5 arg6 harg6 hc0 hc1 x0 x1 x2 xs0).2.1, y ∈ pc.1.set :=
  View.cover_of_tiledL (kernelRun3_B c i arg2 harg2 arg3 harg3 arg4 harg4 arg5 harg5 arg6 harg6 hc0 hc1 x0 x1 x2 xs0).2.1 S512x2048.size (by sl_kernel_rfl) y

/-- What case B leaves in the scratch: its pieces read back over junk. -/
def sout3_B_0 (c : Dev nD) (i : grid3.Coords) (arg2 : Memref sig .tc .vmem S512x2048 .bf16) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S512x2048 .f32) (harg5 : arg5.IsWhole) (arg6 : Memref sig .tc .vmem S512x2048 .f32) (harg6 : arg6.IsWhole) (hc0 : ¬cond3_0 i) (hc1 : ¬cond3_1 i)
    (x0 : Vec F S512x2048 .bf16) (x1 : Vec F S512x2048 .bf16) (x2 : Vec F S512x2048 .bf16) (xs0 : Vec F S512x2048 .f32) : Vec F S512x2048 .f32 :=
  VS3_0.read (Elt F) (VS3_0.writes (Elt F) VS3_0.junk (kernelRun3_B c i arg2 harg2 arg3 harg3 arg4 harg4 arg5 harg5 arg6 harg6 hc0 hc1 x0 x1 x2 xs0).2.1)

/-- Case C's pieces for output 3 tile its block (one store of the whole block), so they cover it. -/
theorem cover3_C_3 (c : Dev nD) (i : grid3.Coords) (arg2 : Memref sig .tc .vmem S512x2048 .bf16) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S512x2048 .f32) (harg5 : arg5.IsWhole) (arg6 : Memref sig .tc .vmem S512x2048 .f32) (harg6 : arg6.IsWhole) (hc0 : ¬cond3_0 i) (hc1 : cond3_1 i)
    (x0 : Vec F S512x2048 .bf16) (x1 : Vec F S512x2048 .bf16) (x2 : Vec F S512x2048 .bf16) (xs0 : Vec F S512x2048 .f32) (y : S512x2048.Idx) :
    ∃ pc ∈ (kernelRun3_C c i arg2 harg2 arg3 harg3 arg4 harg4 arg5 harg5 arg6 harg6 hc0 hc1 x0 x1 x2 xs0).1, y ∈ pc.1.set :=
  View.cover_of_tiledL (kernelRun3_C c i arg2 harg2 arg3 harg3 arg4 harg4 arg5 harg5 arg6 harg6 hc0 hc1 x0 x1 x2 xs0).1 S512x2048.size (by sl_kernel_rfl) y

/-- What case C leaves in output 3's staging buffer: its pieces read back over junk. -/
def out3_C_3 (c : Dev nD) (i : grid3.Coords) (arg2 : Memref sig .tc .vmem S512x2048 .bf16) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S512x2048 .f32) (harg5 : arg5.IsWhole) (arg6 : Memref sig .tc .vmem S512x2048 .f32) (harg6 : arg6.IsWhole) (hc0 : ¬cond3_0 i) (hc1 : cond3_1 i)
    (x0 : Vec F S512x2048 .bf16) (x1 : Vec F S512x2048 .bf16) (x2 : Vec F S512x2048 .bf16) (xs0 : Vec F S512x2048 .f32) : Vec F S512x2048 .f32 :=
  VO3_3.read (Elt F) (VO3_3.writes (Elt F) VO3_3.junk (kernelRun3_C c i arg2 harg2 arg3 harg3 arg4 harg4 arg5 harg5 arg6 harg6 hc0 hc1 x0 x1 x2 xs0).1)

/-- Case C's pieces for the scratch, which the kernel carries between points, cover it: whole-block pieces tiling it. -/
theorem scover3_C_0 (c : Dev nD) (i : grid3.Coords) (arg2 : Memref sig .tc .vmem S512x2048 .bf16) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S512x2048 .f32) (harg5 : arg5.IsWhole) (arg6 : Memref sig .tc .vmem S512x2048 .f32) (harg6 : arg6.IsWhole) (hc0 : ¬cond3_0 i) (hc1 : cond3_1 i)
    (x0 : Vec F S512x2048 .bf16) (x1 : Vec F S512x2048 .bf16) (x2 : Vec F S512x2048 .bf16) (xs0 : Vec F S512x2048 .f32) (y : S512x2048.Idx) :
    ∃ pc ∈ (kernelRun3_C c i arg2 harg2 arg3 harg3 arg4 harg4 arg5 harg5 arg6 harg6 hc0 hc1 x0 x1 x2 xs0).2.1, y ∈ pc.1.set :=
  View.cover_of_tiledL (kernelRun3_C c i arg2 harg2 arg3 harg3 arg4 harg4 arg5 harg5 arg6 harg6 hc0 hc1 x0 x1 x2 xs0).2.1 S512x2048.size (by sl_kernel_rfl) y

/-- What case C leaves in the scratch: its pieces read back over junk. -/
def sout3_C_0 (c : Dev nD) (i : grid3.Coords) (arg2 : Memref sig .tc .vmem S512x2048 .bf16) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S512x2048 .f32) (harg5 : arg5.IsWhole) (arg6 : Memref sig .tc .vmem S512x2048 .f32) (harg6 : arg6.IsWhole) (hc0 : ¬cond3_0 i) (hc1 : cond3_1 i)
    (x0 : Vec F S512x2048 .bf16) (x1 : Vec F S512x2048 .bf16) (x2 : Vec F S512x2048 .bf16) (xs0 : Vec F S512x2048 .f32) : Vec F S512x2048 .f32 :=
  VS3_0.read (Elt F) (VS3_0.writes (Elt F) VS3_0.junk (kernelRun3_C c i arg2 harg2 arg3 harg3 arg4 harg4 arg5 harg5 arg6 harg6 hc0 hc1 x0 x1 x2 xs0).2.1)

/-! ## What the output and the scratch hold after each point -/

/-- THE ACCUMULATION. What output window 3's staging buffer and the scratch the kernel carries between points hold after the
    body at position `n` (a pair: the output, then the scratch): the case the closed forms select at `n`, run at the
    point's memrefs and input blocks, the scratch it reads at what this leaves at `n - 1`. An assignment of the
    conditions no point meets is no case. -/
def outsAt3 (c : Dev nD) : (n : ℕ) → n < cfg3.N → Vec F S512x2048 .f32 × Vec F S512x2048 .f32
  | 0, hn => (out3_A_3 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩), sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩))
  | n + 1, hn =>
    if h0 : (n + 1) % 8 = 0 then
      if h1 : (n + 1) % 8 = 7 then
        False.elim (by have hN : n + 1 < 64 := lt_of_lt_of_eq hn (show cfg3.N = 64 from N_3); omega)
      else
        (out3_A_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩), sout3_A_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩))
    else
      if h1 : (n + 1) % 8 = 7 then
        (out3_C_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2, sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (outsAt3 c n (Nat.lt_of_succ_lt hn)).2)
      else
        (out3_B_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2, sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2)

/-- `outsAt3` at a point of case A: that case's contents. -/
theorem outsAt3_A (c : Dev nD) (t : Fin cfg3.N) (h0 : t.val % 8 = 0) (h1 : ¬t.val % 8 = 7) :
    outsAt3 V c t.val t.isLt = (out3_A_3 c (grid3.coords t) (ms3_0 t) (hs3_0 t) (ms3_1 t) (hs3_1 t) (ms3_2 t) (hs3_2 t) (ms3_3 t) (hs3_3 t) scM3_0 (Memref.isWhole_whole _) ((hcond3_0 t).mpr h0) (fun h => h1 ((hcond3_1 t).mp h)) (iblk3 V c 0 t) (iblk3 V c 1 t) (iblk3 V c 2 t), sout3_A_0 c (grid3.coords t) (ms3_0 t) (hs3_0 t) (ms3_1 t) (hs3_1 t) (ms3_2 t) (hs3_2 t) (ms3_3 t) (hs3_3 t) scM3_0 (Memref.isWhole_whole _) ((hcond3_0 t).mpr h0) (fun h => h1 ((hcond3_1 t).mp h)) (iblk3 V c 0 t) (iblk3 V c 1 t) (iblk3 V c 2 t)) := by
  obtain ⟨n, hn⟩ := t
  cases n with
  | zero => exact rfl
  | succ n => exact (dif_pos h0).trans ((dif_neg h1).trans rfl)

/-- `outsAt3` at a point of case B: that case's contents, over what the point before left. -/
theorem outsAt3_B (c : Dev nD) (t : Fin cfg3.N) (h0 : ¬t.val % 8 = 0) (h1 : ¬t.val % 8 = 7) :
    outsAt3 V c t.val t.isLt = (out3_B_3 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2, sout3_B_0 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt3` at a point of case C: that case's contents, over what the point before left. -/
theorem outsAt3_C (c : Dev nD) (t : Fin cfg3.N) (h0 : ¬t.val % 8 = 0) (h1 : t.val % 8 = 7) :
    outsAt3 V c t.val t.isLt = (out3_C_3 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2, sout3_C_0 c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with the scratch the kernel CARRIES between points: before the first point the
    launch's (every scoped buffer that is no staging buffer of this region at anything, the generator register at some
    state); afterwards the same with the scratch at what the point before left in it (`outsAt3`'s second component). -/
def PhiS3 (c : Dev nD) : (n : ℕ) → n ≤ cfg3.N → sProp 𝕄
  | 0, _ => Pipeline.ΦA spec3 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ owns (c : Thread nD τ) scM3_0 fullShare ((outsAt3 V c n hn).2)) ∗ (∃ r, prngReg c r))

theorem PhiS3_zero (c : Dev nD) (n : ℕ) (h : n ≤ cfg3.N) (hz : n = 0) : PhiS3 V c n h = Pipeline.ΦA spec3 c := by
  subst hz; rfl

/-- After point `n` (before point `n + 1`): the carried scratch at that point's contents. -/
theorem PhiS3_succ (c : Dev nD) (n : ℕ) (hn : n < cfg3.N) :
    PhiS3 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ owns (c : Thread nD τ) scM3_0 fullShare ((outsAt3 V c n hn).2)) ∗ (∃ r, prngReg c r)) := rfl

/-- Before a point that is not the first: the carried scratch at what the point before left. -/
theorem PhiS3_pos (c : Dev nD) (n : ℕ) (h : n ≤ cfg3.N) (hz : n ≠ 0) :
    PhiS3 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ owns (c : Thread nD τ) scM3_0 fullShare ((outsAt3 V c (n - 1) (by omega)).2)) ∗ (∃ r, prngReg c r)) := by
  cases n with
  | zero => exact absurd rfl hz
  | succ n => rfl

/-! ## The pipeline's proof data -/

/-- The proof data of the region's pipeline on core `c`: the arrays as the region finds them (`V`); after the body at
    point `t` each input's buffer at its block and the output's at `outsAt3`'s first component; the invariant `PhiS3`;
    nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS3 V c t.val (Nat.le_of_lt_succ t.isLt)
  q _ := fullShare
  owed _ := 0

/-- The proof data's arrays are the region-entry contents. -/
theorem A_eq3 (c : Dev nD) (w : Fin cfg3.W) : (dat3 V c).A w = V c (Pipeline.arrRef spec3 w) := by
  dsimp only [dat3]

/-- The invariant at a point's start (the proof data at `t.castSucc`), restated at `t.val`. -/
theorem PhiS3_castSucc (c : Dev nD) (t : Fin cfg3.N) :
    (dat3 V c).Φ t.castSucc = PhiS3 V c t.val (Nat.le_of_lt t.isLt) := by
  dsimp only [dat3]; simp only [Fin.coe_castSucc]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t` (the windows one by one), -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in
/-- The body at any point: the inputs' memrefs hold their blocks; the closed forms say which case the point is in; so that
    case's run applies; the invariant hands the body the carried scratch at what the point before left (at anything at
    the first point) and the generator register at some state, and takes the scratch back at this point's contents
    (the pieces cover it); the other scoped buffers pass through untouched; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  have hN : t.val < 64 := lt_of_lt_of_eq t.isLt (show cfg3.N = 64 from N_3)
  by_cases h0 : t.val % 8 = 0
  · by_cases h1 : t.val % 8 = 7
    · exfalso; omega
    · rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [Dat.leavesExact_idle (dat3 V c) 3 t (idleAt3_3_A t ((hcond3_0 t).mpr h0) (fun h => h1 ((hcond3_1 t).mp h))) (noFlush3_3_A t ((hcond3_0 t).mpr h0) (fun h => h1 ((hcond3_1 t).mp h)))]
      rw [outsAt3_A V c t h0 h1]
      unfold sout3_A_0; (try dsimp only)
      by_cases hz : t.val = 0
      · rw [PhiS3_castSucc V c t, PhiS3_zero V c _ _ hz, PhiA3_eq]
        iintro ⟨⟨⟨HR0, HR1, HR2, HR3, HR4, HR5, HR6, HR7, HR8, HR9, HR10, HR11, HR12, HR13, HR14, HR15, HR16, HR17, HS0⟩, Hg⟩, Ho, ⟨%d0, H0⟩, ⟨%d1, H1⟩, ⟨%d2, H2⟩, ⟨%d3, H3⟩⟩
        iapply ((kernelRun3_A c (grid3.coords t) _ _ _ _ _ _ _ _ _ _ ((hcond3_0 t).mpr h0) (fun h => h1 ((hcond3_1 t).mp h)) (iblk3 V c 0 t) (iblk3 V c 1 t) (iblk3 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HR0 HR1 HR2 HR3 HR4 HR5 HR6 HR7 HR8 HR9 HR10 HR11 HR12 HR13 HR14 HR15 HR16 HR17 HS0 Hg]
        · isplitl [HR0 HR1 HR2 HR3 HR4 HR5 HR6 HR7 HR8 HR9 HR10 HR11 HR12 HR13 HR14 HR15 HR16 HR17 HS0]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HR9]; · iexact HR9
            isplitl [HR10]; · iexact HR10
            isplitl [HR11]; · iexact HR11
            isplitl [HR12]; · iexact HR12
            isplitl [HR13]; · iexact HR13
            isplitl [HR14]; · iexact HR14
            isplitl [HR15]; · iexact HR15
            isplitl [HR16]; · iexact HR16
            isplitl [HR17]; · iexact HR17
            unfold owns; iexists _; isplitr
            swap; · iexact HS0
            ipureintro; exact View.read_writes_of_cover _ _ _ _ _ (scover3_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS3_castSucc V c t, PhiS3_pos V c _ _ hz]
        iintro ⟨⟨⟨HR0, HR1, HR2, HR3, HR4, HR5, HR6, HR7, HR8, HR9, HR10, HR11, HR12, HR13, HR14, HR15, HR16, HR17, HS0⟩, Hg⟩, Ho, ⟨%d0, H0⟩, ⟨%d1, H1⟩, ⟨%d2, H2⟩, ⟨%d3, H3⟩⟩
        iapply ((kernelRun3_A c (grid3.coords t) _ _ _ _ _ _ _ _ _ _ ((hcond3_0 t).mpr h0) (fun h => h1 ((hcond3_1 t).mp h)) (iblk3 V c 0 t) (iblk3 V c 1 t) (iblk3 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HR0 HR1 HR2 HR3 HR4 HR5 HR6 HR7 HR8 HR9 HR10 HR11 HR12 HR13 HR14 HR15 HR16 HR17 HS0 Hg]
        · isplitl [HR0 HR1 HR2 HR3 HR4 HR5 HR6 HR7 HR8 HR9 HR10 HR11 HR12 HR13 HR14 HR15 HR16 HR17 HS0]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HR9]; · iexact HR9
            isplitl [HR10]; · iexact HR10
            isplitl [HR11]; · iexact HR11
            isplitl [HR12]; · iexact HR12
            isplitl [HR13]; · iexact HR13
            isplitl [HR14]; · iexact HR14
            isplitl [HR15]; · iexact HR15
            isplitl [HR16]; · iexact HR16
            isplitl [HR17]; · iexact HR17
            unfold owns; iexists _; isplitr
            swap; · iexact HS0
            ipureintro; exact View.read_writes_of_cover _ _ _ _ _ (scover3_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · by_cases h1 : t.val % 8 = 7
    · rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [show (dat3 V c).leavesExact 3 t = owns (c : Thread nD τ) (ms3_3 t) fullShare ((dat3 V c).after 3 t) from by
        unfold Dat.leavesExact; rw [liveAt3_3_C t (fun h => h0 ((hcond3_0 t).mp h)) ((hcond3_1 t).mpr h1)], after3_3]
      rw [outsAt3_C V c t h0 h1]
      unfold out3_C_3 sout3_C_0; (try dsimp only)
      by_cases hz : t.val = 0
      · exfalso; omega
      · rw [PhiS3_castSucc V c t, PhiS3_pos V c _ _ hz]
        iintro ⟨⟨⟨HR0, HR1, HR2, HR3, HR4, HR5, HR6, HR7, HR8, HR9, HR10, HR11, HR12, HR13, HR14, HR15, HR16, HR17, HS0⟩, Hg⟩, Ho, ⟨%d0, H0⟩, ⟨%d1, H1⟩, ⟨%d2, H2⟩, ⟨%d3, H3⟩⟩
        iapply ((kernelRun3_C c (grid3.coords t) _ _ _ _ _ _ _ _ _ _ (fun h => h0 ((hcond3_0 t).mp h)) ((hcond3_1 t).mpr h1) (iblk3 V c 0 t) (iblk3 V c 1 t) (iblk3 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HR0 HR1 HR2 HR3 HR4 HR5 HR6 HR7 HR8 HR9 HR10 HR11 HR12 HR13 HR14 HR15 HR16 HR17 HS0 Hg]
        · isplitl [HR0 HR1 HR2 HR3 HR4 HR5 HR6 HR7 HR8 HR9 HR10 HR11 HR12 HR13 HR14 HR15 HR16 HR17 HS0]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HR9]; · iexact HR9
            isplitl [HR10]; · iexact HR10
            isplitl [HR11]; · iexact HR11
            isplitl [HR12]; · iexact HR12
            isplitl [HR13]; · iexact HR13
            isplitl [HR14]; · iexact HR14
            isplitl [HR15]; · iexact HR15
            isplitl [HR16]; · iexact HR16
            isplitl [HR17]; · iexact HR17
            unfold owns; iexists _; isplitr
            swap; · iexact HS0
            ipureintro; exact View.read_writes_of_cover _ _ _ _ _ (scover3_C_0 c _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover3_C_3 c _ _ _ _ _ _ _ _ _ _ _ _ _ _ _ _ _)
    · rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [Dat.leavesExact_idle (dat3 V c) 3 t (idleAt3_3_B t (fun h => h0 ((hcond3_0 t).mp h)) (fun h => h1 ((hcond3_1 t).mp h))) (noFlush3_3_B t (fun h => h0 ((hcond3_0 t).mp h)) (fun h => h1 ((hcond3_1 t).mp h)))]
      rw [outsAt3_B V c t h0 h1]
      unfold sout3_B_0; (try dsimp only)
      by_cases hz : t.val = 0
      · exfalso; omega
      · rw [PhiS3_castSucc V c t, PhiS3_pos V c _ _ hz]
        iintro ⟨⟨⟨HR0, HR1, HR2, HR3, HR4, HR5, HR6, HR7, HR8, HR9, HR10, HR11, HR12, HR13, HR14, HR15, HR16, HR17, HS0⟩, Hg⟩, Ho, ⟨%d0, H0⟩, ⟨%d1, H1⟩, ⟨%d2, H2⟩, ⟨%d3, H3⟩⟩
        iapply ((kernelRun3_B c (grid3.coords t) _ _ _ _ _ _ _ _ _ _ (fun h => h0 ((hcond3_0 t).mp h)) (fun h => h1 ((hcond3_1 t).mp h)) (iblk3 V c 0 t) (iblk3 V c 1 t) (iblk3 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HR0 HR1 HR2 HR3 HR4 HR5 HR6 HR7 HR8 HR9 HR10 HR11 HR12 HR13 HR14 HR15 HR16 HR17 HS0 Hg]
        · isplitl [HR0 HR1 HR2 HR3 HR4 HR5 HR6 HR7 HR8 HR9 HR10 HR11 HR12 HR13 HR14 HR15 HR16 HR17 HS0]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HR9]; · iexact HR9
            isplitl [HR10]; · iexact HR10
            isplitl [HR11]; · iexact HR11
            isplitl [HR12]; · iexact HR12
            isplitl [HR13]; · iexact HR13
            isplitl [HR14]; · iexact HR14
            isplitl [HR15]; · iexact HR15
            isplitl [HR16]; · iexact HR16
            isplitl [HR17]; · iexact HR17
            unfold owns; iexists _; isplitr
            swap; · iexact HS0
            ipureintro; exact View.read_writes_of_cover _ _ _ _ _ (scover3_B_0 c _ _ _ _ _ _ _ _ _ _ _ _ _ _ _ _ _)
          iexact Hg
        isplitl [Ho]; · iexact Ho
        isplitl [H0]; · iexact H0
        isplitl [H1]; · iexact H1
        isplitl [H2]; · iexact H2
        iexists _; iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives the launch's back: the carried scratch's named contents are forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨HR0, HR1, HR2, HR3, HR4, HR5, HR6, HR7, HR8, HR9, HR10, HR11, HR12, HR13, HR14, HR15, HR16, HR17, HS0⟩, Hg⟩
  isplitl [HR0 HR1 HR2 HR3 HR4 HR5 HR6 HR7 HR8 HR9 HR10 HR11 HR12 HR13 HR14 HR15 HR16 HR17 HS0]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    isplitl [HR10]; · iexact HR10
    isplitl [HR11]; · iexact HR11
    isplitl [HR12]; · iexact HR12
    isplitl [HR13]; · iexact HR13
    isplitl [HR14]; · iexact HR14
    isplitl [HR15]; · iexact HR15
    isplitl [HR16]; · iexact HR16
    isplitl [HR17]; · iexact HR17
    iexists _; iexact HS0
  iexact Hg

/-- The same after the last point. -/
theorem hout3 (c : Dev nD) : (dat3 V c).Φ (Fin.last cfg3.N) ⊢ Pipeline.ΦA spec3 c :=
  Phi_out3 V c _ (by rw [Fin.val_last]; have : cfg3.N = 64 := N_3; omega)

end Cert.KernelIdeal.Fr

end
-- ==== Proof.KI.Run.lean ====
/-
  The whole run of the program: its seven items in order (a stretch of host operations, the first projection, one
  host operation, the second projection, one host operation, the third projection, the attention region), the
  contents of every unscoped buffer between two items written as a fold from the launch memory (a host stretch applies
  its operations; a region leaves its window arrays at what its write-backs make of them and every other buffer as it
  found it), each region entered from the fold's contents before it and left at the contents after it. The result:
  every weakly fair execution terminates without a fault, and at the end every unscoped buffer holds the last fold
  'W7'. No item writes an argument array, so each argument ends as launched; the result array ends at what the
  attention region's write-backs leave. Generic in the float family.
-/
import proofs.«111568_j50783693308389_1_alg».proof.Proof.KI.Lin0
import proofs.«111568_j50783693308389_1_alg».proof.Proof.KI.Lin1
import proofs.«111568_j50783693308389_1_alg».proof.Proof.KI.Lin2
import proofs.«111568_j50783693308389_1_alg».proof.Proof.KI.Attn
import proofs.«111568_j50783693308389_1_alg».proof.Proof.Gen.KernelIdeal.Regions

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents between two items: a fold through the program -/

/-- Core c's buffers at launch. -/
abbrev W0 : Dev nD → Valuation τ sig (Elt F) := fun c b => (s₀ m ρ).mem ((c : Dev nD), b)
/-- After the first host stretch (the first projection's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At region 0's exit: its arrays at what the pipeline leaves (the inputs as entered, the output's write-backs folded),
    every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the second projection's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- At region 1's exit: its arrays at what the pipeline leaves (the inputs as entered, the output's write-backs folded),
    every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third host stretch (the third projection's entry). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b

/-- At region 2's exit: its arrays at what the pipeline leaves (the inputs as entered, the output's write-backs folded),
    every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- At region 3's exit: its arrays at what the pipeline leaves (the inputs as entered, the output's write-backs folded),
    every other buffer as entered. -/
def W7 (c : Dev nD) : Valuation τ sig (Elt F) :=
  Pipeline.withArrays spec3 c (W6 m ρ c) fun w => (dat3 (V6 m ρ) c).arrAt w cfg3.N
theorem W7_arr (c : Dev nD) (w : Fin cfg3.W) :
    W7 m ρ c (Proc.devRef .tc (Pipeline.arrRef spec3 w)) = (dat3 (V6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
abbrev V7 : (c : Dev nD) → (b : Ref sig .tc) → Buf (Elt F) ((c : Thread nD τ).loc b) := fun c b => W7 m ρ c b
theorem hF3 (c : Dev nD) (w : Fin cfg3.W) : (dat3 (V6 m ρ) c).arrAt w cfg3.N = V7 m ρ c (Pipeline.arrRef spec3 w) :=
  (W7_arr m ρ c w).symm
theorem hrest3 (c : Dev nD) : ∀ b, b ∉ Finset.univ.image (Pipeline.arrRef spec3) → V7 m ρ c b = V6 m ρ c b :=
  fun b hb => W7_of_ne m ρ c b fun w e => hb (Finset.mem_image.mpr ⟨w, Finset.mem_univ _, e⟩)

/-! ## A buffer no item writes ends as launched -/

/-- A reference that no host stretch writes and that is no region's window array holds its launch contents at the end. -/
theorem W7_keep (c : Dev nD) (b : Ref sig .tc) (h0 : b ∉ hostOps0_W) (h1 : b ∉ hostOps1_W) (h2 : b ∉ hostOps2_W)
    (a0 : ∀ w, Pipeline.arrRef spec0 w ≠ b) (a1 : ∀ w, Pipeline.arrRef spec1 w ≠ b) (a2 : ∀ w, Pipeline.arrRef spec2 w ≠ b)
    (a3 : ∀ w, Pipeline.arrRef spec3 w ≠ b) : W7 m ρ c (Proc.devRef .tc b) = m ((c : Thread nD τ).loc b) :=
  calc W7 m ρ c (Proc.devRef .tc b)
    _ = W6 m ρ c (Proc.devRef .tc b) := W7_of_ne m ρ c b a3
    _ = W5 m ρ c (Proc.devRef .tc b) := W6_of_ne m ρ c b a2
    _ = W4 m ρ c (Proc.devRef .tc b) := StableHlo.after_of_writes_sub hostOps2 _ hostOps2_writes h2
    _ = W3 m ρ c (Proc.devRef .tc b) := W4_of_ne m ρ c b a1
    _ = W2 m ρ c (Proc.devRef .tc b) := StableHlo.after_of_writes_sub hostOps1 _ hostOps1_writes h1
    _ = W1 m ρ c (Proc.devRef .tc b) := W2_of_ne m ρ c b a0
    _ = W0 m ρ c (Proc.devRef .tc b) := StableHlo.after_of_writes_sub hostOps0 _ hostOps0_writes h0
    _ = m ((c : Thread nD τ).loc b) := rfl

theorem W7_main_arg0 (c : Dev nD) : W7 m ρ c (Proc.devRef .tc main_arg0) = m ((c : Thread nD τ).loc main_arg0) :=
  W7_keep m ρ c main_arg0 (by decide) (by decide) (by decide) (by decide) (by decide) (by decide) (by decide)
theorem W7_main_arg1 (c : Dev nD) : W7 m ρ c (Proc.devRef .tc main_arg1) = m ((c : Thread nD τ).loc main_arg1) :=
  W7_keep m ρ c main_arg1 (by decide) (by decide) (by decide) (by decide) (by decide) (by decide) (by decide)
theorem W7_main_arg2 (c : Dev nD) : W7 m ρ c (Proc.devRef .tc main_arg2) = m ((c : Thread nD τ).loc main_arg2) :=
  W7_keep m ρ c main_arg2 (by decide) (by decide) (by decide) (by decide) (by decide) (by decide) (by decide)
theorem W7_main_arg3 (c : Dev nD) : W7 m ρ c (Proc.devRef .tc main_arg3) = m ((c : Thread nD τ).loc main_arg3) :=
  W7_keep m ρ c main_arg3 (by decide) (by decide) (by decide) (by decide) (by decide) (by decide) (by decide)
theorem W7_main_arg4 (c : Dev nD) : W7 m ρ c (Proc.devRef .tc main_arg4) = m ((c : Thread nD τ).loc main_arg4) :=
  W7_keep m ρ c main_arg4 (by decide) (by decide) (by decide) (by decide) (by decide) (by decide) (by decide)
theorem W7_main_arg5 (c : Dev nD) : W7 m ρ c (Proc.devRef .tc main_arg5) = m ((c : Thread nD τ).loc main_arg5) :=
  W7_keep m ρ c main_arg5 (by decide) (by decide) (by decide) (by decide) (by decide) (by decide) (by decide)
theorem W7_main_arg6 (c : Dev nD) : W7 m ρ c (Proc.devRef .tc main_arg6) = m ((c : Thread nD τ).loc main_arg6) :=
  W7_keep m ρ c main_arg6 (by decide) (by decide) (by decide) (by decide) (by decide) (by decide) (by decide)

/-- The result array ends at what the attention region's write-backs leave in its output window's array. -/
theorem W7_main_v10 (c : Dev nD) : W7 m ρ c (Proc.devRef .tc main_v10) = (dat3 (V6 m ρ) c).arrAt 3 cfg3.N :=
  W7_arr m ρ c 3

/-! ## The proof data family and the thread state -/

/-- No pipeline has a prefetched table. -/
abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V6 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)
/-- A host stretch as an item over the unscoped references from the contents W, R riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register at some state. -/
abbrev Tₙ (c : Dev nD) : sProp 𝕄 := iprop(StableHlo.held (c : Thread nD τ) (Pipeline.ucRefs τ sig) (W7 m ρ c) ∗ ∃ r, prngReg c r)

/-! ## The regions as items -/

set_option backward.isDefEq.respectTransparency.types false in
/-- Region 0 over the thread state: entered from every unscoped buffer at W1, left at W2. Its arrays are split out of
    the unscoped buffers and put back at the exit contents; the generator register goes into the plain invariant and
    comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at W3, left at W4. Its arrays are split out of
    the unscoped buffers and put back at the exit contents; the generator register goes into the plain invariant and
    comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at W5, left at W6. Its arrays are split out of
    the unscoped buffers and put back at the exit contents; the generator register goes into the plain invariant and
    comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at W6, left at W7. Its arrays are split out of
    the unscoped buffers and put back at the exit contents; the generator register goes into the plain invariant and
    comes out; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V6 m ρ) c).loose
  hwaits := Pipeline.hwaits_of_owed_zero _ _ _ _ L lv 3 fun _ _ => rfl
  pre c := iprop(StableHlo.held (c : Thread nD τ) (Pipeline.ucRefs τ sig) (W6 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V6 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec3 c from by
      unfold Pipeline.ΦA
      iintro ⟨Hp, -, Hr⟩
      isplitl [Hr]; · iexact Hr
      iexact Hp).trans ?_
    exact hin3 (V6 m ρ) c
  hout c := by
    rw [Pipeline.ownSems0_none]
    refine (show (pdats m ρ 3 c).Φ (Fin.last _) ⊢ Pipeline.ΦA spec3 c from hout3 (V6 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V6 m ρ c) (V7 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as items, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .region (reg3 m ρ) ]

theorem main_run (c : Dev nD) : main (F := F) c = Pipeline.Seg.run (segs m ρ) := (main_chain c).trans (by chain_rfl)

set_option backward.isDefEq.respectTransparency.types false in
/-- THE RUN: from any memory with zero counters every weakly fair execution of the program terminates, nothing
    faulting, and every final state holds every unscoped buffer at the last fold W7. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c),
     (h c _ (mem_uc main_arg6 (by decide))).trans (W7_main_arg6 m ρ c)⟩) (run_all m ρ)

/-- The run with the result array named: it ends at what the attention region's write-backs leave. -/
theorem run_out : θ_run defs (onTc (τ := τ) (main (F := F))) ⟨m, fun _ => 0, ρ⟩ (fun r => ∀ c : Dev nD,
      r.2.mem ((c.tc : Thread nD τ).loc main_v10) = (dat3 (V6 m ρ) c).arrAt 3 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_v10 (by decide))).trans (W7_main_v10 m ρ c),
     (h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c),
     (h c _ (mem_uc main_arg6 (by decide))).trans (W7_main_arg6 m ρ c)⟩) (run_all m ρ)

end Cert.KernelIdeal.Fr

end
-- ==== Proof.KI.LinSpec.lean ====
/-
  A projection of the rows, as a function of the three arrays a projection region reads: row r of x against row d of the
  weight, plus entry d of the bias row:  (linRow x W b)[r, d] = (∑ k, x[r, k] * W[d, k]) + b[0, d].
  And the value the body of such a region stores over its block, read at an index: the product of a 512 x 2048 block with
  the 2048 x 2048 weight, contracting the second axis of both, into a zero accumulator, plus the bias row on every row;
  on the extended reals the narrowing to bf16 is the identity.
-/
import proofs.«111568_j50783693308389_1_alg».proof.Proof.Gen.KernelIdeal
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.FrV

open Cert.KernelIdeal Cert.KernelIdeal.Gen
open Idealize.ShloMosaic Idealize.ShloMosaic.TcCoe Idealize.SL.Sem Idealize.ShloMosaic.ValueIdx

/-- A projection of the rows: row r of x against row d of W, plus the bias row's entry d. -/
def linRow (x : S4096x2048.Idx → EReal) (W : S2048x2048.Idx → EReal) (brow : S1x2048.Idx → EReal) : S4096x2048.Idx → EReal :=
  fun i => (∑ k : Fin 2048, x (ix2 (n0 := 4096) (n1 := 2048) (i 0) k) * W (ix2 (n0 := 2048) (n1 := 2048) (i 1) k)) + brow (ix2 (n0 := 1) (n1 := 2048) 0 (i 1))

/-- A whole-block access starts at zero on both axes. -/
theorem lin_hz : (![0, 0] : Fin 2 → Nat) = fun _ => 0 := funext fun a => by fin_cases a <;> rfl

/-! ## The product's operand indices, axis by axis -/

theorem lhs_lin_0 (i : S512x2048.Idx) (q : dot_S512x2048_S2048x2048_S512x2048_1_1_0_0_n_n.contr.Idx) :
    (dot_S512x2048_S2048x2048_S512x2048_1_1_0_0_n_n.lhsIdx i q 0).val = (i 0).val := by
  unfold DotDims.lhsIdx
  rw [dif_neg (show ¬(0 : Fin S512x2048.rank) ∈ dot_S512x2048_S2048x2048_S512x2048_1_1_0_0_n_n.lhsBatch by decide), dif_pos (show (0 : Fin S512x2048.rank) ∈ dot_S512x2048_S2048x2048_S512x2048_1_1_0_0_n_n.lhsNonContracting by decide)]
  rfl
theorem lhs_lin_1 (i : S512x2048.Idx) (q : dot_S512x2048_S2048x2048_S512x2048_1_1_0_0_n_n.contr.Idx) :
    (dot_S512x2048_S2048x2048_S512x2048_1_1_0_0_n_n.lhsIdx i q 1).val = (q ⟨0, by decide⟩).val :=
  dot_S512x2048_S2048x2048_S512x2048_1_1_0_0_n_n.lhsIdx_val_of_single rfl i q
theorem rhs_lin_0 (i : S512x2048.Idx) (q : dot_S512x2048_S2048x2048_S512x2048_1_1_0_0_n_n.contr.Idx) :
    (dot_S512x2048_S2048x2048_S512x2048_1_1_0_0_n_n.rhsIdx i q 0).val = (i 1).val := by
  unfold DotDims.rhsIdx
  rw [dif_neg (show ¬(0 : Fin S2048x2048.rank) ∈ dot_S512x2048_S2048x2048_S512x2048_1_1_0_0_n_n.rhsBatch by decide), dif_pos (show (0 : Fin S2048x2048.rank) ∈ dot_S512x2048_S2048x2048_S512x2048_1_1_0_0_n_n.rhsNonContracting by decide)]
  rfl
theorem rhs_lin_1 (i : S512x2048.Idx) (q : dot_S512x2048_S2048x2048_S512x2048_1_1_0_0_n_n.contr.Idx) :
    (dot_S512x2048_S2048x2048_S512x2048_1_1_0_0_n_n.rhsIdx i q 1).val = (q ⟨0, by decide⟩).val :=
  dot_S512x2048_S2048x2048_S512x2048_1_1_0_0_n_n.rhsIdx_val_of_single rfl i q

/-- The product into a zero accumulator at (p, q): row p of the block against row q of the weight. -/
theorem linMatmul_apply (y0 : FVec Ideal S512x2048 .bf16) (y1 : FVec Ideal S2048x2048 .bf16) (p : Fin 512) (q : Fin 2048) :
    matmul dot_S512x2048_S2048x2048_S512x2048_1_1_0_0_n_n none y0 y1 (constant (F := Ideal) S512x2048 .f32 0x00000000#32) (ix2 p q)
      = ∑ k : Fin 2048, y0 (ix2 p k) * y1 (ix2 q k) := by
  show FloatOps.matmul dot_S512x2048_S2048x2048_S512x2048_1_1_0_0_n_n none y0 y1 (constant (F := Ideal) S512x2048 .f32 0x00000000#32) (ix2 p q) = _
  rw [Ideal.matmul_constant_zero_apply, ← Equiv.sum_comp (ValueIdx.contrEquiv1 dot_S512x2048_S2048x2048_S512x2048_1_1_0_0_n_n 2048 rfl rfl).symm]
  refine Finset.sum_congr rfl fun k _ => ?_
  have hk := ValueIdx.contrEquiv1_symm_val dot_S512x2048_S2048x2048_S512x2048_1_1_0_0_n_n 2048 rfl rfl k
  have el : dot_S512x2048_S2048x2048_S512x2048_1_1_0_0_n_n.lhsIdx (ix2 p q) ((ValueIdx.contrEquiv1 dot_S512x2048_S2048x2048_S512x2048_1_1_0_0_n_n 2048 rfl rfl).symm k) = ix2 p k := funext fun a => Fin.ext (by
    match a with
    | ⟨0, _⟩ => exact lhs_lin_0 _ _
    | ⟨1, _⟩ => exact (lhs_lin_1 _ _).trans hk)
  have er : dot_S512x2048_S2048x2048_S512x2048_1_1_0_0_n_n.rhsIdx (ix2 p q) ((ValueIdx.contrEquiv1 dot_S512x2048_S2048x2048_S512x2048_1_1_0_0_n_n 2048 rfl rfl).symm k) = ix2 q k := funext fun a => Fin.ext (by
    match a with
    | ⟨0, _⟩ => exact rhs_lin_0 _ _
    | ⟨1, _⟩ => exact (rhs_lin_1 _ _).trans hk)
  rw [el, er]

/-- What the body stores, at (p, q): the product's entry plus the bias row's entry q. -/
theorem linPay_apply (x0 : FVec Ideal S512x2048 .bf16) (x1 : FVec Ideal S2048x2048 .bf16) (x2 : FVec Ideal S1x2048 .f32) (p : Fin 512) (q : Fin 2048) :
    (truncf .bf16 (addf (matmul dot_S512x2048_S2048x2048_S512x2048_1_1_0_0_n_n none (shapeCast S512x2048 x0 shapeCasts_S512x2048_S512x2048)
        (shapeCast S2048x2048 x1 shapeCasts_S2048x2048_S2048x2048) (constant (F := Ideal) S512x2048 .f32 0x00000000#32))
      (broadcastTo S512x2048 (shapeCast S1x2048 x2 shapeCasts_S1x2048_S1x2048) broadcasts_S1x2048_S512x2048)) bitsLt_bf16_f32 : FVec Ideal S512x2048 .bf16) (ix2 p q)
      = (∑ k : Fin 2048, x0 (ix2 p k) * x1 (ix2 q k)) + x2 (ix2 (0 : Fin 1) q) := by
  rw [shapeCast_self, shapeCast_self, shapeCast_self, truncf_apply, addf_apply, linMatmul_apply, broadcastTo_1b_ab_apply]

end Cert.KernelIdeal.FrV

end
-- ==== Proof.KI.LinValue0.lean ====
/-
  Region 0's value: what the projection of the rows of x by the first weight leaves in its output array. At grid point t
  the body stores, over the whole output block, the product of the 512 rows of x it was handed with the weight plus the
  bias row; the block is rows 512 t .. 512 t + 511 of the output, the block of x the same rows of x, the weight and the
  bias whole. So what point t writes back is block t of 'linRow' of the three arrays as the region finds them, the eight
  blocks tile the 4096 rows, and the output array ends holding 'linRow' of them.
-/
import proofs.«111568_j50783693308389_1_alg».proof.Proof.KI.Lin0
import proofs.«111568_j50783693308389_1_alg».proof.Proof.KI.LinSpec
import Idealize.ShloMosaic.Lib.Pipeline.Value
import Idealize.ShloMosaic.Lib.ValueIdx

set_option maxRecDepth 16384

noncomputable section

namespace Cert.KernelIdeal.FrV

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-- What the body stores, at (p, q): row p of the block of x against row q of the weight, plus the bias row's entry q. -/
theorem lin0_pay (x0 : FVec Ideal S512x2048 .bf16) (x1 : FVec Ideal S2048x2048 .bf16) (x2 : FVec Ideal S1x2048 .f32) (p : Fin 512) (q : Fin 2048) :
    k0_pay1 (F := Ideal) x0 x1 x2 (ix2 p q) = (∑ k : Fin 2048, x0 (ix2 p k) * x1 (ix2 q k)) + x2 (ix2 (0 : Fin 1) q) :=
  linPay_apply x0 x1 x2 p q

/-- The printed index maps, decided over the grid: the blocks of x and of the output are block (t, 0) at point t, the
    weight and the bias row block (0, 0) at every point. -/
theorem lin0_idx : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- WHAT POINT t WRITES BACK is block t of 'linRow' of the three arrays as the region finds them. -/
theorem lin0_flushed (c : Dev nD) (t : Fin cfg0.N) :
    (Fr.dat0 (F := Ideal) V c).flushed 3 t = ((cfg0.win 3).blk t).view.read (Elt Ideal)
      (linRow (V c (Pipeline.arrRef spec0 0)) (V c (Pipeline.arrRef spec0 1)) (V c (Pipeline.arrRef spec0 2))) := by
  show (cfg0.win 3).cut (grid0.coords t) ((Fr.dat0 (F := Ideal) V c).after 3 t) = _
  rw [Fr.after0_3]
  unfold Fr.out0_3
  rw [View.canon_unit_zero lin_hz]
  simp only [View.ld_unit_zero (S := S512x2048) lin_hz, View.ld_unit_zero (S := S2048x2048) lin_hz, View.ld_unit_zero (S := S1x2048) lin_hz]
  obtain ⟨e00, e01, e10, e11, e20, e21, e30, e31⟩ := lin0_idx t
  funext j
  obtain ⟨p, q, rfl⟩ : ∃ (p : Fin 512) (q : Fin 2048), j = ix2 p q := ⟨j 0, j 1, eq_ix2 j⟩
  show k0_pay1 (F := Ideal) (Fr.iblk0 V c 0 t) (Fr.iblk0 V c 1 t) (Fr.iblk0 V c 2 t) (ix2 p q)
    = linRow (V c (Pipeline.arrRef spec0 0)) (V c (Pipeline.arrRef spec0 1)) (V c (Pipeline.arrRef spec0 2)) (((cfg0.win 3).blk t).view.emb (ix2 p q))
  rw [lin0_pay]
  unfold linRow
  have hp : p.val < 512 := p.isLt
  have hq : q.val < 2048 := q.isLt
  have h0 : ∀ k : Fin 2048, Fr.iblk0 V c 0 t (ix2 p k)
      = V c (Pipeline.arrRef spec0 0) (ix2 (n0 := 4096) (n1 := 2048) ((((cfg0.win 3).blk t).view.emb (ix2 p q)) 0) k) := fun k => by
    show V c (Pipeline.arrRef spec0 0) (((cfg0.win 0).blk t).view.emb (ix2 p k)) = _
    refine congrArg (V c (Pipeline.arrRef spec0 0)) (funext fun a => Fin.ext ?_)
    match a with
    | ⟨0, _⟩ => show win0_0.index t (0 : Fin 2) * 512 + 1 * p.val = win0_3.index t (0 : Fin 2) * 512 + 1 * p.val; omega
    | ⟨1, _⟩ => show win0_0.index t (1 : Fin 2) * 2048 + 1 * k.val = k.val; omega
  have h1 : ∀ k : Fin 2048, Fr.iblk0 V c 1 t (ix2 q k)
      = V c (Pipeline.arrRef spec0 1) (ix2 (n0 := 2048) (n1 := 2048) ((((cfg0.win 3).blk t).view.emb (ix2 p q)) 1) k) := fun k => by
    show V c (Pipeline.arrRef spec0 1) (((cfg0.win 1).blk t).view.emb (ix2 q k)) = _
    refine congrArg (V c (Pipeline.arrRef spec0 1)) (funext fun a => Fin.ext ?_)
    match a with
    | ⟨0, _⟩ => show win0_1.index t (0 : Fin 2) * 2048 + 1 * q.val = win0_3.index t (1 : Fin 2) * 2048 + 1 * q.val; omega
    | ⟨1, _⟩ => show win0_1.index t (1 : Fin 2) * 2048 + 1 * k.val = k.val; omega
  have h2 : Fr.iblk0 V c 2 t (ix2 (0 : Fin 1) q)
      = V c (Pipeline.arrRef spec0 2) (ix2 (n0 := 1) (n1 := 2048) 0 ((((cfg0.win 3).blk t).view.emb (ix2 p q)) 1)) := by
    show V c (Pipeline.arrRef spec0 2) (((cfg0.win 2).blk t).view.emb (ix2 (0 : Fin 1) q)) = _
    refine congrArg (V c (Pipeline.arrRef spec0 2)) (funext fun a => Fin.ext ?_)
    match a with
    | ⟨0, _⟩ => show win0_2.index t (0 : Fin 2) * 1 + 1 * 0 = 0; omega
    | ⟨1, _⟩ => show win0_2.index t (1 : Fin 2) * 2048 + 1 * q.val = win0_3.index t (1 : Fin 2) * 2048 + 1 * q.val; omega
  rw [h2]
  exact congrArg (· + _) (Finset.sum_congr rfl fun k _ => by rw [h0 k, h1 k])

/-- An index of the output array is in point t's block iff each coordinate is in the block's range on its axis. -/
theorem lin0_mem_blk (t : Fin cfg0.N) (i : S4096x2048.Idx) :
    i ∈ ((cfg0.win 3).blk t).view.set ↔ ∀ a : Fin 2, win0_3.index t a * S512x2048.size a ≤ (i a).val ∧ (i a).val < win0_3.index t a * S512x2048.size a + S512x2048.size a := by
  show i ∈ ((View.whole (Pipeline.arrRef spec0 3)).slice (win0_3.rect t)).set ↔ _
  rw [View.set_slice_whole, Rect.mem_set_unit]
  exact Iff.rfl

/-- The eight blocks tile the 4096 rows: row r is in the block of point r / 512. -/
theorem lin0_cover (i : S4096x2048.Idx) : ∃ t : Fin cfg0.N, (cfg0.win 3).flush t = true ∧ i ∈ ((cfg0.win 3).blk t).view.set := by
  have hN : grid0.N = 8 := by decide
  have hi0 : (i 0).val < 4096 := (i 0).isLt
  have hi1 : (i 1).val < 2048 := (i 1).isLt
  have ht : (i 0).val / 512 < cfg0.N := by show _ < grid0.N; omega
  obtain ⟨-, -, -, -, -, -, e30, e31⟩ := lin0_idx ⟨(i 0).val / 512, ht⟩
  refine ⟨⟨(i 0).val / 512, ht⟩, flush0_3 _, ?_⟩
  rw [lin0_mem_blk]
  intro a
  match a with
  | ⟨0, _⟩ =>
    show win0_3.index ⟨(i 0).val / 512, ht⟩ (0 : Fin 2) * 512 ≤ (i 0).val ∧ (i 0).val < win0_3.index ⟨(i 0).val / 512, ht⟩ (0 : Fin 2) * 512 + 512
    rw [e30]; show (i 0).val / 512 * 512 ≤ (i 0).val ∧ (i 0).val < (i 0).val / 512 * 512 + 512; omega
  | ⟨1, _⟩ =>
    show win0_3.index ⟨(i 0).val / 512, ht⟩ (1 : Fin 2) * 2048 ≤ (i 1).val ∧ (i 1).val < win0_3.index ⟨(i 0).val / 512, ht⟩ (1 : Fin 2) * 2048 + 2048
    rw [e31]; omega

/-- THE OUTPUT ARRAY after the region: 'linRow' of the three arrays as the region finds them. -/
theorem lin0_final (c : Dev nD) :
    (Fr.dat0 (F := Ideal) V c).arrAt 3 cfg0.N
      = linRow (V c (Pipeline.arrRef spec0 0)) (V c (Pipeline.arrRef spec0 1)) (V c (Pipeline.arrRef spec0 2)) :=
  (Fr.dat0 (F := Ideal) V c).arrAt_eq_of_cover 3
    (linRow (V c (Pipeline.arrRef spec0 0)) (V c (Pipeline.arrRef spec0 1)) (V c (Pipeline.arrRef spec0 2)))
    (fun t _ => lin0_flushed V c t) (fun i => lin0_cover i)

end Cert.KernelIdeal.FrV

end
-- ==== Proof.KI.LinValue1.lean ====
/-
  Region 1's value: what the projection of the rows of x by the second weight leaves in its output array. At grid point t
  the body stores, over the whole output block, the product of the 512 rows of x it was handed with the weight plus the
  bias row; the block is rows 512 t .. 512 t + 511 of the output, the block of x the same rows of x, the weight and the
  bias whole. So what point t writes back is block t of 'linRow' of the three arrays as the region finds them, the eight
  blocks tile the 4096 rows, and the output array ends holding 'linRow' of them.
-/
import proofs.«111568_j50783693308389_1_alg».proof.Proof.KI.Lin1
import proofs.«111568_j50783693308389_1_alg».proof.Proof.KI.LinSpec
import Idealize.ShloMosaic.Lib.Pipeline.Value
import Idealize.ShloMosaic.Lib.ValueIdx

set_option maxRecDepth 16384

noncomputable section

namespace Cert.KernelIdeal.FrV

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-- What the body stores, at (p, q): row p of the block of x against row q of the weight, plus the bias row's entry q. -/
theorem lin1_pay (x0 : FVec Ideal S512x2048 .bf16) (x1 : FVec Ideal S2048x2048 .bf16) (x2 : FVec Ideal S1x2048 .f32) (p : Fin 512) (q : Fin 2048) :
    k1_pay1 (F := Ideal) x0 x1 x2 (ix2 p q) = (∑ k : Fin 2048, x0 (ix2 p k) * x1 (ix2 q k)) + x2 (ix2 (0 : Fin 1) q) :=
  linPay_apply x0 x1 x2 p q

/-- The printed index maps, decided over the grid: the blocks of x and of the output are block (t, 0) at point t, the
    weight and the bias row block (0, 0) at every point. -/
theorem lin1_idx : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- WHAT POINT t WRITES BACK is block t of 'linRow' of the three arrays as the region finds them. -/
theorem lin1_flushed (c : Dev nD) (t : Fin cfg1.N) :
    (Fr.dat1 (F := Ideal) V c).flushed 3 t = ((cfg1.win 3).blk t).view.read (Elt Ideal)
      (linRow (V c (Pipeline.arrRef spec1 0)) (V c (Pipeline.arrRef spec1 1)) (V c (Pipeline.arrRef spec1 2))) := by
  show (cfg1.win 3).cut (grid1.coords t) ((Fr.dat1 (F := Ideal) V c).after 3 t) = _
  rw [Fr.after1_3]
  unfold Fr.out1_3
  rw [View.canon_unit_zero lin_hz]
  simp only [View.ld_unit_zero (S := S512x2048) lin_hz, View.ld_unit_zero (S := S2048x2048) lin_hz, View.ld_unit_zero (S := S1x2048) lin_hz]
  obtain ⟨e00, e01, e10, e11, e20, e21, e30, e31⟩ := lin1_idx t
  funext j
  obtain ⟨p, q, rfl⟩ : ∃ (p : Fin 512) (q : Fin 2048), j = ix2 p q := ⟨j 0, j 1, eq_ix2 j⟩
  show k1_pay1 (F := Ideal) (Fr.iblk1 V c 0 t) (Fr.iblk1 V c 1 t) (Fr.iblk1 V c 2 t) (ix2 p q)
    = linRow (V c (Pipeline.arrRef spec1 0)) (V c (Pipeline.arrRef spec1 1)) (V c (Pipeline.arrRef spec1 2)) (((cfg1.win 3).blk t).view.emb (ix2 p q))
  rw [lin1_pay]
  unfold linRow
  have hp : p.val < 512 := p.isLt
  have hq : q.val < 2048 := q.isLt
  have h0 : ∀ k : Fin 2048, Fr.iblk1 V c 0 t (ix2 p k)
      = V c (Pipeline.arrRef spec1 0) (ix2 (n0 := 4096) (n1 := 2048) ((((cfg1.win 3).blk t).view.emb (ix2 p q)) 0) k) := fun k => by
    show V c (Pipeline.arrRef spec1 0) (((cfg1.win 0).blk t).view.emb (ix2 p k)) = _
    refine congrArg (V c (Pipeline.arrRef spec1 0)) (funext fun a => Fin.ext ?_)
    match a with
    | ⟨0, _⟩ => show win1_0.index t (0 : Fin 2) * 512 + 1 * p.val = win1_3.index t (0 : Fin 2) * 512 + 1 * p.val; omega
    | ⟨1, _⟩ => show win1_0.index t (1 : Fin 2) * 2048 + 1 * k.val = k.val; omega
  have h1 : ∀ k : Fin 2048, Fr.iblk1 V c 1 t (ix2 q k)
      = V c (Pipeline.arrRef spec1 1) (ix2 (n0 := 2048) (n1 := 2048) ((((cfg1.win 3).blk t).view.emb (ix2 p q)) 1) k) := fun k => by
    show V c (Pipeline.arrRef spec1 1) (((cfg1.win 1).blk t).view.emb (ix2 q k)) = _
    refine congrArg (V c (Pipeline.arrRef spec1 1)) (funext fun a => Fin.ext ?_)
    match a with
    | ⟨0, _⟩ => show win1_1.index t (0 : Fin 2) * 2048 + 1 * q.val = win1_3.index t (1 : Fin 2) * 2048 + 1 * q.val; omega
    | ⟨1, _⟩ => show win1_1.index t (1 : Fin 2) * 2048 + 1 * k.val = k.val; omega
  have h2 : Fr.iblk1 V c 2 t (ix2 (0 : Fin 1) q)
      = V c (Pipeline.arrRef spec1 2) (ix2 (n0 := 1) (n1 := 2048) 0 ((((cfg1.win 3).blk t).view.emb (ix2 p q)) 1)) := by
    show V c (Pipeline.arrRef spec1 2) (((cfg1.win 2).blk t).view.emb (ix2 (0 : Fin 1) q)) = _
    refine congrArg (V c (Pipeline.arrRef spec1 2)) (funext fun a => Fin.ext ?_)
    match a with
    | ⟨0, _⟩ => show win1_2.index t (0 : Fin 2) * 1 + 1 * 0 = 0; omega
    | ⟨1, _⟩ => show win1_2.index t (1 : Fin 2) * 2048 + 1 * q.val = win1_3.index t (1 : Fin 2) * 2048 + 1 * q.val; omega
  rw [h2]
  exact congrArg (· + _) (Finset.sum_congr rfl fun k _ => by rw [h0 k, h1 k])

/-- An index of the output array is in point t's block iff each coordinate is in the block's range on its axis. -/
theorem lin1_mem_blk (t : Fin cfg1.N) (i : S4096x2048.Idx) :
    i ∈ ((cfg1.win 3).blk t).view.set ↔ ∀ a : Fin 2, win1_3.index t a * S512x2048.size a ≤ (i a).val ∧ (i a).val < win1_3.index t a * S512x2048.size a + S512x2048.size a := by
  show i ∈ ((View.whole (Pipeline.arrRef spec1 3)).slice (win1_3.rect t)).set ↔ _
  rw [View.set_slice_whole, Rect.mem_set_unit]
  exact Iff.rfl

/-- The eight blocks tile the 4096 rows: row r is in the block of point r / 512. -/
theorem lin1_cover (i : S4096x2048.Idx) : ∃ t : Fin cfg1.N, (cfg1.win 3).flush t = true ∧ i ∈ ((cfg1.win 3).blk t).view.set := by
  have hN : grid1.N = 8 := by decide
  have hi0 : (i 0).val < 4096 := (i 0).isLt
  have hi1 : (i 1).val < 2048 := (i 1).isLt
  have ht : (i 0).val / 512 < cfg1.N := by show _ < grid1.N; omega
  obtain ⟨-, -, -, -, -, -, e30, e31⟩ := lin1_idx ⟨(i 0).val / 512, ht⟩
  refine ⟨⟨(i 0).val / 512, ht⟩, flush1_3 _, ?_⟩
  rw [lin1_mem_blk]
  intro a
  match a with
  | ⟨0, _⟩ =>
    show win1_3.index ⟨(i 0).val / 512, ht⟩ (0 : Fin 2) * 512 ≤ (i 0).val ∧ (i 0).val < win1_3.index ⟨(i 0).val / 512, ht⟩ (0 : Fin 2) * 512 + 512
    rw [e30]; show (i 0).val / 512 * 512 ≤ (i 0).val ∧ (i 0).val < (i 0).val / 512 * 512 + 512; omega
  | ⟨1, _⟩ =>
    show win1_3.index ⟨(i 0).val / 512, ht⟩ (1 : Fin 2) * 2048 ≤ (i 1).val ∧ (i 1).val < win1_3.index ⟨(i 0).val / 512, ht⟩ (1 : Fin 2) * 2048 + 2048
    rw [e31]; omega

/-- THE OUTPUT ARRAY after the region: 'linRow' of the three arrays as the region finds them. -/
theorem lin1_final (c : Dev nD) :
    (Fr.dat1 (F := Ideal) V c).arrAt 3 cfg1.N
      = linRow (V c (Pipeline.arrRef spec1 0)) (V c (Pipeline.arrRef spec1 1)) (V c (Pipeline.arrRef spec1 2)) :=
  (Fr.dat1 (F := Ideal) V c).arrAt_eq_of_cover 3
    (linRow (V c (Pipeline.arrRef spec1 0)) (V c (Pipeline.arrRef spec1 1)) (V c (Pipeline.arrRef spec1 2)))
    (fun t _ => lin1_flushed V c t) (fun i => lin1_cover i)

end Cert.KernelIdeal.FrV

end
-- ==== Proof.KI.LinValue2.lean ====
/-
  Region 2's value: what the projection of the rows of x by the third weight leaves in its output array. At grid point t
  the body stores, over the whole output block, the product of the 512 rows of x it was handed with the weight plus the
  bias row; the block is rows 512 t .. 512 t + 511 of the output, the block of x the same rows of x, the weight and the
  bias whole. So what point t writes back is block t of 'linRow' of the three arrays as the region finds them, the eight
  blocks tile the 4096 rows, and the output array ends holding 'linRow' of them.
-/
import proofs.«111568_j50783693308389_1_alg».proof.Proof.KI.Lin2
import proofs.«111568_j50783693308389_1_alg».proof.Proof.KI.LinSpec
import Idealize.ShloMosaic.Lib.Pipeline.Value
import Idealize.ShloMosaic.Lib.ValueIdx

set_option maxRecDepth 16384

noncomputable section

namespace Cert.KernelIdeal.FrV

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-- What the body stores, at (p, q): row p of the block of x against row q of the weight, plus the bias row's entry q. -/
theorem lin2_pay (x0 : FVec Ideal S512x2048 .bf16) (x1 : FVec Ideal S2048x2048 .bf16) (x2 : FVec Ideal S1x2048 .f32) (p : Fin 512) (q : Fin 2048) :
    k2_pay1 (F := Ideal) x0 x1 x2 (ix2 p q) = (∑ k : Fin 2048, x0 (ix2 p k) * x1 (ix2 q k)) + x2 (ix2 (0 : Fin 1) q) :=
  linPay_apply x0 x1 x2 p q

/-- The printed index maps, decided over the grid: the blocks of x and of the output are block (t, 0) at point t, the
    weight and the bias row block (0, 0) at every point. -/
theorem lin2_idx : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- WHAT POINT t WRITES BACK is block t of 'linRow' of the three arrays as the region finds them. -/
theorem lin2_flushed (c : Dev nD) (t : Fin cfg2.N) :
    (Fr.dat2 (F := Ideal) V c).flushed 3 t = ((cfg2.win 3).blk t).view.read (Elt Ideal)
      (linRow (V c (Pipeline.arrRef spec2 0)) (V c (Pipeline.arrRef spec2 1)) (V c (Pipeline.arrRef spec2 2))) := by
  show (cfg2.win 3).cut (grid2.coords t) ((Fr.dat2 (F := Ideal) V c).after 3 t) = _
  rw [Fr.after2_3]
  unfold Fr.out2_3
  rw [View.canon_unit_zero lin_hz]
  simp only [View.ld_unit_zero (S := S512x2048) lin_hz, View.ld_unit_zero (S := S2048x2048) lin_hz, View.ld_unit_zero (S := S1x2048) lin_hz]
  obtain ⟨e00, e01, e10, e11, e20, e21, e30, e31⟩ := lin2_idx t
  funext j
  obtain ⟨p, q, rfl⟩ : ∃ (p : Fin 512) (q : Fin 2048), j = ix2 p q := ⟨j 0, j 1, eq_ix2 j⟩
  show k2_pay1 (F := Ideal) (Fr.iblk2 V c 0 t) (Fr.iblk2 V c 1 t) (Fr.iblk2 V c 2 t) (ix2 p q)
    = linRow (V c (Pipeline.arrRef spec2 0)) (V c (Pipeline.arrRef spec2 1)) (V c (Pipeline.arrRef spec2 2)) (((cfg2.win 3).blk t).view.emb (ix2 p q))
  rw [lin2_pay]
  unfold linRow
  have hp : p.val < 512 := p.isLt
  have hq : q.val < 2048 := q.isLt
  have h0 : ∀ k : Fin 2048, Fr.iblk2 V c 0 t (ix2 p k)
      = V c (Pipeline.arrRef spec2 0) (ix2 (n0 := 4096) (n1 := 2048) ((((cfg2.win 3).blk t).view.emb (ix2 p q)) 0) k) := fun k => by
    show V c (Pipeline.arrRef spec2 0) (((cfg2.win 0).blk t).view.emb (ix2 p k)) = _
    refine congrArg (V c (Pipeline.arrRef spec2 0)) (funext fun a => Fin.ext ?_)
    match a with
    | ⟨0, _⟩ => show win2_0.index t (0 : Fin 2) * 512 + 1 * p.val = win2_3.index t (0 : Fin 2) * 512 + 1 * p.val; omega
    | ⟨1, _⟩ => show win2_0.index t (1 : Fin 2) * 2048 + 1 * k.val = k.val; omega
  have h1 : ∀ k : Fin 2048, Fr.iblk2 V c 1 t (ix2 q k)
      = V c (Pipeline.arrRef spec2 1) (ix2 (n0 := 2048) (n1 := 2048) ((((cfg2.win 3).blk t).view.emb (ix2 p q)) 1) k) := fun k => by
    show V c (Pipeline.arrRef spec2 1) (((cfg2.win 1).blk t).view.emb (ix2 q k)) = _
    refine congrArg (V c (Pipeline.arrRef spec2 1)) (funext fun a => Fin.ext ?_)
    match a with
    | ⟨0, _⟩ => show win2_1.index t (0 : Fin 2) * 2048 + 1 * q.val = win2_3.index t (1 : Fin 2) * 2048 + 1 * q.val; omega
    | ⟨1, _⟩ => show win2_1.index t (1 : Fin 2) * 2048 + 1 * k.val = k.val; omega
  have h2 : Fr.iblk2 V c 2 t (ix2 (0 : Fin 1) q)
      = V c (Pipeline.arrRef spec2 2) (ix2 (n0 := 1) (n1 := 2048) 0 ((((cfg2.win 3).blk t).view.emb (ix2 p q)) 1)) := by
    show V c (Pipeline.arrRef spec2 2) (((cfg2.win 2).blk t).view.emb (ix2 (0 : Fin 1) q)) = _
    refine congrArg (V c (Pipeline.arrRef spec2 2)) (funext fun a => Fin.ext ?_)
    match a with
    | ⟨0, _⟩ => show win2_2.index t (0 : Fin 2) * 1 + 1 * 0 = 0; omega
    | ⟨1, _⟩ => show win2_2.index t (1 : Fin 2) * 2048 + 1 * q.val = win2_3.index t (1 : Fin 2) * 2048 + 1 * q.val; omega
  rw [h2]
  exact congrArg (· + _) (Finset.sum_congr rfl fun k _ => by rw [h0 k, h1 k])

/-- An index of the output array is in point t's block iff each coordinate is in the block's range on its axis. -/
theorem lin2_mem_blk (t : Fin cfg2.N) (i : S4096x2048.Idx) :
    i ∈ ((cfg2.win 3).blk t).view.set ↔ ∀ a : Fin 2, win2_3.index t a * S512x2048.size a ≤ (i a).val ∧ (i a).val < win2_3.index t a * S512x2048.size a + S512x2048.size a := by
  show i ∈ ((View.whole (Pipeline.arrRef spec2 3)).slice (win2_3.rect t)).set ↔ _
  rw [View.set_slice_whole, Rect.mem_set_unit]
  exact Iff.rfl

/-- The eight blocks tile the 4096 rows: row r is in the block of point r / 512. -/
theorem lin2_cover (i : S4096x2048.Idx) : ∃ t : Fin cfg2.N, (cfg2.win 3).flush t = true ∧ i ∈ ((cfg2.win 3).blk t).view.set := by
  have hN : grid2.N = 8 := by decide
  have hi0 : (i 0).val < 4096 := (i 0).isLt
  have hi1 : (i 1).val < 2048 := (i 1).isLt
  have ht : (i 0).val / 512 < cfg2.N := by show _ < grid2.N; omega
  obtain ⟨-, -, -, -, -, -, e30, e31⟩ := lin2_idx ⟨(i 0).val / 512, ht⟩
  refine ⟨⟨(i 0).val / 512, ht⟩, flush2_3 _, ?_⟩
  rw [lin2_mem_blk]
  intro a
  match a with
  | ⟨0, _⟩ =>
    show win2_3.index ⟨(i 0).val / 512, ht⟩ (0 : Fin 2) * 512 ≤ (i 0).val ∧ (i 0).val < win2_3.index ⟨(i 0).val / 512, ht⟩ (0 : Fin 2) * 512 + 512
    rw [e30]; show (i 0).val / 512 * 512 ≤ (i 0).val ∧ (i 0).val < (i 0).val / 512 * 512 + 512; omega
  | ⟨1, _⟩ =>
    show win2_3.index ⟨(i 0).val / 512, ht⟩ (1 : Fin 2) * 2048 ≤ (i 1).val ∧ (i 1).val < win2_3.index ⟨(i 0).val / 512, ht⟩ (1 : Fin 2) * 2048 + 2048
    rw [e31]; omega

/-- THE OUTPUT ARRAY after the region: 'linRow' of the three arrays as the region finds them. -/
theorem lin2_final (c : Dev nD) :
    (Fr.dat2 (F := Ideal) V c).arrAt 3 cfg2.N
      = linRow (V c (Pipeline.arrRef spec2 0)) (V c (Pipeline.arrRef spec2 1)) (V c (Pipeline.arrRef spec2 2)) :=
  (Fr.dat2 (F := Ideal) V c).arrAt_eq_of_cover 3
    (linRow (V c (Pipeline.arrRef spec2 0)) (V c (Pipeline.arrRef spec2 1)) (V c (Pipeline.arrRef spec2 2)))
    (fun t _ => lin2_flushed V c t) (fun i => lin2_cover i)

end Cert.KernelIdeal.FrV

end
-- ==== Proof.Spec.lean ====
/-
  What both programs compute, as functions of the argument arrays on the extended reals.

  A projection  lin x W b  of the rows of x:  (lin x W b)[r, d] = (∑ k, x[r, k] * W[d, k]) + b[d]   (x times the
  transpose of W, plus the bias on every row).  The attention without softmax of three such projections:
  attn q kk v [r, d] = ∑ n, ((∑ k, q[r, k] * kk[n, k]) * c) * v[n, d],  with c the one scale word both programs
  carry (the f32 nearest to 1 / sqrt 2048; never evaluated: it is the same word on both sides).
  The result of both programs is  G = attn (lin x Wq bq) (lin x Wk bk) (lin x Wv bv).
-/
import Idealize.ShloMosaic.PureOps.Ideal
import Idealize.ShloMosaic.Lib.ValueIdx

noncomputable section

namespace Cert.Spec

open Idealize.ShloMosaic Idealize.ShloMosaic.ValueIdx

/-- The shapes of the arguments: the 4096 rows of 2048 features, a 2048 x 2048 weight, a bias. -/
abbrev SX : Shape := ⟨2, ![4096, 2048]⟩
abbrev SW : Shape := ⟨2, ![2048, 2048]⟩
abbrev SB : Shape := ⟨1, ![2048]⟩

/-- The scale both programs multiply the scores by: one f32 word, read at the extended reals. -/
def cscale : EReal := Scalar.ofBits (F := Ideal) .f32 0x3CB504F3#32

/-- A projection of the rows: row r of x against row d of W, plus the bias entry d. -/
def lin (x : SX.Idx → EReal) (W : SW.Idx → EReal) (b : SB.Idx → EReal) : SX.Idx → EReal :=
  fun i => (∑ k : Fin 2048, x (ix2 (n0 := 4096) (n1 := 2048) (i 0) k) * W (ix2 (n0 := 2048) (n1 := 2048) (i 1) k)) + b (ix1 (n := 2048) (i 1))

/-- The score of row r against row n: their inner product, scaled. -/
def score (q kk : SX.Idx → EReal) (r n : Fin 4096) : EReal :=
  (∑ k : Fin 2048, q (ix2 (n0 := 4096) (n1 := 2048) r k) * kk (ix2 (n0 := 4096) (n1 := 2048) n k)) * cscale

/-- The context: every row n of v weighted by the score of row r against row n. -/
def attn (q kk v : SX.Idx → EReal) : SX.Idx → EReal :=
  fun i => ∑ n : Fin 4096, score q kk (i 0) n * v (ix2 (n0 := 4096) (n1 := 2048) n (i 1))

/-- The whole computation. -/
def G (x : SX.Idx → EReal) (Wq : SW.Idx → EReal) (bq : SB.Idx → EReal) (Wk : SW.Idx → EReal) (bk : SB.Idx → EReal)
    (Wv : SW.Idx → EReal) (bv : SB.Idx → EReal) : SX.Idx → EReal :=
  attn (lin x Wq bq) (lin x Wk bk) (lin x Wv bv)

end Cert.Spec

end
-- ==== Proof.KI.Value.lean ====
/-
  The attention region's three input arrays, as the specification's projections of the argument arrays (at the
  extended reals).

  The fold of buffer contents is walked back from the attention region's three input arrays: each is a projection
  region's output array, untouched by every item after that region; a projection region's inputs are the first host
  stretch's copy of x (a change of float format: the identity on the extended reals; untouched by the regions that only
  read it), a copy of one weight, and one bias reshaped to a row. So q, k and v are the specification's projections
  of the arguments.
-/
import proofs.«111568_j50783693308389_1_alg».proof.Proof.KI.Run
import proofs.«111568_j50783693308389_1_alg».proof.Proof.KI.LinValue0
import proofs.«111568_j50783693308389_1_alg».proof.Proof.KI.LinValue1
import proofs.«111568_j50783693308389_1_alg».proof.Proof.KI.LinValue2
import proofs.«111568_j50783693308389_1_alg».proof.Proof.KI.LinSpec
import proofs.«111568_j50783693308389_1_alg».proof.Proof.Spec
import Idealize.ShloMosaic.Lib.StableHlo.Run
import Idealize.ShloMosaic.Lib.Pipeline.Value
import Idealize.ShloMosaic.Lib.ValueLayout

noncomputable section

namespace Cert.KernelIdeal.FrV

open Cert.KernelIdeal Cert.KernelIdeal.Gen
open Idealize.ShloMosaic Idealize.ShloMosaic.TcCoe Idealize.SL.Sem Idealize.ShloMosaic.StableHlo Idealize.ShloMosaic.ValueIdx

/-! ## What a host stretch leaves: a copy in another float format is the same array; a bias becomes a row -/

section Host
variable (W : Valuation τ sig (Elt Ideal))

theorem host0_v0 : (StableHlo.after (hostOps0 (F := Ideal)) W (Proc.devRef .tc main_v0) : S4096x2048.Idx → EReal)
    = (W (Proc.devRef .tc main_arg0) : S4096x2048.Idx → EReal) := by
  after_results
  rfl
theorem host0_v1 : (StableHlo.after (hostOps0 (F := Ideal)) W (Proc.devRef .tc main_v1) : S2048x2048.Idx → EReal)
    = (W (Proc.devRef .tc main_arg1) : S2048x2048.Idx → EReal) := by
  after_results
  rfl
theorem host0_v2 : (StableHlo.after (hostOps0 (F := Ideal)) W (Proc.devRef .tc main_v2) : S2048x2048.Idx → EReal)
    = (W (Proc.devRef .tc main_arg3) : S2048x2048.Idx → EReal) := by
  after_results
  rfl
theorem host0_v3 : (StableHlo.after (hostOps0 (F := Ideal)) W (Proc.devRef .tc main_v3) : S2048x2048.Idx → EReal)
    = (W (Proc.devRef .tc main_arg5) : S2048x2048.Idx → EReal) := by
  after_results
  rfl

/-- A vector reshaped to a one-row matrix, read at (0, y), is the vector's entry y. -/
theorem row_apply (b : S2048.Idx → EReal) (y : Fin 2048) :
    (shapeCast S1x2048 b shapeCasts_S2048_S1x2048 : S1x2048.Idx → EReal) (ix2 (n0 := 1) (n1 := 2048) 0 y) = b (ix1 (n := 2048) y) := by
  rw [shapeCast_addUnit_apply ![2048] _ shapeCasts_S2048_S1x2048 (ix2 (n0 := 1) (n1 := 2048) 0 y)]
  refine congrArg _ (funext fun a => ?_)
  match a with
  | ⟨0, _⟩ => rfl

theorem host0_v4 (y : Fin 2048) : (StableHlo.after (hostOps0 (F := Ideal)) W (Proc.devRef .tc main_v4) : S1x2048.Idx → EReal) (ix2 (n0 := 1) (n1 := 2048) 0 y)
    = (W (Proc.devRef .tc main_arg2) : S2048.Idx → EReal) (ix1 (n := 2048) y) := by
  after_results
  exact row_apply _ y
theorem host1_v6 (y : Fin 2048) : (StableHlo.after (hostOps1 (F := Ideal)) W (Proc.devRef .tc main_v6) : S1x2048.Idx → EReal) (ix2 (n0 := 1) (n1 := 2048) 0 y)
    = (W (Proc.devRef .tc main_arg4) : S2048.Idx → EReal) (ix1 (n := 2048) y) := by
  after_results
  exact row_apply _ y
theorem host2_v8 (y : Fin 2048) : (StableHlo.after (hostOps2 (F := Ideal)) W (Proc.devRef .tc main_v8) : S1x2048.Idx → EReal) (ix2 (n0 := 1) (n1 := 2048) 0 y)
    = (W (Proc.devRef .tc main_arg6) : S2048.Idx → EReal) (ix1 (n := 2048) y) := by
  after_results
  exact row_apply _ y

end Host

/-- A projection over a bias row that reads as the bias vector is the specification's projection. -/
theorem linRow_eq_lin (x : S4096x2048.Idx → EReal) (W : S2048x2048.Idx → EReal) (brow : S1x2048.Idx → EReal) (b : S2048.Idx → EReal)
    (hb : ∀ y : Fin 2048, brow (ix2 (n0 := 1) (n1 := 2048) 0 y) = b (ix1 (n := 2048) y)) : linRow x W brow = Cert.Spec.lin x W b := by
  funext i
  unfold linRow Cert.Spec.lin
  exact congrArg (_ + ·) (hb (i 1))

variable (m : (ℓ : Loc nD τ sig) → Buf (Elt Ideal) ℓ) (ρ : Dev nD → PrngReg)

open Cert.KernelIdeal.Fr

/-! ## The copy of x, as each projection region finds it -/

theorem x_at1 (c : Dev nD) : (V1 m ρ c main_v0 : S4096x2048.Idx → EReal) = m ((c : Thread nD τ).loc main_arg0) :=
  host0_v0 (W0 m ρ c)
theorem x_at3 (c : Dev nD) : (V3 m ρ c main_v0 : S4096x2048.Idx → EReal) = m ((c : Thread nD τ).loc main_arg0) :=
  calc (W3 m ρ c (Proc.devRef .tc main_v0) : S4096x2048.Idx → EReal)
    _ = W2 m ρ c (Proc.devRef .tc main_v0) := StableHlo.after_of_writes_sub hostOps1 _ hostOps1_writes (by decide)
    _ = (dat0 (V1 m ρ) c).arrAt 0 cfg0.N := W2_arr m ρ c 0
    _ = (dat0 (V1 m ρ) c).A 0 := (dat0 (V1 m ρ) c).arrAt_in 0 rfl _
    _ = V1 m ρ c main_v0 := A_eq0 (V1 m ρ) c 0
    _ = _ := x_at1 m ρ c
theorem x_at5 (c : Dev nD) : (V5 m ρ c main_v0 : S4096x2048.Idx → EReal) = m ((c : Thread nD τ).loc main_arg0) :=
  calc (W5 m ρ c (Proc.devRef .tc main_v0) : S4096x2048.Idx → EReal)
    _ = W4 m ρ c (Proc.devRef .tc main_v0) := StableHlo.after_of_writes_sub hostOps2 _ hostOps2_writes (by decide)
    _ = (dat1 (V3 m ρ) c).arrAt 0 cfg1.N := W4_arr m ρ c 0
    _ = (dat1 (V3 m ρ) c).A 0 := (dat1 (V3 m ρ) c).arrAt_in 0 rfl _
    _ = V3 m ρ c main_v0 := A_eq1 (V3 m ρ) c 0
    _ = _ := x_at3 m ρ c

/-! ## The three projections -/

theorem q_eq (c : Dev nD) : (V6 m ρ c main_v5 : S4096x2048.Idx → EReal)
    = Cert.Spec.lin (m ((c : Thread nD τ).loc main_arg0)) (m ((c : Thread nD τ).loc main_arg1)) (m ((c : Thread nD τ).loc main_arg2)) := by
  have e : (V6 m ρ c main_v5 : S4096x2048.Idx → EReal) = (dat0 (V1 m ρ) c).arrAt 3 cfg0.N :=
    calc (W6 m ρ c (Proc.devRef .tc main_v5) : S4096x2048.Idx → EReal)
      _ = W5 m ρ c (Proc.devRef .tc main_v5) := W6_of_ne m ρ c main_v5 (by decide)
      _ = W4 m ρ c (Proc.devRef .tc main_v5) := StableHlo.after_of_writes_sub hostOps2 _ hostOps2_writes (by decide)
      _ = W3 m ρ c (Proc.devRef .tc main_v5) := W4_of_ne m ρ c main_v5 (by decide)
      _ = W2 m ρ c (Proc.devRef .tc main_v5) := StableHlo.after_of_writes_sub hostOps1 _ hostOps1_writes (by decide)
      _ = _ := W2_arr m ρ c 3
  rw [e, lin0_final]
  refine (linRow_eq_lin _ _ _ (m ((c : Thread nD τ).loc main_arg2)) (fun y => host0_v4 (W0 m ρ c) y)).trans ?_
  rw [show (V1 m ρ c (Pipeline.arrRef spec0 0) : S4096x2048.Idx → EReal) = _ from x_at1 m ρ c,
    show (V1 m ρ c (Pipeline.arrRef spec0 1) : S2048x2048.Idx → EReal) = m ((c : Thread nD τ).loc main_arg1) from host0_v1 (W0 m ρ c)]

theorem k_eq (c : Dev nD) : (V6 m ρ c main_v7 : S4096x2048.Idx → EReal)
    = Cert.Spec.lin (m ((c : Thread nD τ).loc main_arg0)) (m ((c : Thread nD τ).loc main_arg3)) (m ((c : Thread nD τ).loc main_arg4)) := by
  have e : (V6 m ρ c main_v7 : S4096x2048.Idx → EReal) = (dat1 (V3 m ρ) c).arrAt 3 cfg1.N :=
    calc (W6 m ρ c (Proc.devRef .tc main_v7) : S4096x2048.Idx → EReal)
      _ = W5 m ρ c (Proc.devRef .tc main_v7) := W6_of_ne m ρ c main_v7 (by decide)
      _ = W4 m ρ c (Proc.devRef .tc main_v7) := StableHlo.after_of_writes_sub hostOps2 _ hostOps2_writes (by decide)
      _ = _ := W4_arr m ρ c 3
  have ew : (V3 m ρ c main_v2 : S2048x2048.Idx → EReal) = m ((c : Thread nD τ).loc main_arg3) :=
    calc (W3 m ρ c (Proc.devRef .tc main_v2) : S2048x2048.Idx → EReal)
      _ = W2 m ρ c (Proc.devRef .tc main_v2) := StableHlo.after_of_writes_sub hostOps1 _ hostOps1_writes (by decide)
      _ = W1 m ρ c (Proc.devRef .tc main_v2) := W2_of_ne m ρ c main_v2 (by decide)
      _ = _ := host0_v2 (W0 m ρ c)
  have eb : ∀ y : Fin 2048, (V3 m ρ c main_v6 : S1x2048.Idx → EReal) (ix2 (n0 := 1) (n1 := 2048) 0 y) = (m ((c : Thread nD τ).loc main_arg4) : S2048.Idx → EReal) (ix1 (n := 2048) y) := fun y =>
    (host1_v6 (W2 m ρ c) y).trans (congrFun (show (W2 m ρ c (Proc.devRef .tc main_arg4) : S2048.Idx → EReal) = m ((c : Thread nD τ).loc main_arg4) from
      (W2_of_ne m ρ c main_arg4 (by decide)).trans (StableHlo.after_of_writes_sub hostOps0 _ hostOps0_writes (by decide))) _)
  rw [e, lin1_final]
  refine (linRow_eq_lin _ _ _ (m ((c : Thread nD τ).loc main_arg4)) eb).trans ?_
  rw [show (V3 m ρ c (Pipeline.arrRef spec1 0) : S4096x2048.Idx → EReal) = _ from x_at3 m ρ c,
    show (V3 m ρ c (Pipeline.arrRef spec1 1) : S2048x2048.Idx → EReal) = _ from ew]

theorem v_eq (c : Dev nD) : (V6 m ρ c main_v9 : S4096x2048.Idx → EReal)
    = Cert.Spec.lin (m ((c : Thread nD τ).loc main_arg0)) (m ((c : Thread nD τ).loc main_arg5)) (m ((c : Thread nD τ).loc main_arg6)) := by
  have e : (V6 m ρ c main_v9 : S4096x2048.Idx → EReal) = (dat2 (V5 m ρ) c).arrAt 3 cfg2.N := W6_arr m ρ c 3
  have ew : (V5 m ρ c main_v3 : S2048x2048.Idx → EReal) = m ((c : Thread nD τ).loc main_arg5) :=
    calc (W5 m ρ c (Proc.devRef .tc main_v3) : S2048x2048.Idx → EReal)
      _ = W4 m ρ c (Proc.devRef .tc main_v3) := StableHlo.after_of_writes_sub hostOps2 _ hostOps2_writes (by decide)
      _ = W3 m ρ c (Proc.devRef .tc main_v3) := W4_of_ne m ρ c main_v3 (by decide)
      _ = W2 m ρ c (Proc.devRef .tc main_v3) := StableHlo.after_of_writes_sub hostOps1 _ hostOps1_writes (by decide)
      _ = W1 m ρ c (Proc.devRef .tc main_v3) := W2_of_ne m ρ c main_v3 (by decide)
      _ = _ := host0_v3 (W0 m ρ c)
  have eb : ∀ y : Fin 2048, (V5 m ρ c main_v8 : S1x2048.Idx → EReal) (ix2 (n0 := 1) (n1 := 2048) 0 y) = (m ((c : Thread nD τ).loc main_arg6) : S2048.Idx → EReal) (ix1 (n := 2048) y) := fun y =>
    (host2_v8 (W4 m ρ c) y).trans (congrFun (show (W4 m ρ c (Proc.devRef .tc main_arg6) : S2048.Idx → EReal) = m ((c : Thread nD τ).loc main_arg6) from
      (W4_of_ne m ρ c main_arg6 (by decide)).trans ((StableHlo.after_of_writes_sub hostOps1 _ hostOps1_writes (by decide)).trans
        ((W2_of_ne m ρ c main_arg6 (by decide)).trans (StableHlo.after_of_writes_sub hostOps0 _ hostOps0_writes (by decide))))) _)
  rw [e, lin2_final]
  refine (linRow_eq_lin _ _ _ (m ((c : Thread nD τ).loc main_arg6)) eb).trans ?_
  rw [show (V5 m ρ c (Pipeline.arrRef spec2 0) : S4096x2048.Idx → EReal) = _ from x_at5 m ρ c,
    show (V5 m ρ c (Pipeline.arrRef spec2 1) : S2048x2048.Idx → EReal) = _ from ew]

end Cert.KernelIdeal.FrV

end
-- ==== Proof.LibBlockSum.lean ====
/-
  A sum over n * b consecutive indices is the sum of n consecutive runs of b of them: the law that joins a contraction
  accumulated block by block along the contracted axis with the same contraction done at once. It holds in any
  commutative additive monoid (so on the extended reals with no finiteness assumed), for any number n of blocks and
  any block length b. Three forms: over initial segments of the naturals, over the finite index types with a function
  of the natural position, and for a function of the n * b positions themselves.
-/
import Mathlib.Algebra.BigOperators.Fin
import Mathlib.Algebra.BigOperators.Intervals

open scoped BigOperators

namespace Cert.LibBlockSum

variable {M : Type*} [AddCommMonoid M]

/-- A sum over the first `n * b` naturals, cut into `n` consecutive runs of `b`: run `s` holds the positions
    `b * s + x` for `x < b`. -/
theorem sum_range_mul (g : ℕ → M) (n b : ℕ) :
    ∑ k ∈ Finset.range (n * b), g k = ∑ s ∈ Finset.range n, ∑ x ∈ Finset.range b, g (b * s + x) := by
  induction n with
  | zero => simp
  | succ n ih => rw [Nat.succ_mul, Finset.sum_range_add, ih, Finset.sum_range_succ, Nat.mul_comm b n]

/-- The same with the positions and the positions inside a run as finite types. -/
theorem sum_fin_mul (g : ℕ → M) (n b : ℕ) :
    ∑ k : Fin (n * b), g k.val = ∑ s ∈ Finset.range n, ∑ x : Fin b, g (b * s + x.val) := by
  rw [Fin.sum_univ_eq_sum_range (fun k => g k) (n * b), sum_range_mul]
  exact Finset.sum_congr rfl fun s _ => (Fin.sum_univ_eq_sum_range (fun x => g (b * s + x)) b).symm

/-- The same for a function of the `N = n * b` positions themselves: run `s`'s position `x` is position `b * s + x`
    (the guard is true on every term: `s < n` and `x < b`). -/
theorem sum_fin_blocks {N : ℕ} (n b : ℕ) (hN : N = n * b) (f : Fin N → M) :
    ∑ k, f k = ∑ s ∈ Finset.range n, ∑ x : Fin b, (if h : b * s + x.val < N then f ⟨b * s + x.val, h⟩ else 0) := by
  subst hN
  have e := sum_fin_mul (fun k => if h : k < n * b then f ⟨k, h⟩ else 0) n b
  simp only [Fin.is_lt, dite_true, Fin.eta] at e
  exact e

end Cert.LibBlockSum
-- ==== Proof.KI.AttnMath.lean ====
/-
  The arithmetic of the attention region, at the exact values (every float an extended real, every operation exact,
  a format change the identity). Two things.

  (1) What the body stores into its accumulator, read at one element. The reset value is zero everywhere. The update,
  from a block xq of 512 query rows, a block xk of 512 key rows, a block xv of 512 value rows and the accumulator's
  contents acc, is at (r, d)
      acc[r, d] + ∑ n < 512, ((∑ k < 2048, xq[r, k] * xk[n, k]) * c) * xv[n, d],
  the two contractions into zero accumulators: the first contracts the second axis of both blocks (so the key block
  is read transposed), the scale c is the one word both programs carry, and the second contraction is the plain product.

  (2) The partial sums of the context along the key rows: 'part q kk v j R d' is the sum over the first j + 1 runs of
  512 key rows of score(R, n) * v[n, d]. The first is zero plus the first run, each next one adds the next run, and
  the eighth is the whole context 'attn q kk v' at (R, d), because a sum over 8 * 512 positions is the sum of 8
  consecutive runs of 512 (in any commutative additive monoid: nothing is assumed finite).
-/
import proofs.«111568_j50783693308389_1_alg».proof.Proof.Gen.KernelIdeal.Skeleton
import proofs.«111568_j50783693308389_1_alg».proof.Proof.Spec
import proofs.«111568_j50783693308389_1_alg».proof.Proof.LibBlockSum
import Idealize.ShloMosaic.Lib.Pipeline.Value
import Idealize.ShloMosaic.Lib.ValueIdx
import Idealize.ShloMosaic.PureOps.Ideal.Laws

noncomputable section

namespace Cert.KernelIdeal.FrV

open Cert.KernelIdeal Cert.KernelIdeal.Gen
open Idealize.ShloMosaic Idealize.ShloMosaic.ValueIdx
open scoped BigOperators

/-! ## The reset value -/

/-- The reset value is zero at every element. -/
theorem pay1_apply (y : S512x2048.Idx) : k3_pay1 (F := Ideal) y = 0 := by
  unfold k3_pay1
  refine (congrFun (shapeCast_self _ shapeCasts_S512x2048_S512x2048) y).trans ?_
  exact Ideal.ofBits_zero_f32

/-! ## The two contractions' operand indices, one axis at a time -/

theorem lhs_qk_0 (i : S512x512.Idx) (q : dot_S512x2048_S512x2048_S512x512_1_1_0_0_n_n.contr.Idx) :
    (dot_S512x2048_S512x2048_S512x512_1_1_0_0_n_n.lhsIdx i q 0).val = (i 0).val := by
  unfold DotDims.lhsIdx
  rw [dif_neg (show ¬(0 : Fin S512x2048.rank) ∈ dot_S512x2048_S512x2048_S512x512_1_1_0_0_n_n.lhsBatch by decide), dif_pos (show (0 : Fin S512x2048.rank) ∈ dot_S512x2048_S512x2048_S512x512_1_1_0_0_n_n.lhsNonContracting by decide)]
  rfl
theorem lhs_qk_1 (i : S512x512.Idx) (q : dot_S512x2048_S512x2048_S512x512_1_1_0_0_n_n.contr.Idx) :
    (dot_S512x2048_S512x2048_S512x512_1_1_0_0_n_n.lhsIdx i q 1).val = (q ⟨0, by decide⟩).val :=
  dot_S512x2048_S512x2048_S512x512_1_1_0_0_n_n.lhsIdx_val_of_single rfl i q
theorem rhs_qk_0 (i : S512x512.Idx) (q : dot_S512x2048_S512x2048_S512x512_1_1_0_0_n_n.contr.Idx) :
    (dot_S512x2048_S512x2048_S512x512_1_1_0_0_n_n.rhsIdx i q 0).val = (i 1).val := by
  unfold DotDims.rhsIdx
  rw [dif_neg (show ¬(0 : Fin S512x2048.rank) ∈ dot_S512x2048_S512x2048_S512x512_1_1_0_0_n_n.rhsBatch by decide), dif_pos (show (0 : Fin S512x2048.rank) ∈ dot_S512x2048_S512x2048_S512x512_1_1_0_0_n_n.rhsNonContracting by decide)]
  rfl
theorem rhs_qk_1 (i : S512x512.Idx) (q : dot_S512x2048_S512x2048_S512x512_1_1_0_0_n_n.contr.Idx) :
    (dot_S512x2048_S512x2048_S512x512_1_1_0_0_n_n.rhsIdx i q 1).val = (q ⟨0, by decide⟩).val :=
  dot_S512x2048_S512x2048_S512x512_1_1_0_0_n_n.rhsIdx_val_of_single rfl i q

theorem lhs_sv_0 (i : S512x2048.Idx) (q : dot_S512x512_S512x2048_S512x2048_1_0_0_1_n_n.contr.Idx) :
    (dot_S512x512_S512x2048_S512x2048_1_0_0_1_n_n.lhsIdx i q 0).val = (i 0).val := by
  unfold DotDims.lhsIdx
  rw [dif_neg (show ¬(0 : Fin S512x512.rank) ∈ dot_S512x512_S512x2048_S512x2048_1_0_0_1_n_n.lhsBatch by decide), dif_pos (show (0 : Fin S512x512.rank) ∈ dot_S512x512_S512x2048_S512x2048_1_0_0_1_n_n.lhsNonContracting by decide)]
  rfl
theorem lhs_sv_1 (i : S512x2048.Idx) (q : dot_S512x512_S512x2048_S512x2048_1_0_0_1_n_n.contr.Idx) :
    (dot_S512x512_S512x2048_S512x2048_1_0_0_1_n_n.lhsIdx i q 1).val = (q ⟨0, by decide⟩).val :=
  dot_S512x512_S512x2048_S512x2048_1_0_0_1_n_n.lhsIdx_val_of_single rfl i q
theorem rhs_sv_0 (i : S512x2048.Idx) (q : dot_S512x512_S512x2048_S512x2048_1_0_0_1_n_n.contr.Idx) :
    (dot_S512x512_S512x2048_S512x2048_1_0_0_1_n_n.rhsIdx i q 0).val = (q ⟨0, by decide⟩).val :=
  dot_S512x512_S512x2048_S512x2048_1_0_0_1_n_n.rhsIdx_val_of_single rfl i q
theorem rhs_sv_1 (i : S512x2048.Idx) (q : dot_S512x512_S512x2048_S512x2048_1_0_0_1_n_n.contr.Idx) :
    (dot_S512x512_S512x2048_S512x2048_1_0_0_1_n_n.rhsIdx i q 1).val = (i 1).val := by
  unfold DotDims.rhsIdx
  rw [dif_neg (show ¬(1 : Fin S512x2048.rank) ∈ dot_S512x512_S512x2048_S512x2048_1_0_0_1_n_n.rhsBatch by decide), dif_pos (show (1 : Fin S512x2048.rank) ∈ dot_S512x512_S512x2048_S512x2048_1_0_0_1_n_n.rhsNonContracting by decide)]
  rfl

/-! ## The two contractions read at an element -/

/-- The first contraction into the zero accumulator, at (r, n): row r of the left block against row n of the right. -/
theorem qk_apply (xq xk : FVec Ideal S512x2048 .bf16) (r n : Fin 512) :
    FloatOps.matmul dot_S512x2048_S512x2048_S512x512_1_1_0_0_n_n none xq xk (constant S512x512 .f32 0x00000000#32) (ix2 r n)
      = ∑ k : Fin 2048, xq (ix2 r k) * xk (ix2 n k) := by
  rw [Ideal.matmul_constant_zero_apply, ← Equiv.sum_comp (ValueIdx.contrEquiv1 dot_S512x2048_S512x2048_S512x512_1_1_0_0_n_n 2048 rfl rfl).symm]
  refine Finset.sum_congr rfl fun k _ => ?_
  have hk := ValueIdx.contrEquiv1_symm_val dot_S512x2048_S512x2048_S512x512_1_1_0_0_n_n 2048 rfl rfl k
  have el : dot_S512x2048_S512x2048_S512x512_1_1_0_0_n_n.lhsIdx (ix2 r n) ((ValueIdx.contrEquiv1 dot_S512x2048_S512x2048_S512x512_1_1_0_0_n_n 2048 rfl rfl).symm k) = ix2 r k := funext fun a => Fin.ext (by
    match a with
    | ⟨0, _⟩ => exact lhs_qk_0 _ _
    | ⟨1, _⟩ => exact (lhs_qk_1 _ _).trans hk)
  have er : dot_S512x2048_S512x2048_S512x512_1_1_0_0_n_n.rhsIdx (ix2 r n) ((ValueIdx.contrEquiv1 dot_S512x2048_S512x2048_S512x512_1_1_0_0_n_n 2048 rfl rfl).symm k) = ix2 n k := funext fun a => Fin.ext (by
    match a with
    | ⟨0, _⟩ => exact rhs_qk_0 _ _
    | ⟨1, _⟩ => exact (rhs_qk_1 _ _).trans hk)
  rw [el, er]

/-- The second contraction into the zero accumulator, at (r, d): row r of the left block against column d of the right. -/
theorem sv_apply (s : FVec Ideal S512x512 .bf16) (xv : FVec Ideal S512x2048 .bf16) (r : Fin 512) (d : Fin 2048) :
    FloatOps.matmul dot_S512x512_S512x2048_S512x2048_1_0_0_1_n_n none s xv (constant S512x2048 .f32 0x00000000#32) (ix2 r d)
      = ∑ n : Fin 512, s (ix2 r n) * xv (ix2 n d) := by
  rw [Ideal.matmul_constant_zero_apply, ← Equiv.sum_comp (ValueIdx.contrEquiv1 dot_S512x512_S512x2048_S512x2048_1_0_0_1_n_n 512 rfl rfl).symm]
  refine Finset.sum_congr rfl fun k _ => ?_
  have hk := ValueIdx.contrEquiv1_symm_val dot_S512x512_S512x2048_S512x2048_1_0_0_1_n_n 512 rfl rfl k
  have el : dot_S512x512_S512x2048_S512x2048_1_0_0_1_n_n.lhsIdx (ix2 r d) ((ValueIdx.contrEquiv1 dot_S512x512_S512x2048_S512x2048_1_0_0_1_n_n 512 rfl rfl).symm k) = ix2 r k := funext fun a => Fin.ext (by
    match a with
    | ⟨0, _⟩ => exact lhs_sv_0 _ _
    | ⟨1, _⟩ => exact (lhs_sv_1 _ _).trans hk)
  have er : dot_S512x512_S512x2048_S512x2048_1_0_0_1_n_n.rhsIdx (ix2 r d) ((ValueIdx.contrEquiv1 dot_S512x512_S512x2048_S512x2048_1_0_0_1_n_n 512 rfl rfl).symm k) = ix2 k d := funext fun a => Fin.ext (by
    match a with
    | ⟨0, _⟩ => exact (rhs_sv_0 _ _).trans hk
    | ⟨1, _⟩ => exact rhs_sv_1 _ _)
  rw [el, er]

/-! ## The update -/

/-- What every point stores into the accumulator, at (r, d): the accumulator there plus the block's share of the context. -/
theorem pay2_apply (xq xk xv : FVec Ideal S512x2048 .bf16) (acc : FVec Ideal S512x2048 .f32) (r : Fin 512) (d : Fin 2048) :
    k3_pay2 (F := Ideal) xq xk xv acc (ix2 r d)
      = acc (ix2 r d) + ∑ n : Fin 512, ((∑ k : Fin 2048, xq (ix2 r k) * xk (ix2 n k)) * Cert.Spec.cscale) * xv (ix2 n d) := by
  unfold k3_pay2
  simp only [shapeCast_self]
  refine (addf_apply _ _ _).trans ?_
  refine congrArg (acc (ix2 r d) + ·) ?_
  refine (sv_apply _ _ r d).trans ?_
  refine Finset.sum_congr rfl fun n _ => ?_
  refine congrArg (· * xv (ix2 n d)) ?_
  refine (truncf_apply (φ := .f32) (ψ := .bf16) _ bitsLt_bf16_f32 (ix2 r n)).trans ?_
  refine (mulf_apply (φ := .f32) _ _ (ix2 r n)).trans ?_
  exact congrArg (· * Cert.Spec.cscale) (qk_apply xq xk r n)

/-! ## The context accumulated run by run along the key rows -/

section Law

variable (q kk v : Cert.Spec.SX.Idx → EReal)

/-- Run s's share of the context at (R, d): the scores of row R against the 512 key rows of run s, each times that
    row of v at column d (the guard holds on every term when s < 8). -/
def share (R : Fin 4096) (d : Fin 2048) (s : ℕ) : EReal :=
  ∑ x : Fin 512, (if h : 512 * s + x.val < 4096 then
    Cert.Spec.score q kk R ⟨512 * s + x.val, h⟩ * v (ix2 (n0 := 4096) (n1 := 2048) ⟨512 * s + x.val, h⟩ d) else 0)

/-- The context at (R, d) over the first j + 1 runs of key rows. -/
def part (j : ℕ) (R : Fin 4096) (d : Fin 2048) : EReal :=
  ∑ s ∈ Finset.range (j + 1), share q kk v R d s

/-- The first partial sum: zero plus the first run. -/
theorem part_zero (R : Fin 4096) (d : Fin 2048) : part q kk v 0 R d = 0 + share q kk v R d 0 := by
  unfold part
  rw [Finset.sum_range_one, zero_add]

/-- Each next partial sum adds the next run. -/
theorem part_succ (j : ℕ) (R : Fin 4096) (d : Fin 2048) :
    part q kk v (j + 1) R d = part q kk v j R d + share q kk v R d (j + 1) :=
  Finset.sum_range_succ _ _

/-- The eighth partial sum is the whole context: 4096 = 8 * 512 key rows, as 8 runs of 512. -/
theorem part_seven (R : Fin 4096) (d : Fin 2048) :
    part q kk v 7 R d = Cert.Spec.attn q kk v (ix2 (n0 := 4096) (n1 := 2048) R d) := by
  unfold part share Cert.Spec.attn
  exact (Cert.LibBlockSum.sum_fin_blocks 8 512 rfl
    (fun n : Fin 4096 => Cert.Spec.score q kk R n * v (ix2 (n0 := 4096) (n1 := 2048) n d))).symm

/-- A run's share from the three blocks the body reads: when the query block's row r is row R of q, and the key and
    value blocks are the 512 rows of run s of kk and v, the block's contribution at (r, d) is run s's share at (R, d). -/
theorem share_of_blocks (xq xk xv : FVec Ideal S512x2048 .bf16) (R : Fin 4096) (r : Fin 512) (d : Fin 2048) (s : ℕ) (hs : s < 8)
    (hq : ∀ k : Fin 2048, xq (ix2 r k) = q (ix2 (n0 := 4096) (n1 := 2048) R k))
    (hk : ∀ (n : Fin 512) (k : Fin 2048), xk (ix2 n k) = kk (ix2 (n0 := 4096) (n1 := 2048) ⟨512 * s + n.val, by omega⟩ k))
    (hv : ∀ (n : Fin 512), xv (ix2 n d) = v (ix2 (n0 := 4096) (n1 := 2048) ⟨512 * s + n.val, by omega⟩ d)) :
    ∑ n : Fin 512, ((∑ k : Fin 2048, xq (ix2 r k) * xk (ix2 n k)) * Cert.Spec.cscale) * xv (ix2 n d) = share q kk v R d s := by
  unfold share
  refine Finset.sum_congr rfl fun n _ => ?_
  have hn : 512 * s + n.val < 4096 := by omega
  rw [dif_pos hn, hv n]
  unfold Cert.Spec.score
  refine congrArg (· * v (ix2 (n0 := 4096) (n1 := 2048) ⟨512 * s + n.val, hn⟩ d)) ?_
  refine congrArg (· * Cert.Spec.cscale) ?_
  exact Finset.sum_congr rfl fun k _ => by rw [hq k, hk n k]

end Law

end Cert.KernelIdeal.FrV

end
-- ==== Proof.KI.AttnValue.lean ====
/-
  The value of the attention region at the exact values: what its output array holds after the last grid point.

  The grid is 8 x 8; point t = 8 i + j works on query rows 512 i .. 512 i + 511 and key / value rows 512 j .. 512 j + 511.
  The body keeps an accumulator between points. At j = 0 it resets it to zero; at every point it adds the block's share
  ((q_i . k_j^T) * c) . v_j; at j = 7 it stores the accumulator into the output block, the only point whose block is
  written back. So (1) whatever the case, the accumulator after the body is the update of the three input blocks and
  of what it held before (zero at j = 0): the pieces the run found, read back; (2) by induction on the point the
  accumulator after point 8 i + j is, at (r, d), the context of row 512 i + r over the first j + 1 runs of 512 key rows;
  (3) at j = 7 that is the whole context, which is what the point writes back; the points 8 i + 7 cover every row of
  the output array; hence the array ends holding 'attn q k v' of the three input arrays as the region finds them.
-/
import proofs.«111568_j50783693308389_1_alg».proof.Proof.KI.Attn
import proofs.«111568_j50783693308389_1_alg».proof.Proof.KI.AttnMath
import Idealize.ShloMosaic.Lib.Pipeline.Value
import Idealize.ShloMosaic.Lib.Tactic

set_option maxRecDepth 16384

noncomputable section

namespace Cert.KernelIdeal.FrV

open Cert.KernelIdeal Cert.KernelIdeal.Gen Cert.KernelIdeal.Fr
open Idealize.ShloMosaic Idealize.ShloMosaic.TcCoe Idealize.ShloMosaic.Tactic Idealize.ShloMosaic.ValueIdx
open Idealize.SL.Sem
open Idealize.ShloMosaic.Pipeline (Dat)
open scoped BigOperators

/-! ## What each case leaves in the accumulator and in the output block -/

section Pieces

variable {F : FTy → Type} [FloatOps F]

theorem hz3 : (![0, 0] : Fin 2 → Nat) = fun _ => 0 := funext fun a => by fin_cases a <;> rfl

/-- At the first point of a row of the grid the accumulator is reset, read back, and updated: it ends at the update of zero. -/
theorem sout_A (c : Dev nD) (i : grid3.Coords) (a2 : Memref sig .tc .vmem S512x2048 .bf16) (h2 : a2.IsWhole) (a3 : Memref sig .tc .vmem S512x2048 .bf16) (h3 : a3.IsWhole) (a4 : Memref sig .tc .vmem S512x2048 .bf16) (h4 : a4.IsWhole) (a5 : Memref sig .tc .vmem S512x2048 .f32) (h5 : a5.IsWhole) (a6 : Memref sig .tc .vmem S512x2048 .f32) (h6 : a6.IsWhole) (hc0 : cond3_0 i) (hc1 : ¬cond3_1 i)
    (x0 x1 x2 : Vec F S512x2048 .bf16) :
    sout3_A_0 c i a2 h2 a3 h3 a4 h4 a5 h5 a6 h6 hc0 hc1 x0 x1 x2 = k3_pay2 x0 x1 x2 (k3_pay1 (F := F)) := by
  unfold sout3_A_0
  rw [View.read_writes_eq_canon _ _ _ (scover3_A_0 c i a2 h2 a3 h3 a4 h4 a5 h5 a6 h6 hc0 hc1 x0 x1 x2)]
  unfold kernelRun3_A
  dsimp only
  sl_unfold_words
  rw [View.canon_cons_unit_zero (S := S512x2048) hz3]
  simp only [View.readAt_eq_ld, h2.read_unread, h3.read_unread, h4.read_unread, View.ld_unit_zero (S := S512x2048) hz3, View.readCov_unit_zero (S := S512x2048) _ hz3]

/-- At a middle point the accumulator ends at the update of what it held. -/
theorem sout_B (c : Dev nD) (i : grid3.Coords) (a2 : Memref sig .tc .vmem S512x2048 .bf16) (h2 : a2.IsWhole) (a3 : Memref sig .tc .vmem S512x2048 .bf16) (h3 : a3.IsWhole) (a4 : Memref sig .tc .vmem S512x2048 .bf16) (h4 : a4.IsWhole) (a5 : Memref sig .tc .vmem S512x2048 .f32) (h5 : a5.IsWhole) (a6 : Memref sig .tc .vmem S512x2048 .f32) (h6 : a6.IsWhole) (hc0 : ¬cond3_0 i) (hc1 : ¬cond3_1 i)
    (x0 x1 x2 : Vec F S512x2048 .bf16) (xs0 : Vec F S512x2048 .f32) :
    sout3_B_0 c i a2 h2 a3 h3 a4 h4 a5 h5 a6 h6 hc0 hc1 x0 x1 x2 xs0 = k3_pay2 x0 x1 x2 xs0 := by
  unfold sout3_B_0
  rw [View.read_writes_eq_canon _ _ _ (scover3_B_0 c i a2 h2 a3 h3 a4 h4 a5 h5 a6 h6 hc0 hc1 x0 x1 x2 xs0)]
  unfold kernelRun3_B
  dsimp only
  sl_unfold_words
  rw [View.canon_unit_zero hz3]
  simp only [View.readAt_eq_ld, h2.read_unread, h3.read_unread, h4.read_unread, h6.read_unread, View.ld_unit_zero (S := S512x2048) hz3]

/-- At the last point of a row of the grid likewise, -/
theorem sout_C (c : Dev nD) (i : grid3.Coords) (a2 : Memref sig .tc .vmem S512x2048 .bf16) (h2 : a2.IsWhole) (a3 : Memref sig .tc .vmem S512x2048 .bf16) (h3 : a3.IsWhole) (a4 : Memref sig .tc .vmem S512x2048 .bf16) (h4 : a4.IsWhole) (a5 : Memref sig .tc .vmem S512x2048 .f32) (h5 : a5.IsWhole) (a6 : Memref sig .tc .vmem S512x2048 .f32) (h6 : a6.IsWhole) (hc0 : ¬cond3_0 i) (hc1 : cond3_1 i)
    (x0 x1 x2 : Vec F S512x2048 .bf16) (xs0 : Vec F S512x2048 .f32) :
    sout3_C_0 c i a2 h2 a3 h3 a4 h4 a5 h5 a6 h6 hc0 hc1 x0 x1 x2 xs0 = k3_pay2 x0 x1 x2 xs0 := by
  unfold sout3_C_0
  rw [View.read_writes_eq_canon _ _ _ (scover3_C_0 c i a2 h2 a3 h3 a4 h4 a5 h5 a6 h6 hc0 hc1 x0 x1 x2 xs0)]
  unfold kernelRun3_C
  dsimp only
  sl_unfold_words
  rw [View.canon_unit_zero hz3]
  simp only [View.readAt_eq_ld, h2.read_unread, h3.read_unread, h4.read_unread, h6.read_unread, View.ld_unit_zero (S := S512x2048) hz3]

/-- and the output block is stored from the accumulator read back: the same value. -/
theorem out_C (c : Dev nD) (i : grid3.Coords) (a2 : Memref sig .tc .vmem S512x2048 .bf16) (h2 : a2.IsWhole) (a3 : Memref sig .tc .vmem S512x2048 .bf16) (h3 : a3.IsWhole) (a4 : Memref sig .tc .vmem S512x2048 .bf16) (h4 : a4.IsWhole) (a5 : Memref sig .tc .vmem S512x2048 .f32) (h5 : a5.IsWhole) (a6 : Memref sig .tc .vmem S512x2048 .f32) (h6 : a6.IsWhole) (hc0 : ¬cond3_0 i) (hc1 : cond3_1 i)
    (x0 x1 x2 : Vec F S512x2048 .bf16) (xs0 : Vec F S512x2048 .f32) :
    out3_C_3 c i a2 h2 a3 h3 a4 h4 a5 h5 a6 h6 hc0 hc1 x0 x1 x2 xs0 = k3_pay2 x0 x1 x2 xs0 := by
  unfold out3_C_3
  rw [View.read_writes_eq_canon _ _ _ (cover3_C_3 c i a2 h2 a3 h3 a4 h4 a5 h5 a6 h6 hc0 hc1 x0 x1 x2 xs0)]
  unfold kernelRun3_C
  dsimp only
  sl_unfold_words
  rw [View.canon_unit_zero hz3]
  simp only [View.readAt_eq_ld, h2.read_unread, h3.read_unread, h4.read_unread, h6.read_unread, View.ld_unit_zero (S := S512x2048) hz3, View.readCov_unit_zero (S := S512x2048) _ hz3]

end Pieces

/-! ## The arrays and the blocks, at their literal types -/

variable (V : (c : Dev nD) → (b : Ref sig .tc) → Buf (Elt Ideal) ((c : Thread nD τ).loc b))

/-- The three input arrays as the region finds them: queries, keys, values. -/
abbrev qarr (c : Dev nD) : Cert.Spec.SX.Idx → EReal := V c (Pipeline.arrRef spec3 0)
abbrev karr (c : Dev nD) : Cert.Spec.SX.Idx → EReal := V c (Pipeline.arrRef spec3 1)
abbrev varr (c : Dev nD) : Cert.Spec.SX.Idx → EReal := V c (Pipeline.arrRef spec3 2)

/-- Their blocks at a point. -/
abbrev qblk (c : Dev nD) (t : Fin cfg3.N) : FVec Ideal S512x2048 .bf16 := iblk3 V c 0 t
abbrev kblk (c : Dev nD) (t : Fin cfg3.N) : FVec Ideal S512x2048 .bf16 := iblk3 V c 1 t
abbrev vblk (c : Dev nD) (t : Fin cfg3.N) : FVec Ideal S512x2048 .bf16 := iblk3 V c 2 t

/-- The block indices over the grid: the query and output blocks move with t / 8, the key and value blocks with t % 8. -/
theorem idx3_0 : ∀ t : Fin cfg3.N, win3_0.index t (0 : Fin 2) = t.val / 8 ∧ win3_0.index t (1 : Fin 2) = 0 :=
  (by decide +kernel : ∀ t : Fin grid3.N, win3_0.index t (0 : Fin 2) = t.val / 8 ∧ win3_0.index t (1 : Fin 2) = 0)
theorem idx3_1 : ∀ t : Fin cfg3.N, win3_1.index t (0 : Fin 2) = t.val % 8 ∧ win3_1.index t (1 : Fin 2) = 0 :=
  (by decide +kernel : ∀ t : Fin grid3.N, win3_1.index t (0 : Fin 2) = t.val % 8 ∧ win3_1.index t (1 : Fin 2) = 0)
theorem idx3_2 : ∀ t : Fin cfg3.N, win3_2.index t (0 : Fin 2) = t.val % 8 ∧ win3_2.index t (1 : Fin 2) = 0 :=
  (by decide +kernel : ∀ t : Fin grid3.N, win3_2.index t (0 : Fin 2) = t.val % 8 ∧ win3_2.index t (1 : Fin 2) = 0)
theorem idx3_3 : ∀ t : Fin cfg3.N, win3_3.index t (0 : Fin 2) = t.val / 8 ∧ win3_3.index t (1 : Fin 2) = 0 :=
  (by decide +kernel : ∀ t : Fin grid3.N, win3_3.index t (0 : Fin 2) = t.val / 8 ∧ win3_3.index t (1 : Fin 2) = 0)

/-- Row r of the query block at point t is row 512 (t / 8) + r of the queries. -/
theorem qblk_apply (c : Dev nD) (t : Fin cfg3.N) (r : Fin 512) (k : Fin 2048) (R : Fin 4096) (hR : R.val = 512 * (t.val / 8) + r.val) :
    qblk V c t (ix2 r k) = qarr V c (ix2 R k) := by
  show V c (Pipeline.arrRef spec3 0) (((cfg3.win 0).blk t).view.emb (ix2 r k)) = V c (Pipeline.arrRef spec3 0) (ix2 R k)
  refine congrArg (V c (Pipeline.arrRef spec3 0)) ?_
  funext a; apply Fin.ext
  match a with
  | ⟨0, _⟩ => show win3_0.index t (0 : Fin 2) * 512 + 1 * r.val = R.val; rw [(idx3_0 t).1, hR]; omega
  | ⟨1, _⟩ => show win3_0.index t (1 : Fin 2) * 2048 + 1 * k.val = k.val; rw [(idx3_0 t).2]; omega

/-- Row n of the key block at point t is row 512 (t % 8) + n of the keys. -/
theorem kblk_apply (c : Dev nD) (t : Fin cfg3.N) (n : Fin 512) (k : Fin 2048) (R : Fin 4096) (hR : R.val = 512 * (t.val % 8) + n.val) :
    kblk V c t (ix2 n k) = karr V c (ix2 R k) := by
  show V c (Pipeline.arrRef spec3 1) (((cfg3.win 1).blk t).view.emb (ix2 n k)) = V c (Pipeline.arrRef spec3 1) (ix2 R k)
  refine congrArg (V c (Pipeline.arrRef spec3 1)) ?_
  funext a; apply Fin.ext
  match a with
  | ⟨0, _⟩ => show win3_1.index t (0 : Fin 2) * 512 + 1 * n.val = R.val; rw [(idx3_1 t).1, hR]; omega
  | ⟨1, _⟩ => show win3_1.index t (1 : Fin 2) * 2048 + 1 * k.val = k.val; rw [(idx3_1 t).2]; omega

/-- Row n of the value block at point t is row 512 (t % 8) + n of the values. -/
theorem vblk_apply (c : Dev nD) (t : Fin cfg3.N) (n : Fin 512) (d : Fin 2048) (R : Fin 4096) (hR : R.val = 512 * (t.val % 8) + n.val) :
    vblk V c t (ix2 n d) = varr V c (ix2 R d) := by
  show V c (Pipeline.arrRef spec3 2) (((cfg3.win 2).blk t).view.emb (ix2 n d)) = V c (Pipeline.arrRef spec3 2) (ix2 R d)
  refine congrArg (V c (Pipeline.arrRef spec3 2)) ?_
  funext a; apply Fin.ext
  match a with
  | ⟨0, _⟩ => show win3_2.index t (0 : Fin 2) * 512 + 1 * n.val = R.val; rw [(idx3_2 t).1, hR]; omega
  | ⟨1, _⟩ => show win3_2.index t (1 : Fin 2) * 2048 + 1 * d.val = d.val; rw [(idx3_2 t).2]; omega

/-! ## The update at a point, as a partial sum of the context -/

/-- The block's share at point t, at (r, d), is run t % 8's share of the context of row R = 512 (t / 8) + r. -/
theorem share_at (c : Dev nD) (t : Fin cfg3.N) (r : Fin 512) (d : Fin 2048) (R : Fin 4096) (hR : R.val = 512 * (t.val / 8) + r.val)
    (s : ℕ) (hs : t.val % 8 = s) :
    ∑ n : Fin 512, ((∑ k : Fin 2048, qblk V c t (ix2 r k) * kblk V c t (ix2 n k)) * Cert.Spec.cscale) * vblk V c t (ix2 n d)
      = share (qarr V c) (karr V c) (varr V c) R d s := by
  have hs8 : s < 8 := by omega
  exact share_of_blocks (qarr V c) (karr V c) (varr V c) (qblk V c t) (kblk V c t) (vblk V c t) R r d s hs8
    (fun k => qblk_apply V c t r k R hR)
    (fun n k => kblk_apply V c t n k _ (by rw [hs]))
    (fun n => vblk_apply V c t n d _ (by rw [hs]))

/-- The update of zero at the first point of a row of the grid: the first partial sum. -/
theorem reset_value (c : Dev nD) (t : Fin cfg3.N) (h0 : t.val % 8 = 0) (r : Fin 512) (d : Fin 2048) (R : Fin 4096)
    (hR : R.val = 512 * (t.val / 8) + r.val) :
    k3_pay2 (F := Ideal) (qblk V c t) (kblk V c t) (vblk V c t) (k3_pay1 (F := Ideal)) (ix2 r d)
      = part (qarr V c) (karr V c) (varr V c) 0 R d := by
  refine (pay2_apply (qblk V c t) (kblk V c t) (vblk V c t) (k3_pay1 (F := Ideal)) r d).trans ?_
  refine (congrArg₂ (· + ·) (pay1_apply (ix2 r d)) (share_at V c t r d R hR 0 h0)).trans ?_
  exact (part_zero (qarr V c) (karr V c) (varr V c) R d).symm

/-- The update of a partial sum at a later point: the next partial sum. -/
theorem step_value (c : Dev nD) (t : Fin cfg3.N) (r : Fin 512) (d : Fin 2048) (R : Fin 4096)
    (hR : R.val = 512 * (t.val / 8) + r.val) (j : ℕ) (hj : t.val % 8 = j + 1) (acc : FVec Ideal S512x2048 .f32)
    (ih : acc (ix2 r d) = part (qarr V c) (karr V c) (varr V c) j R d) :
    k3_pay2 (F := Ideal) (qblk V c t) (kblk V c t) (vblk V c t) acc (ix2 r d)
      = part (qarr V c) (karr V c) (varr V c) (j + 1) R d := by
  refine (pay2_apply (qblk V c t) (kblk V c t) (vblk V c t) acc r d).trans ?_
  refine (congrArg₂ (· + ·) ih (share_at V c t r d R hR (j + 1) hj)).trans ?_
  exact (part_succ (qarr V c) (karr V c) (varr V c) j R d).symm

/-! ## The accumulator point by point -/

/-- At the first point of a row of the grid. -/
theorem scratch_A (c : Dev nD) (t : Fin cfg3.N) (h0 : t.val % 8 = 0) (r : Fin 512) (d : Fin 2048) (R : Fin 4096)
    (hR : R.val = 512 * (t.val / 8) + r.val) :
    (outsAt3 V c t.val t.isLt).2 (ix2 r d) = part (qarr V c) (karr V c) (varr V c) 0 R d := by
  have h1 : ¬t.val % 8 = 7 := by omega
  rw [outsAt3_A V c t h0 h1]
  dsimp only
  refine (congrFun (sout_A (F := Ideal) c (grid3.coords t) (ms3_0 t) (hs3_0 t) (ms3_1 t) (hs3_1 t) (ms3_2 t) (hs3_2 t) (ms3_3 t) (hs3_3 t) scM3_0 (Memref.isWhole_whole _) ((hcond3_0 t).mpr h0) (fun h => h1 ((hcond3_1 t).mp h)) (iblk3 V c 0 t) (iblk3 V c 1 t) (iblk3 V c 2 t)) (ix2 r d)).trans ?_
  exact reset_value V c t h0 r d R hR

/-- At a later point, from what the point before left. -/
theorem scratch_step (c : Dev nD) (t : Fin cfg3.N) (h0 : ¬t.val % 8 = 0) (r : Fin 512) (d : Fin 2048) (R : Fin 4096)
    (hR : R.val = 512 * (t.val / 8) + r.val) (j : ℕ) (hj : t.val % 8 = j + 1)
    (ih : (outsAt3 V c (t.val - 1) (Nat.lt_of_le_of_lt (Nat.sub_le _ _) t.isLt)).2 (ix2 r d) = part (qarr V c) (karr V c) (varr V c) j R d) :
    (outsAt3 V c t.val t.isLt).2 (ix2 r d) = part (qarr V c) (karr V c) (varr V c) (j + 1) R d := by
  by_cases h1 : t.val % 8 = 7
  · rw [outsAt3_C V c t h0 h1]
    dsimp only
    refine (congrFun (sout_C (F := Ideal) c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h1) (iblk3 V c 0 t) (iblk3 V c 1 t) (iblk3 V c 2 t) (outsAt3 V c (t.val - 1) (Nat.lt_of_le_of_lt (Nat.sub_le _ _) t.isLt)).2) (ix2 r d)).trans ?_
    exact step_value V c t r d R hR j hj (outsAt3 V c (t.val - 1) (Nat.lt_of_le_of_lt (Nat.sub_le _ _) t.isLt)).2 ih
  · rw [outsAt3_B V c t h0 h1]
    dsimp only
    refine (congrFun (sout_B (F := Ideal) c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) (fun h => h1 ((hcond3_1 t).mp h)) (iblk3 V c 0 t) (iblk3 V c 1 t) (iblk3 V c 2 t) (outsAt3 V c (t.val - 1) (Nat.lt_of_le_of_lt (Nat.sub_le _ _) t.isLt)).2) (ix2 r d)).trans ?_
    exact step_value V c t r d R hR j hj (outsAt3 V c (t.val - 1) (Nat.lt_of_le_of_lt (Nat.sub_le _ _) t.isLt)).2 ih

/-- THE INVARIANT. After point n the accumulator holds, at (r, d), the context of row 512 (n / 8) + r over the first
    n % 8 + 1 runs of key rows: by induction on the point. -/
theorem scratch_eq (c : Dev nD) : ∀ (n : ℕ) (h : n < cfg3.N) (r : Fin 512) (d : Fin 2048) (R : Fin 4096)
    (hR : R.val = 512 * (n / 8) + r.val),
    (outsAt3 V c n h).2 (ix2 r d) = part (qarr V c) (karr V c) (varr V c) (n % 8) R d
  | 0, h, r, d, R, hR => scratch_A V c ⟨0, h⟩ rfl r d R hR
  | n + 1, h, r, d, R, hR => by
    by_cases h0 : (n + 1) % 8 = 0
    · rw [h0]
      exact scratch_A V c ⟨n + 1, h⟩ h0 r d R hR
    · have hj : (n + 1) % 8 = n % 8 + 1 := by omega
      have hd : (n + 1) / 8 = n / 8 := by omega
      rw [hj]
      exact scratch_step V c ⟨n + 1, h⟩ h0 r d R hR (n % 8) hj
        (scratch_eq c n (Nat.lt_of_succ_lt h) r d R (by rw [← hd]; exact hR))

/-- At the last point of a row of the grid the output block holds the whole context of its rows. -/
theorem out_eq (c : Dev nD) (t : Fin cfg3.N) (h7 : t.val % 8 = 7) (r : Fin 512) (d : Fin 2048) (R : Fin 4096)
    (hR : R.val = 512 * (t.val / 8) + r.val) :
    (outsAt3 V c t.val t.isLt).1 (ix2 r d) = Cert.Spec.attn (qarr V c) (karr V c) (varr V c) (ix2 R d) := by
  have h0 : ¬t.val % 8 = 0 := by omega
  have hp : (t.val - 1) % 8 = 6 := by omega
  have hd : (t.val - 1) / 8 = t.val / 8 := by omega
  have ih := scratch_eq V c (t.val - 1) (Nat.lt_of_le_of_lt (Nat.sub_le _ _) t.isLt) r d R (by rw [hd]; exact hR)
  rw [hp] at ih
  rw [outsAt3_C V c t h0 h7]
  dsimp only
  refine (congrFun (out_C (F := Ideal) c (grid3.coords t) (ms3_0 t) (hs3_0 t) (ms3_1 t) (hs3_1 t) (ms3_2 t) (hs3_2 t) (ms3_3 t) (hs3_3 t) scM3_0 (Memref.isWhole_whole _) (fun h => h0 ((hcond3_0 t).mp h)) ((hcond3_1 t).mpr h7) (iblk3 V c 0 t) (iblk3 V c 1 t) (iblk3 V c 2 t) (outsAt3 V c (t.val - 1) (Nat.lt_of_le_of_lt (Nat.sub_le _ _) t.isLt)).2) (ix2 r d)).trans ?_
  refine (step_value V c t r d R hR 6 h7 (outsAt3 V c (t.val - 1) (Nat.lt_of_le_of_lt (Nat.sub_le _ _) t.isLt)).2 ih).trans ?_
  exact part_seven (qarr V c) (karr V c) (varr V c) R d

/-! ## The output array after the last point -/

/-- What a point that writes its block back writes is its block of the context of the three input arrays. -/
theorem flushed_eq (c : Dev nD) (t : Fin cfg3.N) (hf : (cfg3.win 3).flush t = true) :
    (dat3 V c).flushed 3 t = ((cfg3.win 3).blk t).view.read (Elt Ideal) (Cert.Spec.attn (qarr V c) (karr V c) (varr V c)) := by
  have h7 : t.val % 8 = 7 := (flush3_3 t).mp hf
  have hN : t.val < 64 := lt_of_lt_of_eq t.isLt (show cfg3.N = 64 from N_3)
  show (cfg3.win 3).cut (grid3.coords t) ((dat3 V c).after 3 t) = _
  rw [after3_3]
  funext y
  have hy0 : (y 0).val < 512 := (y 0).isLt
  have hy1 : (y 1).val < 2048 := (y 1).isLt
  have hy : (cfg3.win 3).xinj (grid3.coords t) y = ix2 (n0 := 512) (n1 := 2048) ⟨(y 0).val, hy0⟩ ⟨(y 1).val, hy1⟩ := by
    funext a
    match a with
    | ⟨0, _⟩ => rfl
    | ⟨1, _⟩ => rfl
  have he : ((cfg3.win 3).blk t).view.emb y = ix2 (n0 := 4096) (n1 := 2048) ⟨512 * (t.val / 8) + (y 0).val, by omega⟩ ⟨(y 1).val, hy1⟩ := by
    funext a; apply Fin.ext
    match a with
    | ⟨0, _⟩ => show win3_3.index t (0 : Fin 2) * 512 + 1 * (y 0).val = 512 * (t.val / 8) + (y 0).val; rw [(idx3_3 t).1]; omega
    | ⟨1, _⟩ => show win3_3.index t (1 : Fin 2) * 2048 + 1 * (y 1).val = (y 1).val; rw [(idx3_3 t).2]; omega
  show (outsAt3 V c t.val t.isLt).1 ((cfg3.win 3).xinj (grid3.coords t) y)
    = Cert.Spec.attn (qarr V c) (karr V c) (varr V c) (((cfg3.win 3).blk t).view.emb y)
  refine (congrArg (outsAt3 V c t.val t.isLt).1 hy).trans ?_
  refine (out_eq V c t h7 ⟨(y 0).val, hy0⟩ ⟨(y 1).val, hy1⟩ ⟨512 * (t.val / 8) + (y 0).val, by omega⟩ rfl).trans ?_
  exact (congrArg (Cert.Spec.attn (qarr V c) (karr V c) (varr V c)) he).symm

/-- Every row of the output array is in the block of the last point of its row of the grid. -/
theorem cover3 (i : Cert.Spec.SX.Idx) :
    ∃ t : Fin cfg3.N, (cfg3.win 3).flush t = true ∧ i ∈ ((cfg3.win 3).blk t).view.set := by
  have h0 : (i 0).val < 4096 := (i 0).isLt
  have h1 : (i 1).val < 2048 := (i 1).isLt
  have hN : cfg3.N = 64 := N_3
  have ht : 8 * ((i 0).val / 512) + 7 < cfg3.N := by omega
  refine ⟨⟨8 * ((i 0).val / 512) + 7, ht⟩, (flush3_3 _).mpr (by dsimp only; omega), ?_⟩
  show i ∈ ((View.whole main_v10).slice (win3_3.rect ⟨8 * ((i 0).val / 512) + 7, ht⟩)).set
  rw [View.set_slice_whole, Rect.mem_set_unit]
  intro a
  match a with
  | ⟨0, _⟩ =>
    show win3_3.index ⟨8 * ((i 0).val / 512) + 7, ht⟩ (0 : Fin 2) * 512 ≤ (i 0).val
      ∧ (i 0).val < win3_3.index ⟨8 * ((i 0).val / 512) + 7, ht⟩ (0 : Fin 2) * 512 + 512
    rw [(idx3_3 ⟨8 * ((i 0).val / 512) + 7, ht⟩).1]; dsimp only; omega
  | ⟨1, _⟩ =>
    show win3_3.index ⟨8 * ((i 0).val / 512) + 7, ht⟩ (1 : Fin 2) * 2048 ≤ (i 1).val
      ∧ (i 1).val < win3_3.index ⟨8 * ((i 0).val / 512) + 7, ht⟩ (1 : Fin 2) * 2048 + 2048
    rw [(idx3_3 ⟨8 * ((i 0).val / 512) + 7, ht⟩).2]; omega

end Cert.KernelIdeal.FrV

namespace Cert.KernelIdeal.FrV

open Cert.KernelIdeal Cert.KernelIdeal.Gen Cert.KernelIdeal.Fr
open Idealize.ShloMosaic Idealize.ShloMosaic.TcCoe Idealize.SL.Sem

/-- THE REGION'S VALUE: after the last point the output array holds the context of the three input arrays as the
    region finds them. -/
theorem attn_final (V : (c : Dev nD) → (b : Ref sig .tc) → Buf (Elt Ideal) ((c : Thread nD τ).loc b)) (c : Dev nD) :
    (Cert.KernelIdeal.Fr.dat3 (F := Ideal) V c).arrAt 3 cfg3.N = Cert.Spec.attn (V c (Pipeline.arrRef spec3 0)) (V c (Pipeline.arrRef spec3 1)) (V c (Pipeline.arrRef spec3 2)) :=
  (Cert.KernelIdeal.Fr.dat3 (F := Ideal) V c).arrAt_eq_of_cover 3 (Cert.Spec.attn (qarr V c) (karr V c) (varr V c)) (flushed_eq V c) cover3

end Cert.KernelIdeal.FrV

end
-- ==== Proof.RefValue.lean ====
/-
  The reference's result, read index by index, is the specification G of the argument arrays.

  The reference computes three projections  x · Wᵀ + b  (a product with the transposed weight, plus the bias broadcast
  over the rows), the scores  (q · kᵀ) * c  with c one broadcast scalar word, and the product of the scores with v.
  Read at an index each of these is, term by term, the specification's lin, score and attn: the same operations in the
  same order, so nothing beyond identifying the indices is needed.
-/
import proofs.«111568_j50783693308389_1_alg».proof.Proof.Gen.ReferenceIdeal.Run
import proofs.«111568_j50783693308389_1_alg».proof.Proof.Gen.ReferenceIdeal.Read
import proofs.«111568_j50783693308389_1_alg».proof.Proof.Spec

noncomputable section

namespace Cert.ReferenceIdeal.RefValue

open Cert.ReferenceIdeal Cert.ReferenceIdeal.Gen Cert.ReferenceIdeal.Read Idealize.ShloMosaic Idealize.ShloMosaic.ValueIdx

/-! ## A projection  x · Wᵀ + b  at an index -/

/-- The left factor of the projection's term k at (r, d) is x at (r, k). -/
theorem lidx1_eq (i : S4096x2048.Idx) (k : Fin 2048) :
    lidx_main_v1 i k = ix2 (n0 := 4096) (n1 := 2048) (i 0) k :=
  funext fun a => Fin.ext (by match a with | ⟨0, _⟩ => rfl | ⟨1, _⟩ => rfl)

/-- The right factor, the transposed weight at (k, d), is the weight at (d, k). -/
theorem ridx1_eq (i : S4096x2048.Idx) (k : Fin 2048) :
    idx_main_v0 (ridx_main_v1 i k) = ix2 (n0 := 2048) (n1 := 2048) (i 1) k :=
  funext fun a => Fin.ext (by match a with | ⟨0, _⟩ => rfl | ⟨1, _⟩ => rfl)

/-- The bias, broadcast to one row and then to every row, is read at the column d. -/
theorem bidx_eq (i : S4096x2048.Idx) :
    idx_main_v2 (idx_main_v3 i) = ix1 (n := 2048) (i 1) :=
  funext fun a => Fin.ext (by match a with | ⟨0, _⟩ => rfl)

/-- The first projection at an index is the specification's lin. -/
theorem lin_apply (x : (⟨S4096x2048, .f32⟩ : BufTy).Contents (Elt Ideal)) (W : (⟨S2048x2048, .f32⟩ : BufTy).Contents (Elt Ideal))
    (b : (⟨S2048, .f32⟩ : BufTy).Contents (Elt Ideal)) (i : S4096x2048.Idx) :
    val_main_v4 (F := Ideal) x W b i = Cert.Spec.lin x W b i := by
  rw [val_main_v4_apply, val_main_v1_apply, val_main_v3_apply, val_main_v2_apply, bidx_eq, Ideal.addf_def]
  unfold Cert.Spec.lin
  congr 1
  refine Finset.sum_congr rfl fun k _ => ?_
  rw [val_main_v0_apply, lidx1_eq, ridx1_eq]

/-- As functions. -/
theorem lin_fun (x : (⟨S4096x2048, .f32⟩ : BufTy).Contents (Elt Ideal)) (W : (⟨S2048x2048, .f32⟩ : BufTy).Contents (Elt Ideal))
    (b : (⟨S2048, .f32⟩ : BufTy).Contents (Elt Ideal)) :
    val_main_v4 (F := Ideal) x W b = Cert.Spec.lin x W b := funext (lin_apply x W b)

/-- The second projection is the same function of its arguments as the first … -/
theorem v9_eq (x : (⟨S4096x2048, .f32⟩ : BufTy).Contents (Elt Ideal)) (W : (⟨S2048x2048, .f32⟩ : BufTy).Contents (Elt Ideal))
    (b : (⟨S2048, .f32⟩ : BufTy).Contents (Elt Ideal)) :
    val_main_v9 (F := Ideal) x W b = val_main_v4 (F := Ideal) x W b := rfl

/-- … and so is the third. -/
theorem v14_eq (x : (⟨S4096x2048, .f32⟩ : BufTy).Contents (Elt Ideal)) (W : (⟨S2048x2048, .f32⟩ : BufTy).Contents (Elt Ideal))
    (b : (⟨S2048, .f32⟩ : BufTy).Contents (Elt Ideal)) :
    val_main_v14 (F := Ideal) x W b = val_main_v4 (F := Ideal) x W b := rfl

/-! ## The scaled scores at (r, n) -/

/-- The left factor of the score's term k at (r, n) is q at (r, k). -/
theorem lidx16_eq (r n : Fin 4096) (k : Fin 2048) :
    lidx_main_v16 (ix2 (n0 := 4096) (n1 := 4096) r n) k = ix2 (n0 := 4096) (n1 := 2048) r k :=
  funext fun a => Fin.ext (by match a with | ⟨0, _⟩ => rfl | ⟨1, _⟩ => rfl)

/-- The right factor, the transposed k at (k, n), is k at (n, k). -/
theorem ridx16_eq (r n : Fin 4096) (k : Fin 2048) :
    idx_main_v15 (ridx_main_v16 (ix2 (n0 := 4096) (n1 := 4096) r n) k) = ix2 (n0 := 4096) (n1 := 2048) n k :=
  funext fun a => Fin.ext (by match a with | ⟨0, _⟩ => rfl | ⟨1, _⟩ => rfl)

/-- The scaled scores at (r, n) are the specification's score of the first two projections. -/
theorem score_apply (x0 : (⟨S4096x2048, .f32⟩ : BufTy).Contents (Elt Ideal)) (x1 : (⟨S2048x2048, .f32⟩ : BufTy).Contents (Elt Ideal))
    (x2 : (⟨S2048, .f32⟩ : BufTy).Contents (Elt Ideal)) (x3 : (⟨S2048x2048, .f32⟩ : BufTy).Contents (Elt Ideal))
    (x4 : (⟨S2048, .f32⟩ : BufTy).Contents (Elt Ideal)) (r n : Fin 4096) :
    val_main_v18 (F := Ideal) x0 x1 x2 x3 x4 (ix2 (n0 := 4096) (n1 := 4096) r n)
      = Cert.Spec.score (Cert.Spec.lin x0 x1 x2) (Cert.Spec.lin x0 x3 x4) r n := by
  rw [val_main_v18_apply, val_main_v16_apply, val_main_v17_apply, val_main_cst_apply, Ideal.mulf_def]
  unfold Cert.Spec.score Cert.Spec.cscale
  congr 1
  refine Finset.sum_congr rfl fun k _ => ?_
  rw [val_main_v15_apply, lidx16_eq, ridx16_eq, v9_eq, lin_fun, lin_fun]

/-! ## The result -/

/-- The left factor of the result's term n at (r, d) is the score at (r, n). -/
theorem lidx19_eq (i : S4096x2048.Idx) (n : Fin 4096) :
    lidx_main_v19 i n = ix2 (n0 := 4096) (n1 := 4096) (i 0) n :=
  funext fun a => Fin.ext (by match a with | ⟨0, _⟩ => rfl | ⟨1, _⟩ => rfl)

/-- The right factor is v at (n, d). -/
theorem ridx19_eq (i : S4096x2048.Idx) (n : Fin 4096) :
    ridx_main_v19 i n = ix2 (n0 := 4096) (n1 := 2048) n (i 1) :=
  funext fun a => Fin.ext (by match a with | ⟨0, _⟩ => rfl | ⟨1, _⟩ => rfl)

/-- The reference's result is G of the argument arrays. -/
theorem ref_is_G (x0 : (⟨S4096x2048, .f32⟩ : BufTy).Contents (Elt Ideal)) (x1 : (⟨S2048x2048, .f32⟩ : BufTy).Contents (Elt Ideal)) (x2 : (⟨S2048, .f32⟩ : BufTy).Contents (Elt Ideal)) (x3 : (⟨S2048x2048, .f32⟩ : BufTy).Contents (Elt Ideal)) (x4 : (⟨S2048, .f32⟩ : BufTy).Contents (Elt Ideal)) (x5 : (⟨S2048x2048, .f32⟩ : BufTy).Contents (Elt Ideal)) (x6 : (⟨S2048, .f32⟩ : BufTy).Contents (Elt Ideal)) :
    Cert.ReferenceIdeal.Read.val_main_v19 (F := Ideal) x0 x1 x2 x3 x4 x5 x6 = Cert.Spec.G x0 x1 x2 x3 x4 x5 x6 := by
  funext i
  rw [val_main_v19_apply]
  unfold Cert.Spec.G Cert.Spec.attn
  refine Finset.sum_congr rfl fun n _ => ?_
  rw [lidx19_eq, ridx19_eq, v14_eq, lin_fun]
  exact congrArg₂ (· * ·) (score_apply x0 x1 x2 x3 x4 (i 0) n) rfl

end Cert.ReferenceIdeal.RefValue

end
-- ==== Proof.lean ====
/-
  The certificate: a kernel that computes attention without softmax, context = ((q kᵀ) · c) v with q, k, v three
  projections x Wᵀ + b of the same rows, as three row-blocked projection kernels and one attention kernel that
  accumulates the context over eight blocks of keys in a scratch buffer, against the plain formula.

  On the extended reals every change of float format is the identity, both sides multiply the scores by the same
  word c, and the kernel's accumulation over key blocks is the reference's one sum over all 4096 keys cut into eight
  consecutive runs of 512 (addition of extended reals is commutative and associative, so no finiteness is used).
  The three frames: each kernel program runs as seven items (host stretches and kernel regions) whose buffer
  contents are a fold from the launch memory, and no item writes an argument; the reference is a host program whose
  run is read back operation by operation. The idealization rewrote nothing, so 'preserves' is trivial.
-/
import proofs.«111568_j50783693308389_1_alg».proof.Defs
import proofs.«111568_j50783693308389_1_alg».proof.Proof.Gen.Kernel
import proofs.«111568_j50783693308389_1_alg».proof.Proof.Gen.KernelIdeal
import proofs.«111568_j50783693308389_1_alg».proof.Proof.Gen.ReferenceIdeal
import proofs.«111568_j50783693308389_1_alg».proof.Proof.Gen.Pre_finite_inputs
import proofs.«111568_j50783693308389_1_alg».proof.Proof.K.Run
import proofs.«111568_j50783693308389_1_alg».proof.Proof.KI.Run
import proofs.«111568_j50783693308389_1_alg».proof.Proof.KI.Value
import proofs.«111568_j50783693308389_1_alg».proof.Proof.KI.AttnValue
import proofs.«111568_j50783693308389_1_alg».proof.Proof.RefValue

noncomputable section

namespace Cert.KernelIdeal.FrV

open Cert.KernelIdeal Cert.KernelIdeal.Gen Cert.KernelIdeal.Fr
open Idealize.ShloMosaic Idealize.ShloMosaic.TcCoe Idealize.SL.Sem

variable (m : (ℓ : Loc nD τ sig) → Buf (Elt Ideal) ℓ) (ρ : Dev nD → PrngReg)

/-- The result array: the attention region's write-backs leave the specification's attention of q, k and v, which are
    the specification's projections of the arguments. -/
theorem result_eq (c : Dev nD) : ((dat3 (F := Ideal) (V6 m ρ) c).arrAt 3 cfg3.N : S4096x2048.Idx → EReal)
    = Cert.Spec.G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6)) := by
  rw [attn_final]
  unfold Cert.Spec.G
  rw [show (V6 m ρ c (Pipeline.arrRef spec3 0) : S4096x2048.Idx → EReal) = _ from q_eq m ρ c,
    show (V6 m ρ c (Pipeline.arrRef spec3 1) : S4096x2048.Idx → EReal) = _ from k_eq m ρ c,
    show (V6 m ρ c (Pipeline.arrRef spec3 2) : S4096x2048.Idx → EReal) = _ from v_eq m ρ c]

end Cert.KernelIdeal.FrV

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Fr.frame m ρ

theorem frame_ki : Cert.frame_KernelIdeal (hKernelIdeal := Cert.KernelIdeal.Gen.facts) (hPre_finite_inputs := Cert.Pre_finite_inputs.Gen.facts) :=
  fun m ρ _ => Cert.KernelIdeal.Fr.frame m ρ

/-- The reference's frame: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both idealized programs end at the specification G of the argument arrays: the kernel by its run and the value
    of its four regions, the reference by its run read operation by operation; the arguments agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.KernelIdeal.FrV.result_eq m ρ c), (h c).2⟩) (Cert.KernelIdeal.Fr.run_out (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v19_eq, Cert.ReferenceIdeal.RefValue.ref_is_G,
      (hagree c).1, (hagree c).2.1, (hagree c).2.2.1, (hagree c).2.2.2.1, (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
